-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg25 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S256 .f32) (main_arg22 : FVec F S128x256 .f32) (main_arg23 : FVec F S128 .f32) (main_arg24 : FVec F S128x128 .f32) (main_arg25 : FVec F S128 .f32) (main_v98 : IVec S_ 1) (main_v101 : IVec S256x192 1) (main_c_39 : IVec S_ 1) : IVec S_ 1 :=
  let main_v102 : IVec S_ 1 := (fun x v => Host.reduce IntOp.andi x v reducesTo_S256x192_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_v118 main_v119

def fn_part5 {F : FTy → Type} [FloatOps F] (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg18
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x192 .f32 := Host.absf main_arg20
  let main_cst_38 : FVec F S_ .f32 := constant S_ .f32 0x7F800000#32
  let main_v100 : FVec F S256x192 .f32 := broadcastInDim S256x192 ![] bcast_S_S256x192 main_cst_38
  let main_v101 : IVec S256x192 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S192x256 : Shape := ⟨2, ![192, 256]⟩
abbrev S256x128 : Shape := ⟨2, ![256, 128]⟩
abbrev S128x10 : Shape := ⟨2, ![128, 10]⟩
abbrev S1x128 : Shape := ⟨2, ![1, 128]⟩
abbrev S400x10000 : Shape := ⟨2, ![400, 10000]⟩
abbrev S400x128 : Shape := ⟨2, ![400, 128]⟩
abbrev S1x64 : Shape := ⟨2, ![1, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S10000x192 : Shape := ⟨2, ![10000, 192]⟩
abbrev S400x10 : Shape := ⟨2, ![400, 10]⟩
abbrev S400x192 : Shape := ⟨2, ![400, 192]⟩
abbrev S10000x64 : Shape := ⟨2, ![10000, 64]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 56
  | .vmem => 42
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S192x256, .f32⟩
  | .hbm, ⟨27, _⟩ => ⟨S256x128, .f32⟩
  | .hbm, ⟨28, _⟩ => ⟨S128x10, .f32⟩
  | .hbm, ⟨29, _⟩ => ⟨S192x256, .f32⟩
  | .hbm, ⟨30, _⟩ => ⟨S256x128, .f32⟩
  | .hbm, ⟨31, _⟩ => ⟨S128x128, .f32⟩
  | .hbm, ⟨32, _⟩ => ⟨S1x128, .f32⟩
  | .hbm, ⟨33, _⟩ => ⟨S10000x128, .f32⟩
  | .hbm, ⟨34, _⟩ => ⟨S1x64, .f32⟩
  | .hbm, ⟨35, _⟩ => ⟨S128x256, .f32⟩
  | .hbm, ⟨36, _⟩ => ⟨S64x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x10, .f32⟩
  | .hbm, ⟨48, _⟩ => ⟨S128x256, .f32⟩
  | .hbm, ⟨49, _⟩ => ⟨S64x256, .f32⟩
  | .hbm, ⟨50, _⟩ => ⟨S1x256, .f32⟩
  | .hbm, ⟨51, _⟩ => ⟨S1x128, .f32⟩
  | .hbm, ⟨52, _⟩ => ⟨S1x128, .f32⟩
  | .hbm, ⟨53, _⟩ => ⟨S10000x10, .f32⟩
  | .hbm, ⟨54, _⟩ => ⟨S10000x128, .f32⟩
  | .hbm, ⟨55, _⟩ => ⟨S10000x192, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S128x64, .f32⟩
  | .local _ .vmem, ⟨12, _⟩ => ⟨S1x64, .f32⟩
  | .local _ .vmem, ⟨13, _⟩ => ⟨S128x256, .f32⟩
  | .local _ .vmem, ⟨14, _⟩ => ⟨S64x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x10, .f32⟩
  | .local _ .vmem, ⟨27, _⟩ => ⟨S1x10, .f32⟩
  | .local _ .vmem, ⟨28, _⟩ => ⟨S128x256, .f32⟩
  | .local _ .vmem, ⟨29, _⟩ => ⟨S64x256, .f32⟩
  | .local _ .vmem, ⟨30, _⟩ => ⟨S1x256, .f32⟩
  | .local _ .vmem, ⟨31, _⟩ => ⟨S256x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S400x10, .f32⟩
  | .local _ .vmem, ⟨36, _⟩ => ⟨S400x10, .f32⟩
  | .local _ .vmem, ⟨37, _⟩ => ⟨S400x128, .f32⟩
  | .local _ .vmem, ⟨38, _⟩ => ⟨S400x128, .f32⟩
  | .local _ .vmem, ⟨39, _⟩ => ⟨S400x192, .f32⟩
  | .local _ .vmem, ⟨40, _⟩ => ⟨S400x192, .f32⟩
  | .local _ .vmem, ⟨41, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg19_0 : Ref sig .tc := ⟨.vmem, 28, rfl⟩
abbrev cc1_stg20_0 : Ref sig .tc := ⟨.vmem, 29, rfl⟩
abbrev cc1_stg21_0 : Ref sig .tc := ⟨.vmem, 30, rfl⟩
abbrev cc1_stg22_0 : Ref sig .tc := ⟨.vmem, 31, rfl⟩
abbrev cc1_stg23_0 : Ref sig .tc := ⟨.vmem, 32, rfl⟩
abbrev cc1_stg24_0 : Ref sig .tc := ⟨.vmem, 33, rfl⟩
abbrev cc1_stg25_0 : Ref sig .tc := ⟨.vmem, 34, rfl⟩
abbrev cc1_stg26_0 : Ref sig .tc := ⟨.vmem, 35, rfl⟩
abbrev cc1_stg26_1 : Ref sig .tc := ⟨.vmem, 36, rfl⟩
abbrev cc1_stg27_0 : Ref sig .tc := ⟨.vmem, 37, rfl⟩
abbrev cc1_stg27_1 : Ref sig .tc := ⟨.vmem, 38, rfl⟩
abbrev cc1_stg28_0 : Ref sig .tc := ⟨.vmem, 39, rfl⟩
abbrev cc1_stg28_1 : Ref sig .tc := ⟨.vmem, 40, rfl⟩
abbrev cc1_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem18_0 : DmaSem sig := 26
abbrev cc1_sem19_0 : DmaSem sig := 27
abbrev cc1_sem20_0 : DmaSem sig := 28
abbrev cc1_sem21_0 : DmaSem sig := 29
abbrev cc1_sem22_0 : DmaSem sig := 30
abbrev cc1_sem23_0 : DmaSem sig := 31
abbrev cc1_sem24_0 : DmaSem sig := 32
abbrev cc1_sem25_0 : DmaSem sig := 33
abbrev cc1_sem26_0 : DmaSem sig := 34
abbrev cc1_sem26_1 : DmaSem sig := 35
abbrev cc1_sem27_0 : DmaSem sig := 36
abbrev cc1_sem27_1 : DmaSem sig := 37
abbrev cc1_sem28_0 : DmaSem sig := 38
abbrev cc1_sem28_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_27 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_28 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S128x10 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x10 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S128x256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S64x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S256x128 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x128 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S128x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S1x128 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 2 → Memref sig .tc .vmem S400x10 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S400x128 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S400x192 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

class Facts₀ : Prop where
  transposes_S256x192_S192x256_1_0 : S256x192.Transposes [1, 0] S192x256
  transposes_S128x256_S256x128_1_0 : S128x256.Transposes [1, 0] S256x128
  transposes_S10x128_S128x10_1_0 : S10x128.Transposes [1, 0] S128x10
  transposes_S128x128_S128x128_1_0 : S128x128.Transposes [1, 0] S128x128
  bcast_S128_S1x128_1 : S128.BroadcastsInDim S1x128 (![1] : Fin 1 → Fin S1x128.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  bcast_S64_S1x64_1 : S64.BroadcastsInDim S1x64 (![1] : Fin 1 → Fin S1x64.rank)
  slices_S192x256_S128x256_0_0 : S192x256.Slices ![0, 0] S128x256
  slices_S192x256_S64x256_128_0 : S192x256.Slices ![128, 0] S64x256
  bcast_S256_S1x256_1 : S256.BroadcastsInDim S1x256 (![1] : Fin 1 → Fin S1x256.rank)
  bcast_S10_S1x10_1 : S10.BroadcastsInDim S1x10 (![1] : Fin 1 → Fin S1x10.rank)
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  shapeCasts_S400x128_S400x128 : S400x128.ShapeCasts S400x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x192_S400x128_0_0 : ∀ a, (![0, 0] : Fin 2 → Nat) a + S400x128.size a ≤ S400x192.size a
  inb_S400x192_S400x64_0_128 : ∀ a, (![0, 128] : Fin 2 → Nat) a + S400x64.size a ≤ S400x192.size a
  h_S400x64 : 0 < S400x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  reduces_S400x10_S400 : S400x10.Reduces [1] S400
  shapeCasts_S400_S400x1 : S400.ShapeCasts S400x1
  broadcasts_S400x1_S400x10 : S400x1.Broadcasts S400x10
  inb_S400x10_S400x10_0_0 : ∀ a, (![0, 0] : Fin 2 → Nat) a + S400x10.size a ≤ S400x10.size a
  h_S400x10 : 0 < S400x10.numel
  shapeCasts_S128x128_S128x128 : S128x128.ShapeCasts S128x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x128_S128x256_S400x256_1_0_0_1_n_n_wf : DotDims.WF S400x128 S128x256 S400x256 [1] [0] [0] [1] [] []
  dot_S400x64_S64x256_S400x256_1_0_0_1_n_n_wf : DotDims.WF S400x64 S64x256 S400x256 [1] [0] [0] [1] [] []
  dot_S400x256_S256x128_S400x128_1_0_0_1_n_n_wf : DotDims.WF S400x256 S256x128 S400x128 [1] [0] [0] [1] [] []
  dot_S400x128_S128x10_S400x10_1_0_0_1_n_n_wf : DotDims.WF S400x128 S128x10 S400x10 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  k1_off1_inb : ∀ i : grid1.Coords, ∀ a, (k1_off1 i) a + S400x128.size a ≤ S10000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x256.size a ≤ S64x256.size a
  hwx1_5 : ∀ i : grid1.Coords, EltTy.bits .f32 = 32 ∨ (Rect.block (s := S64x256) S64x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x128.size a ≤ S256x128.size a
  hwx1_11 : ∀ i : grid1.Coords, EltTy.bits .f32 = 32 ∨ (Rect.block (s := S256x128) S256x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S128x10.size a ≤ S128x10.size a
  hwx1_17 : ∀ i : grid1.Coords, EltTy.bits .f32 = 32 ∨ (Rect.block (s := S128x10) S128x10.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x10.size a ≤ S1x10.size a
  hwx1_18 : ∀ i : grid1.Coords, EltTy.bits .f32 = 32 ∨ (Rect.block (s := S1x10) S1x10.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S128x256.size a ≤ S128x256.size a
  hwx1_19 : ∀ i : grid1.Coords, EltTy.bits .f32 = 32 ∨ (Rect.block (s := S128x256) S128x256.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S64x256.size a ≤ S64x256.size a
  hwx1_20 : ∀ i : grid1.Coords, EltTy.bits .f32 = 32 ∨ (Rect.block (s := S64x256) S64x256.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x256.size a ≤ S1x256.size a
  hwx1_21 : ∀ i : grid1.Coords, EltTy.bits .f32 = 32 ∨ (Rect.block (s := S1x256) S1x256.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S256x128.size a ≤ S256x128.size a
  hwx1_22 : ∀ i : grid1.Coords, EltTy.bits .f32 = 32 ∨ (Rect.block (s := S256x128) S256x128.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S1x128.size a ≤ S1x128.size a
  hwx1_23 : ∀ i : grid1.Coords, EltTy.bits .f32 = 32 ∨ (Rect.block (s := S1x128) S1x128.size (cc1_transform_23 i) (hinb1_23 i)).WholeWords (EltTy.packing .f32)
  hstage1_24 : ∀ j, (stage1_24 j).IsWhole
  nbuf1_24 : grid1.bufCount reads1_24 true = 1
  hreads1_24 : ∀ i i' : grid1.Coords, (∀ a, reads1_24 a = true → i a = i' a) → cc1_transform_24 i = cc1_transform_24 i'
  hinb1_24 : ∀ (i : grid1.Coords) a, (cc1_transform_24 i a + 1) * S128x128.size a ≤ S128x128.size a
  hwx1_24 : ∀ i : grid1.Coords, EltTy.bits .f32 = 32 ∨ (Rect.block (s := S128x128) S128x128.size (cc1_transform_24 i) (hinb1_24 i)).WholeWords (EltTy.packing .f32)
  hstage1_25 : ∀ j, (stage1_25 j).IsWhole
  nbuf1_25 : grid1.bufCount reads1_25 true = 1
  hreads1_25 : ∀ i i' : grid1.Coords, (∀ a, reads1_25 a = true → i a = i' a) → cc1_transform_25 i = cc1_transform_25 i'
  hinb1_25 : ∀ (i : grid1.Coords) a, (cc1_transform_25 i a + 1) * S1x128.size a ≤ S1x128.size a
  hwx1_25 : ∀ i : grid1.Coords, EltTy.bits .f32 = 32 ∨ (Rect.block (s := S1x128) S1x128.size (cc1_transform_25 i) (hinb1_25 i)).WholeWords (EltTy.packing .f32)
  hstage1_26 : ∀ j, (stage1_26 j).IsWhole
  nbuf1_26 : grid1.bufCount reads1_26 false = 2
  hreads1_26 : ∀ i i' : grid1.Coords, (∀ a, reads1_26 a = true → i a = i' a) → cc1_transform_26 i = cc1_transform_26 i'
  hinb1_26 : ∀ (i : grid1.Coords) a, (cc1_transform_26 i a + 1) * S400x10.size a ≤ S10000x10.size a
  hwx1_26 : ∀ i : grid1.Coords, EltTy.bits .f32 = 32 ∨ (Rect.block (s := S10000x10) S400x10.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S400x128.size a ≤ S10000x128.size a
  hwx1_27 : ∀ i : grid1.Coords, EltTy.bits .f32 = 32 ∨ (Rect.block (s := S10000x128) S400x128.size (cc1_transform_27 i) (hinb1_27 i)).WholeWords (EltTy.packing .f32)
  hstage1_28 : ∀ j, (stage1_28 j).IsWhole
  nbuf1_28 : grid1.bufCount reads1_28 false = 2
  hreads1_28 : ∀ i i' : grid1.Coords, (∀ a, reads1_28 a = true → i a = i' a) → cc1_transform_28 i = cc1_transform_28 i'
  hinb1_28 : ∀ (i : grid1.Coords) a, (cc1_transform_28 i a + 1) * S400x192.size a ≤ S10000x192.size a
  hwx1_28 : ∀ i : grid1.Coords, EltTy.bits .f32 = 32 ∨ (Rect.block (s := S10000x192) S400x192.size (cc1_transform_28 i) (hinb1_28 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x10_S400x10_1_0_0_1_n_n : DotDims S400x128 S128x10 S400x10 where
  lhsContracting := [1]
  rhsContracting := [0]
  lhsNonContracting := [0]
  rhsNonContracting := [1]
  lhsBatch := []
  rhsBatch := []
  wf := dot_S400x128_S128x10_S400x10_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S64x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v1) S256x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v16) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v17) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v18) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v19) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v20) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v2) S128x10.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v21) S1x10.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v22) S128x256.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v23) S64x256.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v24) S1x256.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v4) S256x128.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v25) S1x128.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v5) S128x128.size cc1_transform_24 reads1_24 false true 1 stage1_24 sem1_24
    hrank1 hreads1_24 hinb1_24 nbuf1_24 (Memref.isWhole_whole _) hwx1_24 hstage1_24

abbrev win1_25 : Pipeline.Window sig grid1 :=
  Pipeline.Window.ofSpec (Memref.whole main_v26) S1x128.size cc1_transform_25 reads1_25 false true 1 stage1_25 sem1_25
    hrank1 hreads1_25 hinb1_25 nbuf1_25 (Memref.isWhole_whole _) hwx1_25 hstage1_25

abbrev win1_26 : Pipeline.Window sig grid1 :=
  Pipeline.Window.ofSpec (Memref.whole main_v27_0) S400x10.size cc1_transform_26 reads1_26 true false 2 stage1_26 sem1_26
    hrank1 hreads1_26 hinb1_26 nbuf1_26 (Memref.isWhole_whole _) hwx1_26 hstage1_26

abbrev win1_27 : Pipeline.Window sig grid1 :=
  Pipeline.Window.ofSpec (Memref.whole main_v27_1) S400x128.size cc1_transform_27 reads1_27 true false 2 stage1_27 sem1_27
    hrank1 hreads1_27 hinb1_27 nbuf1_27 (Memref.isWhole_whole _) hwx1_27 hstage1_27

abbrev win1_28 : Pipeline.Window sig grid1 :=
  Pipeline.Window.ofSpec (Memref.whole main_v27_2) S400x192.size cc1_transform_28 reads1_28 true false 2 stage1_28 sem1_28
    hrank1 hreads1_28 hinb1_28 nbuf1_28 (Memref.isWhole_whole _) hwx1_28 hstage1_28

abbrev win1 : Fin 29 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | 28 => win1_28 | ⟨_ + 29, h⟩ => absurd h (Nat.not_lt.2 (Nat.le_add_left _ _))
abbrev spec1 : Fin 29 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x192 : Shape := ⟨2, ![10000, 192]⟩
abbrev S192x256 : Shape := ⟨2, ![192, 256]⟩
abbrev S10000x256 : Shape := ⟨2, ![10000, 256]⟩
abbrev S1x256 : Shape := ⟨2, ![1, 256]⟩
abbrev S_ : Shape := ⟨0, ![]⟩
abbrev S256x128 : Shape := ⟨2, ![256, 128]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 128
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S192x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S10000x256, .f32⟩
  | .hbm, ⟨53, _⟩ => ⟨S10000x256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S256x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S128x10, .f32⟩
  | .hbm, ⟨88, _⟩ => ⟨S10000x10, .f32⟩
  | .hbm, ⟨89, _⟩ => ⟨S1x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x10, .f32⟩
  | .hbm, ⟨99, _⟩ => ⟨S10000x10, .f32⟩
  | .hbm, ⟨100, _⟩ => ⟨S10000x10, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x10, .f32⟩
  | .hbm, ⟨106, _⟩ => ⟨S10000x10, .f32⟩
  | .hbm, ⟨107, _⟩ => ⟨S192x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S_, .f32⟩
  | .hbm, ⟨113, _⟩ => ⟨S10000x256, .f32⟩
  | .hbm, ⟨114, _⟩ => ⟨S10000x256, .f32⟩
  | .hbm, ⟨115, _⟩ => ⟨S256x128, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S_, .f32⟩
  | .hbm, ⟨121, _⟩ => ⟨S10000x128, .f32⟩
  | .hbm, ⟨122, _⟩ => ⟨S10000x128, .f32⟩
  | .hbm, ⟨123, _⟩ => ⟨S128x128, .f32⟩
  | .hbm, ⟨124, _⟩ => ⟨S10000x128, .f32⟩
  | .hbm, ⟨125, _⟩ => ⟨S1x128, .f32⟩
  | .hbm, ⟨126, _⟩ => ⟨S10000x128, .f32⟩
  | .hbm, ⟨127, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_cst : Ref sig .tc := ⟨.hbm, 112, rfl⟩
abbrev main_call3_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  transposes_S256x192_S192x256_1_0 : S256x192.Transposes [1, 0] S192x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256 : S_.BroadcastsInDim S256 (![] : Fin 0 → Fin S256.rank)
  bcast_S_S10000x256 : S_.BroadcastsInDim S10000x256 (![] : Fin 0 → Fin S10000x256.rank)
  transposes_S128x256_S256x128_1_0 : S128x256.Transposes [1, 0] S256x128
  bcast_S_S128 : S_.BroadcastsInDim S128 (![] : Fin 0 → Fin S128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x256_S10000x256_1_0_0_1_n_n_wf : DotDims.WF S10000x192 S192x256 S10000x256 [1] [0] [0] [1] [] []
  dot_S10000x256_S256x128_S10000x128_1_0_0_1_n_n_wf : DotDims.WF S10000x256 S256x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x256_S10000x256_1_0_0_1_n_n : DotDims S10000x192 S192x256 S10000x256 where
  lhsContracting := [1]
  rhsContracting := [0]
  lhsNonContracting := [0]
  rhsNonContracting := [1]
  lhsBatch := []
  rhsBatch := []
  wf := dot_S10000x192_S192x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.KI.Region0.lean ====
import proofs.«178126_g73521250173546_cont_sun_c4_545_6_alg».proof.Proof.Gen.KernelIdeal.Launch
import proofs.«178126_g73521250173546_cont_sun_c4_545_6_alg».proof.Proof.Gen.KernelIdeal.Skeleton
import proofs.«178126_g73521250173546_cont_sun_c4_545_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first graph-convolution call, at the buffer contents V the region is entered from

The kernel keeps the support (features times first weight) in a scratch buffer written at the grid's first point and
read at every point; a point's output block is the tanh of the adjacency row tile times that support plus the bias. -/

variable (V : (c : Dev nD) → (b : Ref sig .tc) → Buf (Elt F) ((c : Thread nD τ).loc b))

/-- The support, features times first weight, as the kernel keeps it between grid points. -/
def support0 (x2 : Vec F S10000x128 .f32) (x3 : Vec F S128x128 .f32) : Vec F S10000x128 .bf16 := k0_pay1 x2 x3
/-- One row tile of the first layer from the adjacency tile, the support and the bias row. -/
def tile0 (x1 : Vec F S400x10000 .f32) (s : Vec F S10000x128 .bf16) (x4 : Vec F S1x128 .f32) : Vec F S400x128 .f32 := k0_pay2 x1 s x4

/-- The branch taken exactly at the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

theorem zero_off2 : (![0, 0] : Fin 2 → ℕ) = fun _ => 0 := by funext a; fin_cases a <;> rfl

/-! ## The body, at the first point (the support is computed and stored) and at a later point (it is read back) -/

set_option maxHeartbeats 1000000 in
theorem sound_first0 (c : Dev nD) (E : Set ℕ) (i : grid0.Coords) (hc : cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole)
    (x1 : Vec F S400x10000 .f32) (x2 : Vec F S10000x128 .f32) (x3 : Vec F S128x128 .f32) (x4 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (tile0 x1 (support0 x2 x3) x4) ∗ owns (c : Thread nD τ) arg6 fullShare (support0 x2 x3)) -∗ K ⟨⟩))
      ⊢ wp frame (wpE (defs₀ (F := F)) Variants.none c none) E (cc0__pass1_body i arg1 harg1 arg2 harg2 arg3 harg3 arg4 harg4 arg5 harg5 arg6 harg6) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero zero_off2 inb_S400x128_S400x128_0_0 y⟩)]
    sl_unfold_words
    rw [View.canon_unit_zero zero_off2]
    simp only [View.readAt_eq_ld, View.ld_unit_zero (S := S400x10000) zero_off2, View.ld_unit_zero (S := S1x128) zero_off2,
      View.ld_unit_zero (S := S10000x128) zero_off2, View.ld_unit_zero (S := S128x128) zero_off2,
      View.readCov_unit_zero (S := S10000x128) _ zero_off2]
    rfl
  iexists _; isplitr
  swap; · iexact H6
  ipureintro
  sl_unfold_words
  rw [View.read_writes_eq_canon _ _ _ (fun y => ⟨_, List.mem_singleton_self _, View.mem_set_unit_zero zero_off2 inb_S10000x128_S10000x128_0_0 y⟩)]
  rw [View.canon_unit_zero zero_off2]
  simp only [View.readAt_eq_ld, View.ld_unit_zero (S := S10000x128) zero_off2, View.ld_unit_zero (S := S128x128) zero_off2]
  rfl

set_option maxHeartbeats 1000000 in
theorem sound_later0 (c : Dev nD) (E : Set ℕ) (i : grid0.Coords) (hc : ¬cond0 i) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole)
    (x1 : Vec F S400x10000 .f32) (x2 : Vec F S10000x128 .f32) (x3 : Vec F S128x128 .f32) (x4 : Vec F S1x128 .f32) (s : Vec F S10000x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare s
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (tile0 x1 s x4) ∗ owns (c : Thread nD τ) arg6 fullShare s) -∗ K ⟨⟩))
      ⊢ wp frame (wpE (defs₀ (F := F)) Variants.none c none) E (cc0__pass1_body i arg1 harg1 arg2 harg2 arg3 harg3 arg4 harg4 arg5 harg5 arg6 harg6) K := by
  simp only [cc0__pass1_body_eq_skeleton]; unfold cc0__pass1_body_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (fun y => ⟨_, List.mem_singleton_self _, View.mem_set_unit_zero zero_off2 inb_S400x128_S400x128_0_0 y⟩)]
    rw [View.canon_unit_zero zero_off2]
    simp only [View.readAt_eq_ld, View.ld_unit_zero (S := S400x10000) zero_off2, View.ld_unit_zero (S := S1x128) zero_off2,
      View.ld_unit_zero (S := S10000x128) zero_off2]
    rfl
  iexists f6; isplitr; · ipureintro; rfl
  iexact H6

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev first0 : Fin cfg0.N := ⟨0, by decide⟩

/-- What the scratch holds after any point: the support of the features and first weight found at the first point. -/
def sc0 (c : Dev nD) : Vec F S10000x128 .bf16 := support0 (iblk0 V c 1 first0) (iblk0 V c 2 first0)

/-- The scratch operand: a whole scoped buffer of the kernel's own. -/
abbrev scM0 : Memref sig .tc .vmem S10000x128 .bf16 := Memref.whole cc0_scratch0

/-- The class invariant with the scratch split out as a memref owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The region invariant before position n: before the first point every scratch at anything; afterwards the scratch
    at the support, the other scoped buffers at anything, the generator register at some state. -/
def PhiS0 (c : Dev nD) : ℕ → sProp 𝕄
  | 0 => Pipeline.ΦA spec0 c
  | _ + 1 => iprop(iprop(owns (c : Thread nD τ) scM0 fullShare (sc0 V c) ∗ Pipeline.scopedRestBut (Ix := Unit) (Name := ℕ) (U := UR sig nD τ) (Lvl := ℕ) (Val := Elt F) spec0 c [cc0_scratch0]) ∗ (∃ r, prngReg c r))

theorem PhiS0_succ (c : Dev nD) (n : ℕ) :
    PhiS0 V c (n + 1) = iprop(iprop(owns (c : Thread nD τ) scM0 fullShare (sc0 V c) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (hz : n ≠ 0) :
    PhiS0 V c n = iprop(iprop(owns (c : Thread nD τ) scM0 fullShare (sc0 V c) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body at point t each input's buffer at its block and the output's
    at the row tile of the adjacency block, the support and the bias; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tile0 (iblk0 V c 0 t) (sc0 V c) (iblk0 V c 3 t)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = tile0 (iblk0 V c 0 t) (sc0 V c) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi0_castSucc (c : Dev nD) (t : Fin cfg0.N) : (dat0 V c).Φ t.castSucc = PhiS0 V c t.val := by
  dsimp only [dat0]; simp only [Fin.coe_castSucc]
theorem Phi0_succ (c : Dev nD) (t : Fin cfg0.N) : (dat0 V c).Φ t.succ = PhiS0 V c (t.val + 1) := by
  dsimp only [dat0]; simp only [Fin.val_succ]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point: at the first the invariant hands the scratch at anything and takes it back at the support;
    later it hands it at the support and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    Phi0_succ, Phi0_castSucc, after0_0, after0_1, after0_2, after0_3, after0_4]
  by_cases hz : t.val = 0
  · have ht : t = first0 := Fin.ext hz
    rw [hz, show PhiS0 V c 0 = Pipeline.ΦA spec0 c from rfl, PhiS0_succ, PhiA0_eq]
    subst ht
    iintro ⟨⟨⟨HS, Hrest⟩, Hg⟩, Ho, ⟨%d0, H0⟩, ⟨%d1, H1⟩, ⟨%d2, H2⟩, ⟨%d3, H3⟩, ⟨%d4, H4⟩⟩
    iapply (sound_first0 c Set.univ _ ((hcond0 first0).mpr rfl) _ _ _ _ _ _ _ _ _ _ _ _ (iblk0 V c 0 first0) (iblk0 V c 1 first0) (iblk0 V c 2 first0) (iblk0 V c 3 first0) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4
  · rw [PhiS0_pos V c _ hz, PhiS0_succ]
    iintro ⟨⟨⟨HS, Hrest⟩, Hg⟩, Ho, ⟨%d0, H0⟩, ⟨%d1, H1⟩, ⟨%d2, H2⟩, ⟨%d3, H3⟩, ⟨%d4, H4⟩⟩
    iapply (sound_later0 c Set.univ _ (fun h => hz ((hcond0 t).mp h)) _ _ _ _ _ _ _ _ _ _ _ _ (iblk0 V c 0 t) (iblk0 V c 1 t) (iblk0 V c 2 t) (iblk0 V c 3 t) (sc0 V c) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl]
  exact Idealize.SL.BI.Entails.refl _

/-- After the last point the invariant gives the class invariant back: the scratch's named contents are forgotten. -/
theorem hout0 (c : Dev nD) : (dat0 V c).Φ (Fin.last cfg0.N) ⊢ Pipeline.ΦA spec0 c := by
  rw [show (dat0 V c).Φ (Fin.last cfg0.N) = PhiS0 V c (24 + 1) from rfl, PhiS0_succ, PhiA0_eq]
  iintro ⟨⟨HS, Hrest⟩, Hg⟩
  isplitl [HS Hrest]
  · isplitl [HS]; · iexists _; iexact HS
    iexact Hrest
  iexact Hg

end Cert.KernelIdeal.Fr
end
-- ==== Proof.KI.Body1.lean ====
import proofs.«178126_g73521250173546_cont_sun_c4_545_6_alg».proof.Proof.Gen.KernelIdeal.Launch
import proofs.«178126_g73521250173546_cont_sun_c4_545_6_alg».proof.Proof.Gen.KernelIdeal.Skeleton
import proofs.«178126_g73521250173546_cont_sun_c4_545_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second call, at the buffer contents V the region is entered from

The kernel keeps the second support (first-layer output times second weight) in a scratch buffer written at the grid's
first point; a point computes its row tile of the second layer, writes the joined features, and runs both heads on
that row tile. -/

variable (V : (c : Dev nD) → (b : Ref sig .tc) → Buf (Elt F) ((c : Thread nD τ).loc b))

theorem zero_off2 : (![0, 0] : Fin 2 → ℕ) = fun _ => 0 := by funext a; fin_cases a <;> rfl

/-- The second support, first-layer output times second weight, as the kernel keeps it between grid points. -/
def support1 (x2 : Vec F S10000x128 .f32) (x3 : Vec F S128x64 .f32) : Vec F S10000x64 .bf16 := k1_pay2 x2 x3
/-- The point's 400 rows of the first-layer output, cut out of the whole array the window stages. -/
def rows1 (i : grid1.Coords) (x2 : Vec F S10000x128 .f32) : Vec F S400x128 .f32 :=
  View.ld x2 (Rect.unit (s := S10000x128) (k1_off1 i) S400x128.size (k1_off1_inb i))
/-- The joined features of the point's rows: first-layer rows in the low columns, second-layer rows in the high ones. -/
def znTile (i : grid1.Coords) (x1 : Vec F S400x10000 .f32) (x2 : Vec F S10000x128 .f32) (s : Vec F S10000x64 .bf16) (x4 : Vec F S1x64 .f32) : Vec F S400x192 .f32 :=
  View.canon [⟨Rect.unit (s := S400x192) ![0, 128] S400x64.size inb_S400x192_S400x64_0_128, k1_pay4 x1 s x4⟩,
    ⟨Rect.unit (s := S400x192) ![0, 0] S400x128.size inb_S400x192_S400x128_0_0, k1_pay3 (rows1 i x2)⟩]
/-- The classifier head's log-probabilities on the point's rows. -/
def clsTile (i : grid1.Coords) (x1 : Vec F S400x10000 .f32) (x2 : Vec F S10000x128 .f32) (s : Vec F S10000x64 .bf16) (x4 : Vec F S1x64 .f32) (x5 : Vec F S128x256 .f32) (x6 : Vec F S64x256 .f32) (x7 x8 x9 x10 x11 : Vec F S1x256 .f32) (x12 : Vec F S256x128 .f32) (x13 x14 x15 x16 x17 : Vec F S1x128 .f32) (x18 : Vec F S128x10 .f32) (x19 : Vec F S1x10 .f32) : Vec F S400x10 .f32 :=
  k1_pay10 (k1_pay6 (k1_pay5 (rows1 i x2) x1 s x4 x5 x6 x7) x8 x9 x10 x11 x12 x13) (k1_pay7 x14) (k1_pay8 x15) (k1_pay9 x16) x17 x18 x19
/-- The reconstruction head on the point's rows. -/
def recTile (i : grid1.Coords) (x1 : Vec F S400x10000 .f32) (x2 : Vec F S10000x128 .f32) (s : Vec F S10000x64 .bf16) (x4 : Vec F S1x64 .f32) (x20 : Vec F S128x256 .f32) (x21 : Vec F S64x256 .f32) (x22 : Vec F S1x256 .f32) (x23 : Vec F S256x128 .f32) (x24 : Vec F S1x128 .f32) (x25 : Vec F S128x128 .f32) (x26 : Vec F S1x128 .f32) : Vec F S400x128 .f32 :=
  k1_pay1 (k1_pay4 x1 s x4) (k1_pay11 (k1_pay3 (rows1 i x2)) x20) (k1_pay12 x21) x22 x23 x24 x25 x26

/-- The branch taken exactly at the grid's first point. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

/-- The two stores of the joined-features block tile it. -/
theorem zn_cover (p0 : Vec F S400x64 .f32) (p1 : Vec F S400x128 .f32) (y : S400x192.Idx) :
    ∃ pc ∈ ([⟨Rect.unit (s := S400x192) ![0, 128] S400x64.size inb_S400x192_S400x64_0_128, p0⟩,
      ⟨Rect.unit (s := S400x192) ![0, 0] S400x128.size inb_S400x192_S400x128_0_0, p1⟩] : List (View.Piece (Elt F) S400x192 .f32)), y ∈ pc.1.set :=
  View.cover_of_tiledBy [⟨Rect.unit (s := S400x192) ![0, 128] S400x64.size inb_S400x192_S400x64_0_128, p0⟩,
      ⟨Rect.unit (s := S400x192) ![0, 0] S400x128.size inb_S400x192_S400x128_0_0, p1⟩] ![400, 64] (by sl_kernel_rfl) y

/-! ## The body, at the first point (the second support is computed and stored) and at a later point (it is read back) -/

set_option maxHeartbeats 4000000 in
theorem sound_first1 (c : Dev nD) (E : Set ℕ) (i : grid1.Coords) (hc : cond1 i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S400x10 .f32) (harg27 : arg27.IsWhole) (arg28 : Memref sig .tc .vmem S400x128 .f32) (harg28 : arg28.IsWhole) (arg29 : Memref sig .tc .vmem S400x192 .f32) (harg29 : arg29.IsWhole) (arg30 : Memref sig .tc .vmem S10000x64 .bf16) (harg30 : arg30.IsWhole)
    (x1 : Vec F S400x10000 .f32) (x2 : Vec F S10000x128 .f32) (x3 : Vec F S128x64 .f32) (x4 : Vec F S1x64 .f32) (x5 : Vec F S128x256 .f32) (x6 : Vec F S64x256 .f32) (x7 : Vec F S1x256 .f32) (x8 : Vec F S1x256 .f32) (x9 : Vec F S1x256 .f32) (x10 : Vec F S1x256 .f32) (x11 : Vec F S1x256 .f32) (x12 : Vec F S256x128 .f32) (x13 : Vec F S1x128 .f32) (x14 : Vec F S1x128 .f32) (x15 : Vec F S1x128 .f32) (x16 : Vec F S1x128 .f32) (x17 : Vec F S1x128 .f32) (x18 : Vec F S128x10 .f32) (x19 : Vec F S1x10 .f32) (x20 : Vec F S128x256 .f32) (x21 : Vec F S64x256 .f32) (x22 : Vec F S1x256 .f32) (x23 : Vec F S256x128 .f32) (x24 : Vec F S1x128 .f32) (x25 : Vec F S128x128 .f32) (x26 : Vec F S1x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
        ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare (clsTile i x1 x2 (support1 x2 x3) x4 x5 x6 x7 x8 x9 x10 x11 x12 x13 x14 x15 x16 x17 x18 x19) ∗ owns (c : Thread nD τ) arg28 fullShare (recTile i x1 x2 (support1 x2 x3) x4 x20 x21 x22 x23 x24 x25 x26) ∗ owns (c : Thread nD τ) arg29 fullShare (znTile i x1 x2 (support1 x2 x3) x4) ∗ owns (c : Thread nD τ) arg30 fullShare (support1 x2 x3)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__pass2_body_eq_skeleton]; unfold cc1__pass2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, Hk⟩
  subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    rw [View.read_writes_eq_canon _ _ _ (fun y => ⟨_, List.mem_singleton_self _, View.mem_set_unit_zero zero_off2 inb_S400x10_S400x10_0_0 y⟩)]
    sl_unfold_words
    rw [View.canon_unit_zero zero_off2]
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  isplitl [H28]
  · iexists _; isplitr
    swap; · iexact H28
    ipureintro
    rw [View.read_writes_eq_canon _ _ _ (fun y => ⟨_, List.mem_singleton_self _, View.mem_set_unit_zero zero_off2 inb_S400x128_S400x128_0_0 y⟩)]
    sl_unfold_words
    rw [View.canon_unit_zero zero_off2]
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  isplitl [H29]
  · iexists _; isplitr
    swap; · iexact H29
    ipureintro
    rw [View.read_writes_eq_canon _ _ _ (zn_cover _ _)]
    sl_unfold_words
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  iexists _; isplitr
  swap; · iexact H30
  ipureintro
  sl_unfold_words
  rw [View.read_writes_eq_canon _ _ _ (fun y => ⟨_, List.mem_singleton_self _, View.mem_set_unit_zero zero_off2 inb_S10000x64_S10000x64_0_0 y⟩)]
  rw [View.canon_unit_zero zero_off2]
  simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
  rfl

set_option maxHeartbeats 4000000 in
theorem sound_later1 (c : Dev nD) (E : Set ℕ) (i : grid1.Coords) (hc : ¬cond1 i) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S128x256 .f32) (harg5 : arg5.IsWhole) (arg6 : Memref sig .tc .vmem S64x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S128x10 .f32) (harg18 : arg18.IsWhole) (arg19 : Memref sig .tc .vmem S1x10 .f32) (harg19 : arg19.IsWhole) (arg20 : Memref sig .tc .vmem S128x256 .f32) (harg20 : arg20.IsWhole) (arg21 : Memref sig .tc .vmem S64x256 .f32) (harg21 : arg21.IsWhole) (arg22 : Memref sig .tc .vmem S1x256 .f32) (harg22 : arg22.IsWhole) (arg23 : Memref sig .tc .vmem S256x128 .f32) (harg23 : arg23.IsWhole) (arg24 : Memref sig .tc .vmem S1x128 .f32) (harg24 : arg24.IsWhole) (arg25 : Memref sig .tc .vmem S128x128 .f32) (harg25 : arg25.IsWhole) (arg26 : Memref sig .tc .vmem S1x128 .f32) (harg26 : arg26.IsWhole) (arg27 : Memref sig .tc .vmem S400x10 .f32) (harg27 : arg27.IsWhole) (arg28 : Memref sig .tc .vmem S400x128 .f32) (harg28 : arg28.IsWhole) (arg29 : Memref sig .tc .vmem S400x192 .f32) (harg29 : arg29.IsWhole) (arg30 : Memref sig .tc .vmem S10000x64 .bf16) (harg30 : arg30.IsWhole)
    (x1 : Vec F S400x10000 .f32) (x2 : Vec F S10000x128 .f32) (x3 : Vec F S128x64 .f32) (x4 : Vec F S1x64 .f32) (x5 : Vec F S128x256 .f32) (x6 : Vec F S64x256 .f32) (x7 : Vec F S1x256 .f32) (x8 : Vec F S1x256 .f32) (x9 : Vec F S1x256 .f32) (x10 : Vec F S1x256 .f32) (x11 : Vec F S1x256 .f32) (x12 : Vec F S256x128 .f32) (x13 : Vec F S1x128 .f32) (x14 : Vec F S1x128 .f32) (x15 : Vec F S1x128 .f32) (x16 : Vec F S1x128 .f32) (x17 : Vec F S1x128 .f32) (x18 : Vec F S128x10 .f32) (x19 : Vec F S1x10 .f32) (x20 : Vec F S128x256 .f32) (x21 : Vec F S64x256 .f32) (x22 : Vec F S1x256 .f32) (x23 : Vec F S256x128 .f32) (x24 : Vec F S1x128 .f32) (x25 : Vec F S128x128 .f32) (x26 : Vec F S1x128 .f32) (s : Vec F S10000x64 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26
        ∗ (∃ d, owns (c : Thread nD τ) arg27 fullShare d) ∗ (∃ d, owns (c : Thread nD τ) arg28 fullShare d) ∗ (∃ d, owns (c : Thread nD τ) arg29 fullShare d) ∗ owns (c : Thread nD τ) arg30 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare (clsTile i x1 x2 s x4 x5 x6 x7 x8 x9 x10 x11 x12 x13 x14 x15 x16 x17 x18 x19) ∗ owns (c : Thread nD τ) arg28 fullShare (recTile i x1 x2 s x4 x20 x21 x22 x23 x24 x25 x26) ∗ owns (c : Thread nD τ) arg29 fullShare (znTile i x1 x2 s x4) ∗ owns (c : Thread nD τ) arg30 fullShare s) -∗ K ⟨⟩))
      ⊢ wp frame (wpE (defs₀ (F := F)) Variants.none c none) E (cc1__pass2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc1__pass2_body_eq_skeleton]; unfold cc1__pass2_body_skel
  simp only [k1_part1_eq_skeleton, k1_part2_eq_skeleton, k1_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%f30, %hf30, H30⟩, Hk⟩
  subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21; subst hf22; subst hf23; subst hf24; subst hf25; subst hf26; subst hf30
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    rw [View.read_writes_eq_canon _ _ _ (fun y => ⟨_, List.mem_singleton_self _, View.mem_set_unit_zero zero_off2 inb_S400x10_S400x10_0_0 y⟩)]
    sl_unfold_words
    rw [View.canon_unit_zero zero_off2]
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  isplitl [H28]
  · iexists _; isplitr
    swap; · iexact H28
    ipureintro
    rw [View.read_writes_eq_canon _ _ _ (fun y => ⟨_, List.mem_singleton_self _, View.mem_set_unit_zero zero_off2 inb_S400x128_S400x128_0_0 y⟩)]
    sl_unfold_words
    rw [View.canon_unit_zero zero_off2]
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  isplitl [H29]
  · iexists _; isplitr
    swap; · iexact H29
    ipureintro
    rw [View.read_writes_eq_canon _ _ _ (zn_cover _ _)]
    sl_unfold_words
    simp only [View.readAt_eq_ld, View.ld_unit_zero (S := S400x10000) zero_off2, View.ld_unit_zero (S := S10000x128) zero_off2, View.ld_unit_zero (S := S128x64) zero_off2, View.ld_unit_zero (S := S1x64) zero_off2, View.ld_unit_zero (S := S128x256) zero_off2, View.ld_unit_zero (S := S64x256) zero_off2, View.ld_unit_zero (S := S1x256) zero_off2, View.ld_unit_zero (S := S256x128) zero_off2, View.ld_unit_zero (S := S1x128) zero_off2, View.ld_unit_zero (S := S128x10) zero_off2, View.ld_unit_zero (S := S1x10) zero_off2, View.ld_unit_zero (S := S128x128) zero_off2, View.ld_unit_zero (S := S400x10) zero_off2, View.ld_unit_zero (S := S400x128) zero_off2, View.ld_unit_zero (S := S400x192) zero_off2, View.ld_unit_zero (S := S10000x64) zero_off2, View.readCov_unit_zero (S := S10000x64) _ zero_off2]
    rfl
  iexists f30; isplitr; · ipureintro; rfl
  iexact H30

end Cert.KernelIdeal.Fr
end
-- ==== Proof.KI.Region1.lean ====
import proofs.«178126_g73521250173546_cont_sun_c4_545_6_alg».proof.Proof.Gen.KernelIdeal.Launch
import proofs.«178126_g73521250173546_cont_sun_c4_545_6_alg».proof.Proof.Gen.KernelIdeal.Skeleton
import proofs.«178126_g73521250173546_cont_sun_c4_545_6_alg».proof.Proof.Gen.KernelIdeal.Points
import proofs.«178126_g73521250173546_cont_sun_c4_545_6_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)
theorem before1_23_of {c : Dev nD} (dat : Dat τ (Elt F) Unit ℕ (UR sig nD τ) ℕ cfg1 c) (hA : dat.A 23 = V c (Pipeline.arrRef spec1 23))
    (hafter : ∀ t, dat.after 23 t = iblk1 V c 23 t) (t : Fin cfg1.N) (d) : dat.before 23 t d = iblk1 V c 23 t :=
  (dat.before_in_eq_fetched 23 rfl (fun _ => rfl) (fun _ _ _ => rfl) (fun t => by rw [hafter]; unfold Dat.blockOf iblk1; rw [hA]; try rfl) t d).trans
    (by unfold Dat.fetched Dat.blockOf iblk1; rw [hA]; try rfl)
theorem before1_24_of {c : Dev nD} (dat : Dat τ (Elt F) Unit ℕ (UR sig nD τ) ℕ cfg1 c) (hA : dat.A 24 = V c (Pipeline.arrRef spec1 24))
    (hafter : ∀ t, dat.after 24 t = iblk1 V c 24 t) (t : Fin cfg1.N) (d) : dat.before 24 t d = iblk1 V c 24 t :=
  (dat.before_in_eq_fetched 24 rfl (fun _ => rfl) (fun _ _ _ => rfl) (fun t => by rw [hafter]; unfold Dat.blockOf iblk1; rw [hA]; try rfl) t d).trans
    (by unfold Dat.fetched Dat.blockOf iblk1; rw [hA]; try rfl)
theorem before1_25_of {c : Dev nD} (dat : Dat τ (Elt F) Unit ℕ (UR sig nD τ) ℕ cfg1 c) (hA : dat.A 25 = V c (Pipeline.arrRef spec1 25))
    (hafter : ∀ t, dat.after 25 t = iblk1 V c 25 t) (t : Fin cfg1.N) (d) : dat.before 25 t d = iblk1 V c 25 t :=
  (dat.before_in_eq_fetched 25 rfl (fun _ => rfl) (fun _ _ _ => rfl) (fun t => by rw [hafter]; unfold Dat.blockOf iblk1; rw [hA]; try rfl) t d).trans
    (by unfold Dat.fetched Dat.blockOf iblk1; rw [hA]; try rfl)

/-- The grid's first point. -/
abbrev first1 : Fin cfg1.N := ⟨0, by decide⟩

/-- What the scratch holds after any point: the second support found at the first point. -/
def sc1 (c : Dev nD) : Vec F S10000x64 .bf16 := support1 (iblk1 V c 1 first1) (iblk1 V c 2 first1)

/-- The scratch operand: a whole scoped buffer of the kernel's own. -/
abbrev scM1 : Memref sig .tc .vmem S10000x64 .bf16 := Memref.whole cc1_scratch0

/-- The scoped buffers that are no staging buffer of this call, split at its own scratch. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the scratch split out as a memref owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The region invariant before position n: before the first point every scratch at anything; afterwards the scratch
    at the second support, the other scoped buffers at anything, the generator register at some state. -/
def PhiS1 (c : Dev nD) : ℕ → sProp 𝕄
  | 0 => Pipeline.ΦA spec1 c
  | _ + 1 => iprop(iprop(owns (c : Thread nD τ) scM1 fullShare (sc1 V c) ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) : PhiS1 V c (n + 1) = iprop(iprop(owns (c : Thread nD τ) scM1 fullShare (sc1 V c) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (hz : n ≠ 0) : PhiS1 V c n = iprop(iprop(owns (c : Thread nD τ) scM1 fullShare (sc1 V c) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body at point t each input's buffer at its block and the three
    outputs' at the heads' and the joined features' row tiles; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => clsTile (grid1.coords t) (iblk1 V c 0 t) (iblk1 V c 1 t) (sc1 V c) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)
    | ⟨27, _⟩ => recTile (grid1.coords t) (iblk1 V c 0 t) (iblk1 V c 1 t) (sc1 V c) (iblk1 V c 3 t) (iblk1 V c 19 t) (iblk1 V c 20 t) (iblk1 V c 21 t) (iblk1 V c 22 t) (iblk1 V c 23 t) (iblk1 V c 24 t) (iblk1 V c 25 t)
    | ⟨28, _⟩ => znTile (grid1.coords t) (iblk1 V c 0 t) (iblk1 V c 1 t) (sc1 V c) (iblk1 V c 3 t)
    | ⟨_ + 29, h⟩ => absurd h (Nat.not_lt.2 (Nat.le_add_left _ _))
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = iblk1 V c 23 t := by dsimp only [dat1]
theorem after1_24 (c : Dev nD) (t : Fin cfg1.N) : (dat1 V c).after 24 t = iblk1 V c 24 t := by dsimp only [dat1]
theorem after1_25 (c : Dev nD) (t : Fin cfg1.N) : (dat1 V c).after 25 t = iblk1 V c 25 t := by dsimp only [dat1]
theorem after1_26 (c : Dev nD) (t : Fin cfg1.N) : (dat1 V c).after 26 t = clsTile (grid1.coords t) (iblk1 V c 0 t) (iblk1 V c 1 t) (sc1 V c) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) := by dsimp only [dat1]
theorem after1_27 (c : Dev nD) (t : Fin cfg1.N) : (dat1 V c).after 27 t = recTile (grid1.coords t) (iblk1 V c 0 t) (iblk1 V c 1 t) (sc1 V c) (iblk1 V c 3 t) (iblk1 V c 19 t) (iblk1 V c 20 t) (iblk1 V c 21 t) (iblk1 V c 22 t) (iblk1 V c 23 t) (iblk1 V c 24 t) (iblk1 V c 25 t) := by dsimp only [dat1]
theorem after1_28 (c : Dev nD) (t : Fin cfg1.N) : (dat1 V c).after 28 t = znTile (grid1.coords t) (iblk1 V c 0 t) (iblk1 V c 1 t) (sc1 V c) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d
theorem before1_23 (c : Dev nD) (t : Fin cfg1.N) (d) : (dat1 V c).before 23 t d = iblk1 V c 23 t :=
  before1_23_of V (dat1 V c) (A_eq1 V c 23) (after1_23 V c) t d
theorem before1_24 (c : Dev nD) (t : Fin cfg1.N) (d) : (dat1 V c).before 24 t d = iblk1 V c 24 t :=
  before1_24_of V (dat1 V c) (A_eq1 V c 24) (after1_24 V c) t d
theorem before1_25 (c : Dev nD) (t : Fin cfg1.N) (d) : (dat1 V c).before 25 t d = iblk1 V c 25 t :=
  before1_25_of V (dat1 V c) (A_eq1 V c 25) (after1_25 V c) t d

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t))

set_option maxHeartbeats 8000000 in
/-- The body at any point: at the first the invariant hands the scratch at anything and takes it back at the second
    support; later it hands it at that support and takes it back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25]
  rw [show (dat1 V c).owesAt () t.succ = (dat1 V c).owesAt () t.castSucc from rfl,
    Phi1_succ, Phi1_castSucc, after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28]
  by_cases hz : t.val = 0
  · have ht : t = first1 := Fin.ext hz
    rw [hz, show PhiS1 V c 0 = Pipeline.ΦA spec1 c from rfl, PhiS1_succ, PhiA1_eq]
    subst ht
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (sound_first1 c Set.univ _ ((hcond1 first1).mpr rfl) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 first1) (iblk1 V c 1 first1) (iblk1 V c 2 first1) (iblk1 V c 3 first1) (iblk1 V c 4 first1) (iblk1 V c 5 first1) (iblk1 V c 6 first1) (iblk1 V c 7 first1) (iblk1 V c 8 first1) (iblk1 V c 9 first1) (iblk1 V c 10 first1) (iblk1 V c 11 first1) (iblk1 V c 12 first1) (iblk1 V c 13 first1) (iblk1 V c 14 first1) (iblk1 V c 15 first1) (iblk1 V c 16 first1) (iblk1 V c 17 first1) (iblk1 V c 18 first1) (iblk1 V c 19 first1) (iblk1 V c 20 first1) (iblk1 V c 21 first1) (iblk1 V c 22 first1) (iblk1 V c 23 first1) (iblk1 V c 24 first1) (iblk1 V c 25 first1) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [H28]; · iexists _; iexact H28
    isplitl [HS]; · iexact HS
    iintro ⟨H0, H1, H2, H3, H4, H5, H6, H7, H8, H9, H10, H11, H12, H13, H14, H15, H16, H17, H18, H19, H20, H21, H22, H23, H24, H25, H26, H27, H28, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · rw [PhiS1_pos V c _ hz, PhiS1_succ]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply (sound_later1 c Set.univ _ (fun h => hz ((hcond1 t).mp h)) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (sc1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [H28]; · iexists _; iexact H28
    isplitl [HS]; · iexact HS
    iintro ⟨H0, H1, H2, H3, H4, H5, H6, H7, H8, H9, H10, H11, H12, H13, H14, H15, H16, H17, H18, H19, H20, H21, H22, H23, H24, H25, H26, H27, H28, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl]
  exact Idealize.SL.BI.Entails.refl _

/-- After the last point the invariant gives the class invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (24 + 1) from rfl, PhiS1_succ, PhiA1_eq]
  iintro ⟨⟨HS, Hrest⟩, Hg⟩
  isplitl [HS Hrest]
  · isplitl [HS]; · iexists _; iexact HS
    iexact Hrest
  iexact Hg

end Cert.KernelIdeal.Fr
end
-- ==== Proof.KI.Run.lean ====
import proofs.«178126_g73521250173546_cont_sun_c4_545_6_alg».proof.Proof.Gen.KernelIdeal.Launch
import proofs.«178126_g73521250173546_cont_sun_c4_545_6_alg».proof.Proof.Gen.KernelIdeal.Skeleton
import proofs.«178126_g73521250173546_cont_sun_c4_545_6_alg».proof.Proof.Gen.KernelIdeal.Points
import proofs.«178126_g73521250173546_cont_sun_c4_545_6_alg».proof.Proof.Gen.KernelIdeal.Regions
import proofs.«178126_g73521250173546_cont_sun_c4_545_6_alg».proof.Proof.KI.Region0
import proofs.«178126_g73521250173546_cont_sun_c4_545_6_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The program's run: its four segments from the launch to the return -/

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## Every argument ends as launched: no host operation writes one and a call only reads one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide : main_arg0 ∉ hostOps0_W)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (by decide : main_arg1 ∉ hostOps1_W)
    _ = W1 m c (Proc.devRef .tc main_arg1) := (W2_arr m c 0).trans (((dat0 (V1 m) c).arrAt_in 0 rfl _).trans (A_eq0 (V1 m) c 0))
    _ = W0 m c (Proc.devRef .tc main_arg1) := StableHlo.after_of_writes_sub hostOps0 _ hostOps0_writes (by decide : main_arg1 ∉ hostOps0_W)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_writes_sub hostOps0 _ hostOps0_writes (by decide : main_arg2 ∉ hostOps0_W)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := (W4_arr m c 2).trans (((dat1 (V3 m) c).arrAt_in 2 rfl _).trans (A_eq1 (V3 m) c 2))
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide : main_arg9 ∉ hostOps1_W)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (by decide : main_arg10 ∉ hostOps1_W)
    _ = W1 m c (Proc.devRef .tc main_arg10) := W2_of_ne m c main_arg10 (by decide)
    _ = W0 m c (Proc.devRef .tc main_arg10) := StableHlo.after_of_writes_sub hostOps0 _ hostOps0_writes (by decide : main_arg10 ∉ hostOps0_W)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (by decide : main_arg11 ∉ hostOps1_W)
    _ = W1 m c (Proc.devRef .tc main_arg11) := W2_of_ne m c main_arg11 (by decide)
    _ = W0 m c (Proc.devRef .tc main_arg11) := StableHlo.after_of_writes_sub hostOps0 _ hostOps0_writes (by decide : main_arg11 ∉ hostOps0_W)
    _ = m ((c : Thread nD τ).loc main_arg11) := rfl
theorem W4_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := StableHlo.after_of_writes_sub hostOps1 _ hostOps1_writes (by decide : main_arg12 ∉ hostOps1_W)
    _ = W1 m c (Proc.devRef .tc main_arg12) := W2_of_ne m c main_arg12 (by decide)
    _ = W0 m c (Proc.devRef .tc main_arg12) := StableHlo.after_of_writes_sub hostOps0 _ hostOps0_writes (by decide : main_arg12 ∉ hostOps0_W)
    _ = m ((c : Thread nD τ).loc main_arg12) := rfl
theorem W4_main_arg13 (c : Dev nD) : W4 m c (Proc.devRef .tc main_arg13) = m ((c : Thread nD τ).loc main_arg13) :=
  calc W4 m c (Proc.devRef .tc main_arg13)
    _ = W3 m c (Proc.devRef .tc main_arg13) := W4_of_ne m c main_arg13 (by decide)
    _ = W2 m c (Proc.devRef .tc main_arg13) := StableHlo.after_of_writes_sub hostOps1 _ hostOps1_writes (by decide : main_arg13 ∉ hostOps1_W)
    _ = W1 m c (Proc.devRef .tc main_arg13) := W2_of_ne m c main_arg13 (by decide)
    _ = W0 m c (Proc.devRef .tc main_arg13) := StableHlo.after_of_writes_sub hostOps0 _ hostOps0_writes (by decide : main_arg13 ∉ hostOps0_W)
    _ = m ((c : Thread nD τ).loc main_arg13) := rfl
theorem W4_main_arg14 (c : Dev nD) : W4 m c (Proc.devRef .tc main_arg14) = m ((c : Thread nD τ).loc main_arg14) :=
  calc W4 m c (Proc.devRef .tc main_arg14)
    _ = W3 m c (Proc.devRef .tc main_arg14) := W4_of_ne m c main_arg14 (by decide)
    _ = W2 m c (Proc.devRef .tc main_arg14) := StableHlo.after_of_writes_sub hostOps1 _ hostOps1_writes (by decide : main_arg14 ∉ hostOps1_W)
    _ = W1 m c (Proc.devRef .tc main_arg14) := W2_of_ne m c main_arg14 (by decide)
    _ = W0 m c (Proc.devRef .tc main_arg14) := StableHlo.after_of_writes_sub hostOps0 _ hostOps0_writes (by decide : main_arg14 ∉ hostOps0_W)
    _ = m ((c : Thread nD τ).loc main_arg14) := rfl
theorem W4_main_arg15 (c : Dev nD) : W4 m c (Proc.devRef .tc main_arg15) = m ((c : Thread nD τ).loc main_arg15) :=
  calc W4 m c (Proc.devRef .tc main_arg15)
    _ = W3 m c (Proc.devRef .tc main_arg15) := W4_of_ne m c main_arg15 (by decide)
    _ = W2 m c (Proc.devRef .tc main_arg15) := StableHlo.after_of_writes_sub hostOps1 _ hostOps1_writes (by decide : main_arg15 ∉ hostOps1_W)
    _ = W1 m c (Proc.devRef .tc main_arg15) := W2_of_ne m c main_arg15 (by decide)
    _ = W0 m c (Proc.devRef .tc main_arg15) := StableHlo.after_of_writes_sub hostOps0 _ hostOps0_writes (by decide : main_arg15 ∉ hostOps0_W)
    _ = m ((c : Thread nD τ).loc main_arg15) := rfl
theorem W4_main_arg16 (c : Dev nD) : W4 m c (Proc.devRef .tc main_arg16) = m ((c : Thread nD τ).loc main_arg16) :=
  calc W4 m c (Proc.devRef .tc main_arg16)
    _ = W3 m c (Proc.devRef .tc main_arg16) := W4_of_ne m c main_arg16 (by decide)
    _ = W2 m c (Proc.devRef .tc main_arg16) := StableHlo.after_of_writes_sub hostOps1 _ hostOps1_writes (by decide : main_arg16 ∉ hostOps1_W)
    _ = W1 m c (Proc.devRef .tc main_arg16) := W2_of_ne m c main_arg16 (by decide)
    _ = W0 m c (Proc.devRef .tc main_arg16) := StableHlo.after_of_writes_sub hostOps0 _ hostOps0_writes (by decide : main_arg16 ∉ hostOps0_W)
    _ = m ((c : Thread nD τ).loc main_arg16) := rfl
theorem W4_main_arg17 (c : Dev nD) : W4 m c (Proc.devRef .tc main_arg17) = m ((c : Thread nD τ).loc main_arg17) :=
  calc W4 m c (Proc.devRef .tc main_arg17)
    _ = W3 m c (Proc.devRef .tc main_arg17) := W4_of_ne m c main_arg17 (by decide)
    _ = W2 m c (Proc.devRef .tc main_arg17) := StableHlo.after_of_writes_sub hostOps1 _ hostOps1_writes (by decide : main_arg17 ∉ hostOps1_W)
    _ = W1 m c (Proc.devRef .tc main_arg17) := W2_of_ne m c main_arg17 (by decide)
    _ = W0 m c (Proc.devRef .tc main_arg17) := StableHlo.after_of_writes_sub hostOps0 _ hostOps0_writes (by decide : main_arg17 ∉ hostOps0_W)
    _ = m ((c : Thread nD τ).loc main_arg17) := rfl
theorem W4_main_arg18 (c : Dev nD) : W4 m c (Proc.devRef .tc main_arg18) = m ((c : Thread nD τ).loc main_arg18) :=
  calc W4 m c (Proc.devRef .tc main_arg18)
    _ = W3 m c (Proc.devRef .tc main_arg18) := W4_of_ne m c main_arg18 (by decide)
    _ = W2 m c (Proc.devRef .tc main_arg18) := StableHlo.after_of_writes_sub hostOps1 _ hostOps1_writes (by decide : main_arg18 ∉ hostOps1_W)
    _ = W1 m c (Proc.devRef .tc main_arg18) := W2_of_ne m c main_arg18 (by decide)
    _ = W0 m c (Proc.devRef .tc main_arg18) := StableHlo.after_of_writes_sub hostOps0 _ hostOps0_writes (by decide : main_arg18 ∉ hostOps0_W)
    _ = m ((c : Thread nD τ).loc main_arg18) := rfl
theorem W4_main_arg19 (c : Dev nD) : W4 m c (Proc.devRef .tc main_arg19) = m ((c : Thread nD τ).loc main_arg19) :=
  calc W4 m c (Proc.devRef .tc main_arg19)
    _ = W3 m c (Proc.devRef .tc main_arg19) := W4_of_ne m c main_arg19 (by decide)
    _ = W2 m c (Proc.devRef .tc main_arg19) := StableHlo.after_of_writes_sub hostOps1 _ hostOps1_writes (by decide : main_arg19 ∉ hostOps1_W)
    _ = W1 m c (Proc.devRef .tc main_arg19) := W2_of_ne m c main_arg19 (by decide)
    _ = W0 m c (Proc.devRef .tc main_arg19) := StableHlo.after_of_writes_sub hostOps0 _ hostOps0_writes (by decide : main_arg19 ∉ hostOps0_W)
    _ = m ((c : Thread nD τ).loc main_arg19) := rfl
theorem W4_main_arg20 (c : Dev nD) : W4 m c (Proc.devRef .tc main_arg20) = m ((c : Thread nD τ).loc main_arg20) :=
  calc W4 m c (Proc.devRef .tc main_arg20)
    _ = W3 m c (Proc.devRef .tc main_arg20) := W4_of_ne m c main_arg20 (by decide)
    _ = W2 m c (Proc.devRef .tc main_arg20) := StableHlo.after_of_writes_sub hostOps1 _ hostOps1_writes (by decide : main_arg20 ∉ hostOps1_W)
    _ = W1 m c (Proc.devRef .tc main_arg20) := W2_of_ne m c main_arg20 (by decide)
    _ = W0 m c (Proc.devRef .tc main_arg20) := StableHlo.after_of_writes_sub hostOps0 _ hostOps0_writes (by decide : main_arg20 ∉ hostOps0_W)
    _ = m ((c : Thread nD τ).loc main_arg20) := rfl
theorem W4_main_arg21 (c : Dev nD) : W4 m c (Proc.devRef .tc main_arg21) = m ((c : Thread nD τ).loc main_arg21) :=
  calc W4 m c (Proc.devRef .tc main_arg21)
    _ = W3 m c (Proc.devRef .tc main_arg21) := W4_of_ne m c main_arg21 (by decide)
    _ = W2 m c (Proc.devRef .tc main_arg21) := StableHlo.after_of_writes_sub hostOps1 _ hostOps1_writes (by decide : main_arg21 ∉ hostOps1_W)
    _ = W1 m c (Proc.devRef .tc main_arg21) := W2_of_ne m c main_arg21 (by decide)
    _ = W0 m c (Proc.devRef .tc main_arg21) := StableHlo.after_of_writes_sub hostOps0 _ hostOps0_writes (by decide : main_arg21 ∉ hostOps0_W)
    _ = m ((c : Thread nD τ).loc main_arg21) := rfl
theorem W4_main_arg22 (c : Dev nD) : W4 m c (Proc.devRef .tc main_arg22) = m ((c : Thread nD τ).loc main_arg22) :=
  calc W4 m c (Proc.devRef .tc main_arg22)
    _ = W3 m c (Proc.devRef .tc main_arg22) := W4_of_ne m c main_arg22 (by decide)
    _ = W2 m c (Proc.devRef .tc main_arg22) := StableHlo.after_of_writes_sub hostOps1 _ hostOps1_writes (by decide : main_arg22 ∉ hostOps1_W)
    _ = W1 m c (Proc.devRef .tc main_arg22) := W2_of_ne m c main_arg22 (by decide)
    _ = W0 m c (Proc.devRef .tc main_arg22) := StableHlo.after_of_writes_sub hostOps0 _ hostOps0_writes (by decide : main_arg22 ∉ hostOps0_W)
    _ = m ((c : Thread nD τ).loc main_arg22) := rfl
theorem W4_main_arg23 (c : Dev nD) : W4 m c (Proc.devRef .tc main_arg23) = m ((c : Thread nD τ).loc main_arg23) :=
  calc W4 m c (Proc.devRef .tc main_arg23)
    _ = W3 m c (Proc.devRef .tc main_arg23) := W4_of_ne m c main_arg23 (by decide)
    _ = W2 m c (Proc.devRef .tc main_arg23) := StableHlo.after_of_writes_sub hostOps1 _ hostOps1_writes (by decide : main_arg23 ∉ hostOps1_W)
    _ = W1 m c (Proc.devRef .tc main_arg23) := W2_of_ne m c main_arg23 (by decide)
    _ = W0 m c (Proc.devRef .tc main_arg23) := StableHlo.after_of_writes_sub hostOps0 _ hostOps0_writes (by decide : main_arg23 ∉ hostOps0_W)
    _ = m ((c : Thread nD τ).loc main_arg23) := rfl
theorem W4_main_arg24 (c : Dev nD) : W4 m c (Proc.devRef .tc main_arg24) = m ((c : Thread nD τ).loc main_arg24) :=
  calc W4 m c (Proc.devRef .tc main_arg24)
    _ = W3 m c (Proc.devRef .tc main_arg24) := W4_of_ne m c main_arg24 (by decide)
    _ = W2 m c (Proc.devRef .tc main_arg24) := StableHlo.after_of_writes_sub hostOps1 _ hostOps1_writes (by decide : main_arg24 ∉ hostOps1_W)
    _ = W1 m c (Proc.devRef .tc main_arg24) := W2_of_ne m c main_arg24 (by decide)
    _ = W0 m c (Proc.devRef .tc main_arg24) := StableHlo.after_of_writes_sub hostOps0 _ hostOps0_writes (by decide : main_arg24 ∉ hostOps0_W)
    _ = m ((c : Thread nD τ).loc main_arg24) := rfl
theorem W4_main_arg25 (c : Dev nD) : W4 m c (Proc.devRef .tc main_arg25) = m ((c : Thread nD τ).loc main_arg25) :=
  calc W4 m c (Proc.devRef .tc main_arg25)
    _ = W3 m c (Proc.devRef .tc main_arg25) := W4_of_ne m c main_arg25 (by decide)
    _ = W2 m c (Proc.devRef .tc main_arg25) := StableHlo.after_of_writes_sub hostOps1 _ hostOps1_writes (by decide : main_arg25 ∉ hostOps1_W)
    _ = W1 m c (Proc.devRef .tc main_arg25) := W2_of_ne m c main_arg25 (by decide)
    _ = W0 m c (Proc.devRef .tc main_arg25) := StableHlo.after_of_writes_sub hostOps0 _ hostOps0_writes (by decide : main_arg25 ∉ hostOps0_W)
    _ = m ((c : Thread nD τ).loc main_arg25) := rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The call as a segment of the program: entered from every unscoped buffer at the contents before it, left at the
    contents after it. Its arrays are split out of the unscoped buffers and put back at the exit contents; the
    generator register goes into the region invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call as a segment of the program: entered from every unscoped buffer at the contents before it, left at the
    contents after it. Its arrays are split out of the unscoped buffers and put back at the exit contents; the
    generator register goes into the region invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c),
    (h c _ (mem_uc main_arg11 (by decide))).trans (W4_main_arg11 m c),
    (h c _ (mem_uc main_arg12 (by decide))).trans (W4_main_arg12 m c),
    (h c _ (mem_uc main_arg13 (by decide))).trans (W4_main_arg13 m c),
    (h c _ (mem_uc main_arg14 (by decide))).trans (W4_main_arg14 m c),
    (h c _ (mem_uc main_arg15 (by decide))).trans (W4_main_arg15 m c),
    (h c _ (mem_uc main_arg16 (by decide))).trans (W4_main_arg16 m c),
    (h c _ (mem_uc main_arg17 (by decide))).trans (W4_main_arg17 m c),
    (h c _ (mem_uc main_arg18 (by decide))).trans (W4_main_arg18 m c),
    (h c _ (mem_uc main_arg19 (by decide))).trans (W4_main_arg19 m c),
    (h c _ (mem_uc main_arg20 (by decide))).trans (W4_main_arg20 m c),
    (h c _ (mem_uc main_arg21 (by decide))).trans (W4_main_arg21 m c),
    (h c _ (mem_uc main_arg22 (by decide))).trans (W4_main_arg22 m c),
    (h c _ (mem_uc main_arg23 (by decide))).trans (W4_main_arg23 m c),
    (h c _ (mem_uc main_arg24 (by decide))).trans (W4_main_arg24 m c),
    (h c _ (mem_uc main_arg25 (by decide))).trans (W4_main_arg25 m c)⟩) (run_main m ρ)

end Cert.KernelIdeal.Fr
end
-- ==== Proof.KI.Cover.lean ====
import proofs.«178126_g73521250173546_cont_sun_c4_545_6_alg».proof.Proof.KI.Region0
import proofs.«178126_g73521250173546_cont_sun_c4_545_6_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # A row of an output array is a row of the block its grid point wrote

Every output window's blocks are 400 full rows, block t at rows 400 t .. 400 t + 399, written back at every point; the 25
blocks tile the 10000 rows. So row r of the final array is row r mod 400 of what point r / 400 left in the staging buffer. -/

variable (V : (c : Dev nD) → (b : Ref sig .tc) → Buf (Elt Ideal) ((c : Thread nD τ).loc b))

/-- The grid point of the first call whose block holds row r. -/
def pt0 (r : Fin 10000) : Fin cfg0.N := ⟨r.val / 400, by rw [show cfg0.N = 25 from N_0]; omega⟩
/-- The grid point of the second call whose block holds row r. -/
def pt1 (r : Fin 10000) : Fin cfg1.N := ⟨r.val / 400, by rw [show cfg1.N = 25 from N_1]; omega⟩
/-- The row's place inside its block. -/
def inOf (r : Fin 10000) : Fin 400 := ⟨r.val % 400, Nat.mod_lt _ (by decide)⟩

namespace Cover

/-! ## Call 0, output window 4 (128 columns) -/

/-- The first layer's row tile that point t leaves in the staging buffer. -/
def out0_4 (c : Dev nD) (t : Fin cfg0.N) : Vec Ideal S400x128 .f32 :=
  tile0 (F := Ideal) (iblk0 V c 0 t) (sc0 V c) (iblk0 V c 3 t)

/-- The first layer's whole output: row r is row r mod 400 of the tile of point r / 400. -/
def whole0_4 (c : Dev nD) : S10000x128.Idx → Elt Ideal .f32 := fun i =>
  out0_4 V c (pt0 ⟨(i 0).val, ValueIdx.idx2_lt0 i⟩) (ix2 (inOf ⟨(i 0).val, ValueIdx.idx2_lt0 i⟩) (⟨(i 1).val, ValueIdx.idx2_lt1 i⟩ : Fin 128))

/-- The window's index map, decided over the grid: block t is block row t, block column 0. -/
theorem index0_4 : ∀ t : Fin cfg0.N, win0_4.index t (0 : Fin 2) = t.val ∧ win0_4.index t (1 : Fin 2) = 0 :=
  (by decide +kernel : ∀ t : Fin grid0.N, _)

/-- What point t writes back is block t of the whole array: rows 400 t .. 400 t + 399 are the tile's rows 0 .. 399. -/
theorem flushed0_4_eq (c : Dev nD) (t : Fin cfg0.N) :
    (dat0 V c).flushed 4 t = ((cfg0.win 4).blk t).view.read (Elt Ideal) (whole0_4 V c) := by
  show (cfg0.win 4).cut (grid0.coords t) ((dat0 V c).after 4 t) = _
  rw [after0_4]
  obtain ⟨e0, e1⟩ := index0_4 t
  funext j
  show out0_4 V c t j = whole0_4 V c (((cfg0.win 4).blk t).view.emb j)
  have hj0 : (j 0).val < 400 := (j 0).isLt
  have hj1 : (j 1).val < 128 := (j 1).isLt
  have ht : t.val < 25 := Nat.lt_of_lt_of_eq t.isLt N_0
  have h0 : ((((cfg0.win 4).blk t).view.emb j) (0 : Fin 2)).val = t.val * 400 + (j 0).val := by
    show win0_4.index t (0 : Fin 2) * 400 + 1 * (j 0).val = _
    omega
  have h1 : ((((cfg0.win 4).blk t).view.emb j) (1 : Fin 2)).val = (j 1).val := by
    show win0_4.index t (1 : Fin 2) * 128 + 1 * (j 1).val = _
    omega
  unfold whole0_4
  have hp : pt0 ⟨((((cfg0.win 4).blk t).view.emb j) (0 : Fin 2)).val, ValueIdx.idx2_lt0 _⟩ = t := Fin.ext (by
    show ((((cfg0.win 4).blk t).view.emb j) (0 : Fin 2)).val / 400 = t.val
    rw [h0]; omega)
  have hq : ix2 (inOf ⟨((((cfg0.win 4).blk t).view.emb j) (0 : Fin 2)).val, ValueIdx.idx2_lt0 _⟩)
      (⟨((((cfg0.win 4).blk t).view.emb j) (1 : Fin 2)).val, ValueIdx.idx2_lt1 _⟩ : Fin 128) = j := by
    funext a; apply Fin.ext
    match a with
    | ⟨0, _⟩ =>
      show ((((cfg0.win 4).blk t).view.emb j) (0 : Fin 2)).val % 400 = (j 0).val
      rw [h0]; omega
    | ⟨1, _⟩ => exact h1
  rw [hp, hq]

/-- An index of the array is in point t's block iff each coordinate is in the block's range on its axis. -/
theorem mem_blk0_4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v7).slice (win0_4.rect t)).set ↔ _
  rw [View.set_slice_whole, Rect.mem_set_unit]
  exact Iff.rfl

/-- Every index of the array is in the block of the point its row belongs to: the 25 blocks tile the 10000 rows. -/
theorem covered0_4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨e0, e1⟩ := index0_4 (pt0 ⟨(i 0).val, hi0⟩)
  have e0' : win0_4.index (pt0 ⟨(i 0).val, hi0⟩) (0 : Fin 2) = (i 0).val / 400 := e0
  refine ⟨pt0 ⟨(i 0).val, hi0⟩, flush0_4 _, ?_⟩
  rw [mem_blk0_4]
  intro a
  match a with
  | ⟨0, _⟩ =>
    show win0_4.index (pt0 ⟨(i 0).val, hi0⟩) (0 : Fin 2) * 400 ≤ (i 0).val ∧ (i 0).val < win0_4.index (pt0 ⟨(i 0).val, hi0⟩) (0 : Fin 2) * 400 + 400
    omega
  | ⟨1, _⟩ =>
    show win0_4.index (pt0 ⟨(i 0).val, hi0⟩) (1 : Fin 2) * 128 ≤ (i 1).val ∧ (i 1).val < win0_4.index (pt0 ⟨(i 0).val, hi0⟩) (1 : Fin 2) * 128 + 128
    omega

/-- The array after the run is the whole-array function. -/
theorem final0_4 (c : Dev nD) : (dat0 V c).arrAt 4 cfg0.N = whole0_4 V c :=
  (dat0 V c).arrAt_eq_of_cover 4 (whole0_4 V c) (fun t _ => flushed0_4_eq V c t) covered0_4

/-! ## Call 1, output window 26 (10 columns) -/

/-- The classifier head's tile that point t leaves in the staging buffer. -/
def out1_26 (c : Dev nD) (t : Fin cfg1.N) : Vec Ideal S400x10 .f32 :=
  clsTile (F := Ideal) (grid1.coords t) (iblk1 V c 0 t) (iblk1 V c 1 t) (sc1 V c) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t)

/-- The classifier head's whole output: row r is row r mod 400 of the tile of point r / 400. -/
def whole1_26 (c : Dev nD) : S10000x10.Idx → Elt Ideal .f32 := fun i =>
  out1_26 V c (pt1 ⟨(i 0).val, ValueIdx.idx2_lt0 i⟩) (ix2 (inOf ⟨(i 0).val, ValueIdx.idx2_lt0 i⟩) (⟨(i 1).val, ValueIdx.idx2_lt1 i⟩ : Fin 10))

/-- The window's index map, decided over the grid: block t is block row t, block column 0. -/
theorem index1_26 : ∀ t : Fin cfg1.N, win1_26.index t (0 : Fin 2) = t.val ∧ win1_26.index t (1 : Fin 2) = 0 :=
  (by decide +kernel : ∀ t : Fin grid1.N, _)

/-- What point t writes back is block t of the whole array: rows 400 t .. 400 t + 399 are the tile's rows 0 .. 399. -/
theorem flushed1_26_eq (c : Dev nD) (t : Fin cfg1.N) :
    (dat1 V c).flushed 26 t = ((cfg1.win 26).blk t).view.read (Elt Ideal) (whole1_26 V c) := by
  show (cfg1.win 26).cut (grid1.coords t) ((dat1 V c).after 26 t) = _
  rw [after1_26]
  obtain ⟨e0, e1⟩ := index1_26 t
  funext j
  show out1_26 V c t j = whole1_26 V c (((cfg1.win 26).blk t).view.emb j)
  have hj0 : (j 0).val < 400 := (j 0).isLt
  have hj1 : (j 1).val < 10 := (j 1).isLt
  have ht : t.val < 25 := Nat.lt_of_lt_of_eq t.isLt N_1
  have h0 : ((((cfg1.win 26).blk t).view.emb j) (0 : Fin 2)).val = t.val * 400 + (j 0).val := by
    show win1_26.index t (0 : Fin 2) * 400 + 1 * (j 0).val = _
    omega
  have h1 : ((((cfg1.win 26).blk t).view.emb j) (1 : Fin 2)).val = (j 1).val := by
    show win1_26.index t (1 : Fin 2) * 10 + 1 * (j 1).val = _
    omega
  unfold whole1_26
  have hp : pt1 ⟨((((cfg1.win 26).blk t).view.emb j) (0 : Fin 2)).val, ValueIdx.idx2_lt0 _⟩ = t := Fin.ext (by
    show ((((cfg1.win 26).blk t).view.emb j) (0 : Fin 2)).val / 400 = t.val
    rw [h0]; omega)
  have hq : ix2 (inOf ⟨((((cfg1.win 26).blk t).view.emb j) (0 : Fin 2)).val, ValueIdx.idx2_lt0 _⟩)
      (⟨((((cfg1.win 26).blk t).view.emb j) (1 : Fin 2)).val, ValueIdx.idx2_lt1 _⟩ : Fin 10) = j := by
    funext a; apply Fin.ext
    match a with
    | ⟨0, _⟩ =>
      show ((((cfg1.win 26).blk t).view.emb j) (0 : Fin 2)).val % 400 = (j 0).val
      rw [h0]; omega
    | ⟨1, _⟩ => exact h1
  rw [hp, hq]

/-- An index of the array is in point t's block iff each coordinate is in the block's range on its axis. -/
theorem mem_blk1_26 (t : Fin cfg1.N) (i : S10000x10.Idx) :
    i ∈ ((cfg1.win 26).blk t).view.set ↔ ∀ a : Fin 2, win1_26.index t a * S400x10.size a ≤ (i a).val ∧ (i a).val < win1_26.index t a * S400x10.size a + S400x10.size a := by
  show i ∈ ((View.whole main_v27_0).slice (win1_26.rect t)).set ↔ _
  rw [View.set_slice_whole, Rect.mem_set_unit]
  exact Iff.rfl

/-- Every index of the array is in the block of the point its row belongs to: the 25 blocks tile the 10000 rows. -/
theorem covered1_26 (i : S10000x10.Idx) :
    ∃ t : Fin cfg1.N, (cfg1.win 26).flush t = true ∧ i ∈ ((cfg1.win 26).blk t).view.set := by
  have hi0 : (i 0).val < 10000 := (i 0).isLt
  have hi1 : (i 1).val < 10 := (i 1).isLt
  obtain ⟨e0, e1⟩ := index1_26 (pt1 ⟨(i 0).val, hi0⟩)
  have e0' : win1_26.index (pt1 ⟨(i 0).val, hi0⟩) (0 : Fin 2) = (i 0).val / 400 := e0
  refine ⟨pt1 ⟨(i 0).val, hi0⟩, flush1_26 _, ?_⟩
  rw [mem_blk1_26]
  intro a
  match a with
  | ⟨0, _⟩ =>
    show win1_26.index (pt1 ⟨(i 0).val, hi0⟩) (0 : Fin 2) * 400 ≤ (i 0).val ∧ (i 0).val < win1_26.index (pt1 ⟨(i 0).val, hi0⟩) (0 : Fin 2) * 400 + 400
    omega
  | ⟨1, _⟩ =>
    show win1_26.index (pt1 ⟨(i 0).val, hi0⟩) (1 : Fin 2) * 10 ≤ (i 1).val ∧ (i 1).val < win1_26.index (pt1 ⟨(i 0).val, hi0⟩) (1 : Fin 2) * 10 + 10
    omega

/-- The array after the run is the whole-array function. -/
theorem final1_26 (c : Dev nD) : (dat1 V c).arrAt 26 cfg1.N = whole1_26 V c :=
  (dat1 V c).arrAt_eq_of_cover 26 (whole1_26 V c) (fun t _ => flushed1_26_eq V c t) covered1_26

/-! ## Call 1, output window 27 (128 columns) -/

/-- The reconstruction head's tile that point t leaves in the staging buffer. -/
def out1_27 (c : Dev nD) (t : Fin cfg1.N) : Vec Ideal S400x128 .f32 :=
  recTile (F := Ideal) (grid1.coords t) (iblk1 V c 0 t) (iblk1 V c 1 t) (sc1 V c) (iblk1 V c 3 t) (iblk1 V c 19 t) (iblk1 V c 20 t) (iblk1 V c 21 t) (iblk1 V c 22 t) (iblk1 V c 23 t) (iblk1 V c 24 t) (iblk1 V c 25 t)

/-- The reconstruction head's whole output: row r is row r mod 400 of the tile of point r / 400. -/
def whole1_27 (c : Dev nD) : S10000x128.Idx → Elt Ideal .f32 := fun i =>
  out1_27 V c (pt1 ⟨(i 0).val, ValueIdx.idx2_lt0 i⟩) (ix2 (inOf ⟨(i 0).val, ValueIdx.idx2_lt0 i⟩) (⟨(i 1).val, ValueIdx.idx2_lt1 i⟩ : Fin 128))

/-- The window's index map, decided over the grid: block t is block row t, block column 0. -/
theorem index1_27 : ∀ t : Fin cfg1.N, win1_27.index t (0 : Fin 2) = t.val ∧ win1_27.index t (1 : Fin 2) = 0 :=
  (by decide +kernel : ∀ t : Fin grid1.N, _)

/-- What point t writes back is block t of the whole array: rows 400 t .. 400 t + 399 are the tile's rows 0 .. 399. -/
theorem flushed1_27_eq (c : Dev nD) (t : Fin cfg1.N) :
    (dat1 V c).flushed 27 t = ((cfg1.win 27).blk t).view.read (Elt Ideal) (whole1_27 V c) := by
  show (cfg1.win 27).cut (grid1.coords t) ((dat1 V c).after 27 t) = _
  rw [after1_27]
  obtain ⟨e0, e1⟩ := index1_27 t
  funext j
  show out1_27 V c t j = whole1_27 V c (((cfg1.win 27).blk t).view.emb j)
  have hj0 : (j 0).val < 400 := (j 0).isLt
  have hj1 : (j 1).val < 128 := (j 1).isLt
  have ht : t.val < 25 := Nat.lt_of_lt_of_eq t.isLt N_1
  have h0 : ((((cfg1.win 27).blk t).view.emb j) (0 : Fin 2)).val = t.val * 400 + (j 0).val := by
    show win1_27.index t (0 : Fin 2) * 400 + 1 * (j 0).val = _
    omega
  have h1 : ((((cfg1.win 27).blk t).view.emb j) (1 : Fin 2)).val = (j 1).val := by
    show win1_27.index t (1 : Fin 2) * 128 + 1 * (j 1).val = _
    omega
  unfold whole1_27
  have hp : pt1 ⟨((((cfg1.win 27).blk t).view.emb j) (0 : Fin 2)).val, ValueIdx.idx2_lt0 _⟩ = t := Fin.ext (by
    show ((((cfg1.win 27).blk t).view.emb j) (0 : Fin 2)).val / 400 = t.val
    rw [h0]; omega)
  have hq : ix2 (inOf ⟨((((cfg1.win 27).blk t).view.emb j) (0 : Fin 2)).val, ValueIdx.idx2_lt0 _⟩)
      (⟨((((cfg1.win 27).blk t).view.emb j) (1 : Fin 2)).val, ValueIdx.idx2_lt1 _⟩ : Fin 128) = j := by
    funext a; apply Fin.ext
    match a with
    | ⟨0, _⟩ =>
      show ((((cfg1.win 27).blk t).view.emb j) (0 : Fin 2)).val % 400 = (j 0).val
      rw [h0]; omega
    | ⟨1, _⟩ => exact h1
  rw [hp, hq]

/-- An index of the array is in point t's block iff each coordinate is in the block's range on its axis. -/
theorem mem_blk1_27 (t : Fin cfg1.N) (i : S10000x128.Idx) :
    i ∈ ((cfg1.win 27).blk t).view.set ↔ ∀ a : Fin 2, win1_27.index t a * S400x128.size a ≤ (i a).val ∧ (i a).val < win1_27.index t a * S400x128.size a + S400x128.size a := by
  show i ∈ ((View.whole main_v27_1).slice (win1_27.rect t)).set ↔ _
  rw [View.set_slice_whole, Rect.mem_set_unit]
  exact Iff.rfl

/-- Every index of the array is in the block of the point its row belongs to: the 25 blocks tile the 10000 rows. -/
theorem covered1_27 (i : S10000x128.Idx) :
    ∃ t : Fin cfg1.N, (cfg1.win 27).flush t = true ∧ i ∈ ((cfg1.win 27).blk t).view.set := by
  have hi0 : (i 0).val < 10000 := (i 0).isLt
  have hi1 : (i 1).val < 128 := (i 1).isLt
  obtain ⟨e0, e1⟩ := index1_27 (pt1 ⟨(i 0).val, hi0⟩)
  have e0' : win1_27.index (pt1 ⟨(i 0).val, hi0⟩) (0 : Fin 2) = (i 0).val / 400 := e0
  refine ⟨pt1 ⟨(i 0).val, hi0⟩, flush1_27 _, ?_⟩
  rw [mem_blk1_27]
  intro a
  match a with
  | ⟨0, _⟩ =>
    show win1_27.index (pt1 ⟨(i 0).val, hi0⟩) (0 : Fin 2) * 400 ≤ (i 0).val ∧ (i 0).val < win1_27.index (pt1 ⟨(i 0).val, hi0⟩) (0 : Fin 2) * 400 + 400
    omega
  | ⟨1, _⟩ =>
    show win1_27.index (pt1 ⟨(i 0).val, hi0⟩) (1 : Fin 2) * 128 ≤ (i 1).val ∧ (i 1).val < win1_27.index (pt1 ⟨(i 0).val, hi0⟩) (1 : Fin 2) * 128 + 128
    omega

/-- The array after the run is the whole-array function. -/
theorem final1_27 (c : Dev nD) : (dat1 V c).arrAt 27 cfg1.N = whole1_27 V c :=
  (dat1 V c).arrAt_eq_of_cover 27 (whole1_27 V c) (fun t _ => flushed1_27_eq V c t) covered1_27

/-! ## Call 1, output window 28 (192 columns) -/

/-- The joined features' tile that point t leaves in the staging buffer. -/
def out1_28 (c : Dev nD) (t : Fin cfg1.N) : Vec Ideal S400x192 .f32 :=
  znTile (F := Ideal) (grid1.coords t) (iblk1 V c 0 t) (iblk1 V c 1 t) (sc1 V c) (iblk1 V c 3 t)

/-- The joined features' whole output: row r is row r mod 400 of the tile of point r / 400. -/
def whole1_28 (c : Dev nD) : S10000x192.Idx → Elt Ideal .f32 := fun i =>
  out1_28 V c (pt1 ⟨(i 0).val, ValueIdx.idx2_lt0 i⟩) (ix2 (inOf ⟨(i 0).val, ValueIdx.idx2_lt0 i⟩) (⟨(i 1).val, ValueIdx.idx2_lt1 i⟩ : Fin 192))

/-- The window's index map, decided over the grid: block t is block row t, block column 0. -/
theorem index1_28 : ∀ t : Fin cfg1.N, win1_28.index t (0 : Fin 2) = t.val ∧ win1_28.index t (1 : Fin 2) = 0 :=
  (by decide +kernel : ∀ t : Fin grid1.N, _)

/-- What point t writes back is block t of the whole array: rows 400 t .. 400 t + 399 are the tile's rows 0 .. 399. -/
theorem flushed1_28_eq (c : Dev nD) (t : Fin cfg1.N) :
    (dat1 V c).flushed 28 t = ((cfg1.win 28).blk t).view.read (Elt Ideal) (whole1_28 V c) := by
  show (cfg1.win 28).cut (grid1.coords t) ((dat1 V c).after 28 t) = _
  rw [after1_28]
  obtain ⟨e0, e1⟩ := index1_28 t
  funext j
  show out1_28 V c t j = whole1_28 V c (((cfg1.win 28).blk t).view.emb j)
  have hj0 : (j 0).val < 400 := (j 0).isLt
  have hj1 : (j 1).val < 192 := (j 1).isLt
  have ht : t.val < 25 := Nat.lt_of_lt_of_eq t.isLt N_1
  have h0 : ((((cfg1.win 28).blk t).view.emb j) (0 : Fin 2)).val = t.val * 400 + (j 0).val := by
    show win1_28.index t (0 : Fin 2) * 400 + 1 * (j 0).val = _
    omega
  have h1 : ((((cfg1.win 28).blk t).view.emb j) (1 : Fin 2)).val = (j 1).val := by
    show win1_28.index t (1 : Fin 2) * 192 + 1 * (j 1).val = _
    omega
  unfold whole1_28
  have hp : pt1 ⟨((((cfg1.win 28).blk t).view.emb j) (0 : Fin 2)).val, ValueIdx.idx2_lt0 _⟩ = t := Fin.ext (by
    show ((((cfg1.win 28).blk t).view.emb j) (0 : Fin 2)).val / 400 = t.val
    rw [h0]; omega)
  have hq : ix2 (inOf ⟨((((cfg1.win 28).blk t).view.emb j) (0 : Fin 2)).val, ValueIdx.idx2_lt0 _⟩)
      (⟨((((cfg1.win 28).blk t).view.emb j) (1 : Fin 2)).val, ValueIdx.idx2_lt1 _⟩ : Fin 192) = j := by
    funext a; apply Fin.ext
    match a with
    | ⟨0, _⟩ =>
      show ((((cfg1.win 28).blk t).view.emb j) (0 : Fin 2)).val % 400 = (j 0).val
      rw [h0]; omega
    | ⟨1, _⟩ => exact h1
  rw [hp, hq]

/-- An index of the array is in point t's block iff each coordinate is in the block's range on its axis. -/
theorem mem_blk1_28 (t : Fin cfg1.N) (i : S10000x192.Idx) :
    i ∈ ((cfg1.win 28).blk t).view.set ↔ ∀ a : Fin 2, win1_28.index t a * S400x192.size a ≤ (i a).val ∧ (i a).val < win1_28.index t a * S400x192.size a + S400x192.size a := by
  show i ∈ ((View.whole main_v27_2).slice (win1_28.rect t)).set ↔ _
  rw [View.set_slice_whole, Rect.mem_set_unit]
  exact Iff.rfl

/-- Every index of the array is in the block of the point its row belongs to: the 25 blocks tile the 10000 rows. -/
theorem covered1_28 (i : S10000x192.Idx) :
    ∃ t : Fin cfg1.N, (cfg1.win 28).flush t = true ∧ i ∈ ((cfg1.win 28).blk t).view.set := by
  have hi0 : (i 0).val < 10000 := (i 0).isLt
  have hi1 : (i 1).val < 192 := (i 1).isLt
  obtain ⟨e0, e1⟩ := index1_28 (pt1 ⟨(i 0).val, hi0⟩)
  have e0' : win1_28.index (pt1 ⟨(i 0).val, hi0⟩) (0 : Fin 2) = (i 0).val / 400 := e0
  refine ⟨pt1 ⟨(i 0).val, hi0⟩, flush1_28 _, ?_⟩
  rw [mem_blk1_28]
  intro a
  match a with
  | ⟨0, _⟩ =>
    show win1_28.index (pt1 ⟨(i 0).val, hi0⟩) (0 : Fin 2) * 400 ≤ (i 0).val ∧ (i 0).val < win1_28.index (pt1 ⟨(i 0).val, hi0⟩) (0 : Fin 2) * 400 + 400
    omega
  | ⟨1, _⟩ =>
    show win1_28.index (pt1 ⟨(i 0).val, hi0⟩) (1 : Fin 2) * 192 ≤ (i 1).val ∧ (i 1).val < win1_28.index (pt1 ⟨(i 0).val, hi0⟩) (1 : Fin 2) * 192 + 192
    omega

/-- The array after the run is the whole-array function. -/
theorem final1_28 (c : Dev nD) : (dat1 V c).arrAt 28 cfg1.N = whole1_28 V c :=
  (dat1 V c).arrAt_eq_of_cover 28 (whole1_28 V c) (fun t _ => flushed1_28_eq V c t) covered1_28

end Cover

theorem arr0_4 (c : Dev nD) (r : Fin 10000) (q : Fin 128) :
    (dat0 V c).arrAt 4 cfg0.N (ix2 r q) = tile0 (F := Ideal) (iblk0 V c 0 (pt0 r)) (sc0 V c) (iblk0 V c 3 (pt0 r)) (ix2 (inOf r) q) := by
  rw [Cover.final0_4]
  rfl

theorem arr1_26 (c : Dev nD) (r : Fin 10000) (q : Fin 10) :
    (dat1 V c).arrAt 26 cfg1.N (ix2 r q) = clsTile (grid1.coords (pt1 r)) (iblk1 V c 0 (pt1 r)) (iblk1 V c 1 (pt1 r)) (sc1 V c) (iblk1 V c 3 (pt1 r)) (iblk1 V c 4 (pt1 r)) (iblk1 V c 5 (pt1 r)) (iblk1 V c 6 (pt1 r)) (iblk1 V c 7 (pt1 r)) (iblk1 V c 8 (pt1 r)) (iblk1 V c 9 (pt1 r)) (iblk1 V c 10 (pt1 r)) (iblk1 V c 11 (pt1 r)) (iblk1 V c 12 (pt1 r)) (iblk1 V c 13 (pt1 r)) (iblk1 V c 14 (pt1 r)) (iblk1 V c 15 (pt1 r)) (iblk1 V c 16 (pt1 r)) (iblk1 V c 17 (pt1 r)) (iblk1 V c 18 (pt1 r)) (ix2 (inOf r) q) := by
  rw [Cover.final1_26]
  rfl

theorem arr1_27 (c : Dev nD) (r : Fin 10000) (q : Fin 128) :
    (dat1 V c).arrAt 27 cfg1.N (ix2 r q) = recTile (grid1.coords (pt1 r)) (iblk1 V c 0 (pt1 r)) (iblk1 V c 1 (pt1 r)) (sc1 V c) (iblk1 V c 3 (pt1 r)) (iblk1 V c 19 (pt1 r)) (iblk1 V c 20 (pt1 r)) (iblk1 V c 21 (pt1 r)) (iblk1 V c 22 (pt1 r)) (iblk1 V c 23 (pt1 r)) (iblk1 V c 24 (pt1 r)) (iblk1 V c 25 (pt1 r)) (ix2 (inOf r) q) := by
  rw [Cover.final1_27]
  rfl

theorem arr1_28 (c : Dev nD) (r : Fin 10000) (j : Fin 192) :
    (dat1 V c).arrAt 28 cfg1.N (ix2 r j) = znTile (grid1.coords (pt1 r)) (iblk1 V c 0 (pt1 r)) (iblk1 V c 1 (pt1 r)) (sc1 V c) (iblk1 V c 3 (pt1 r)) (ix2 (inOf r) j) := by
  rw [Cover.final1_28]
  rfl

end Cert.KernelIdeal.Val
end
-- ==== Proof.Spec.lean ====
import Idealize.ShloMosaic.PureOps.Ideal
import Idealize.ShloMosaic.PureOps.Ideal.Laws
import Idealize.ShloMosaic.Lib.ValueIdx
import Mathlib.Data.Finset.Fold
import Mathlib.Algebra.BigOperators.Fin

noncomputable section

/-! # What the network computes, entry by entry, on the extended reals

Two graph-convolution layers over a dense adjacency, the joined features, a classifier head (two linear layers each
followed by an inference-mode batch normalisation and a rectifier, a third linear layer, a row-wise log-softmax) and a
reconstruction head (three linear layers, rectifiers after the first two). Arrays are functions of their coordinates.
A weight of a linear layer is held as (outputs, inputs), so a layer is x times the transpose plus the bias. -/

namespace Cert.Spec

open Idealize.ShloMosaic

/-- The epsilon of the batch normalisation, the zero of the rectifier, the start value of a row maximum:
    the three float words both programs carry. -/
def eps : EReal := Ideal.ofBits .f32 0x3727C5AC#32
def zero : EReal := Ideal.ofBits .f32 0x00000000#32
def ninf : EReal := Ideal.ofBits .f32 0xFF800000#32

/-- A matrix product. -/
def mm {n k p : Nat} (A : Fin n → Fin k → EReal) (B : Fin k → Fin p → EReal) (i : Fin n) (j : Fin p) : EReal :=
  ∑ l : Fin k, A i l * B l j

/-- A graph convolution: tanh of adjacency times (features times weight) plus the bias. -/
def gconv {k p : Nat} (adj : Fin 10000 → Fin 10000 → EReal) (X : Fin 10000 → Fin k → EReal) (W : Fin k → Fin p → EReal)
    (b : Fin p → EReal) (r : Fin 10000) (q : Fin p) : EReal :=
  Ideal.tanh (mm adj (mm X W) r q + b q)

/-- A linear layer on one row, the weight held as (outputs, inputs). -/
def lin {k p : Nat} (a : Fin k → EReal) (W : Fin p → Fin k → EReal) (b : Fin p → EReal) (c : Fin p) : EReal :=
  (∑ l : Fin k, a l * W c l) + b c

/-- A head's first linear layer on the joined features of one row, the sum over the 192 inputs taken as the sum over
    the first 128 plus the sum over the last 64. -/
def lin2 (a : Fin 128 → EReal) (a' : Fin 64 → EReal) (W : Fin 256 → Fin 192 → EReal) (b : Fin 256 → EReal) (c : Fin 256) : EReal :=
  ((∑ l : Fin 128, a l * W c (Fin.castAdd 64 l)) + (∑ l : Fin 64, a' l * W c (Fin.natAdd 128 l))) + b c

/-- The same layer with the sum taken over all 192 joined inputs at once. -/
theorem lin2_eq_lin (a : Fin 128 → EReal) (a' : Fin 64 → EReal) (W : Fin 256 → Fin 192 → EReal) (b : Fin 256 → EReal) (c : Fin 256) :
    lin (Fin.append a a') W b c = lin2 a a' W b c := by
  unfold lin lin2
  rw [Fin.sum_univ_add]
  simp only [Fin.append_left, Fin.append_right]

/-- Inference-mode batch normalisation of one entry. -/
def bn (v rm rv g be : EReal) : EReal := Ideal.div (v - rm) (Ideal.sqrt (rv + eps)) * g + be

/-- The rectifier. -/
def relu (v : EReal) : EReal := max v zero

/-- A row's maximum, folded from minus infinity. -/
def rowmax {n : Nat} (z : Fin n → EReal) : EReal := (Finset.univ : Finset (Fin n)).fold max ninf z

/-- Taking the maximum with minus infinity once more changes nothing. -/
theorem max_ninf_rowmax {n : Nat} (z : Fin n → EReal) : max ninf (rowmax z) = rowmax z :=
  max_eq_right ((Finset.le_fold_max _).mpr (Or.inl le_rfl))

/-- The row-wise log-softmax. -/
def logsm {n : Nat} (z : Fin n → EReal) (c : Fin n) : EReal :=
  (z c - rowmax z) - Ideal.log (∑ j : Fin n, Ideal.exp (z j - rowmax z))

section Net

variable (x : Fin 10000 → Fin 128 → EReal) (adj : Fin 10000 → Fin 10000 → EReal)
  (gc1W : Fin 128 → Fin 128 → EReal) (gc1b : Fin 128 → EReal) (gc2W : Fin 128 → Fin 64 → EReal) (gc2b : Fin 64 → EReal)
  (c1W : Fin 256 → Fin 192 → EReal) (c1b g1 be1 rm1 rv1 : Fin 256 → EReal)
  (c2W : Fin 128 → Fin 256 → EReal) (c2b g2 be2 rm2 rv2 : Fin 128 → EReal)
  (c3W : Fin 10 → Fin 128 → EReal) (c3b : Fin 10 → EReal)
  (r1W : Fin 256 → Fin 192 → EReal) (r1b : Fin 256 → EReal) (r2W : Fin 128 → Fin 256 → EReal) (r2b : Fin 128 → EReal)
  (r3W : Fin 128 → Fin 128 → EReal) (r3b : Fin 128 → EReal)

/-- The first layer's output. -/
def x1 (r : Fin 10000) (q : Fin 128) : EReal := gconv adj x gc1W gc1b r q
/-- The second layer's output. -/
def x2 (r : Fin 10000) (q : Fin 64) : EReal := gconv adj (x1 x adj gc1W gc1b) gc2W gc2b r q
/-- The joined features: the first layer's 128 columns, then the second layer's 64. -/
def zn (r : Fin 10000) (j : Fin 192) : EReal := Fin.append (x1 x adj gc1W gc1b r) (x2 x adj gc1W gc1b gc2W gc2b r) j

/-- The classifier head on one row's features. -/
def clsRow (a : Fin 128 → EReal) (a' : Fin 64 → EReal) (q : Fin 10) : EReal :=
  logsm (lin (fun j : Fin 128 => relu (bn (lin (fun i : Fin 256 => relu (bn (lin2 a a' c1W c1b i) (rm1 i) (rv1 i) (g1 i) (be1 i))) c2W c2b j)
    (rm2 j) (rv2 j) (g2 j) (be2 j))) c3W c3b) q
/-- The reconstruction head on one row's features. -/
def recRow (a : Fin 128 → EReal) (a' : Fin 64 → EReal) (q : Fin 128) : EReal :=
  lin (fun j : Fin 128 => relu (lin (fun i : Fin 256 => relu (lin2 a a' r1W r1b i)) r2W r2b j)) r3W r3b q

/-- The classifier's log-probabilities. -/
def cls (r : Fin 10000) (q : Fin 10) : EReal :=
  clsRow c1W c1b g1 be1 rm1 rv1 c2W c2b g2 be2 rm2 rv2 c3W c3b (x1 x adj gc1W gc1b r) (x2 x adj gc1W gc1b gc2W gc2b r) q
/-- The reconstruction. -/
def rec (r : Fin 10000) (q : Fin 128) : EReal :=
  recRow r1W r1b r2W r2b r3W r3b (x1 x adj gc1W gc1b r) (x2 x adj gc1W gc1b gc2W gc2b r) q

end Net

end Cert.Spec

end
-- ==== Proof.KI.Pay.lean ====
import proofs.«178126_g73521250173546_cont_sun_c4_545_6_alg».proof.Proof.KI.Body1
import proofs.«178126_g73521250173546_cont_sun_c4_545_6_alg».proof.Proof.KI.Region0
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # The kernels' stored values read at an index, on the extended reals -/

/-! ## The four products' operand indices

Each product contracts the left operand's second axis with the right operand's first: at output (r, c) and
contraction coordinate l the left operand is read at (r, l) and the right at (l, c). One lemma per operand axis. -/

theorem lhs_sup0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_sup0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_sup0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_sup0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Features times first weight into a zero accumulator, at (r, c): the sum over the 128 shared coordinates. -/
theorem mm_sup0 (a : FVec Ideal S10000x128 .bf16) (b : FVec Ideal S128x128 .bf16) (r : Fin 10000) (c : Fin 128) :
    matmul dot_S10000x128_S128x128_S10000x128_1_0_0_1_n_n none a b (constant S10000x128 .f32 0x00000000#32) (ix2 r c)
      = ∑ l : Fin 128, a (ix2 r l) * b (ix2 l c) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun l _ => ?_
  have hl := ValueIdx.contrEquiv1_symm_val dot_S10000x128_S128x128_S10000x128_1_0_0_1_n_n 128 rfl rfl l
  have el : dot_S10000x128_S128x128_S10000x128_1_0_0_1_n_n.lhsIdx (ix2 r c) ((ValueIdx.contrEquiv1 dot_S10000x128_S128x128_S10000x128_1_0_0_1_n_n 128 rfl rfl).symm l) = ix2 r l := funext fun x => Fin.ext (by
    match x with
    | ⟨0, _⟩ => exact lhs_sup0_0 _ _
    | ⟨1, _⟩ => exact (lhs_sup0_1 _ _).trans hl)
  have er : dot_S10000x128_S128x128_S10000x128_1_0_0_1_n_n.rhsIdx (ix2 r c) ((ValueIdx.contrEquiv1 dot_S10000x128_S128x128_S10000x128_1_0_0_1_n_n 128 rfl rfl).symm l) = ix2 l c := funext fun x => Fin.ext (by
    match x with
    | ⟨0, _⟩ => exact (rhs_sup0_0 _ _).trans hl
    | ⟨1, _⟩ => exact rhs_sup0_1 _ _)
  rw [el, er]

/-- The first support at (k, q): row k of the features against column q of the first weight. -/
theorem support0_apply (x2 : Vec Ideal S10000x128 .f32) (x3 : Vec Ideal S128x128 .f32) (k : Fin 10000) (q : Fin 128) :
    support0 (F := Ideal) x2 x3 (ix2 k q) = Cert.Spec.mm (fun a b => x2 (ix2 a b)) (fun a b => x3 (ix2 a b)) k q := by
  unfold support0 k0_pay1
  rw [shapeCast_self]
  rw [ValueIdx.truncf_apply, mm_sup0]
  rfl

theorem lhs_tile0_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_tile0_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_tile0_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_tile0_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- An adjacency row tile times the first support into a zero accumulator, at (r, c): the sum over the 10000 nodes. -/
theorem mm_tile0 (a : FVec Ideal S400x10000 .bf16) (b : FVec Ideal S10000x128 .bf16) (r : Fin 400) (c : Fin 128) :
    matmul dot_S400x10000_S10000x128_S400x128_1_0_0_1_n_n none a b (constant S400x128 .f32 0x00000000#32) (ix2 r c)
      = ∑ l : Fin 10000, a (ix2 r l) * b (ix2 l c) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun l _ => ?_
  have hl := ValueIdx.contrEquiv1_symm_val dot_S400x10000_S10000x128_S400x128_1_0_0_1_n_n 10000 rfl rfl l
  have el : dot_S400x10000_S10000x128_S400x128_1_0_0_1_n_n.lhsIdx (ix2 r c) ((ValueIdx.contrEquiv1 dot_S400x10000_S10000x128_S400x128_1_0_0_1_n_n 10000 rfl rfl).symm l) = ix2 r l := funext fun x => Fin.ext (by
    match x with
    | ⟨0, _⟩ => exact lhs_tile0_0 _ _
    | ⟨1, _⟩ => exact (lhs_tile0_1 _ _).trans hl)
  have er : dot_S400x10000_S10000x128_S400x128_1_0_0_1_n_n.rhsIdx (ix2 r c) ((ValueIdx.contrEquiv1 dot_S400x10000_S10000x128_S400x128_1_0_0_1_n_n 10000 rfl rfl).symm l) = ix2 l c := funext fun x => Fin.ext (by
    match x with
    | ⟨0, _⟩ => exact (rhs_tile0_0 _ _).trans hl
    | ⟨1, _⟩ => exact rhs_tile0_1 _ _)
  rw [el, er]

/-- A row tile of the first layer at (p, q). -/
theorem tile0_apply (x1 : Vec Ideal S400x10000 .f32) (s : Vec Ideal S10000x128 .bf16) (x4 : Vec Ideal S1x128 .f32) (p : Fin 400) (q : Fin 128) :
    tile0 (F := Ideal) x1 s x4 (ix2 p q) = Ideal.tanh ((∑ k : Fin 10000, x1 (ix2 p k) * s (ix2 k q)) + x4 (ix2 (0 : Fin 1) q)) := by
  unfold tile0 k0_pay2
  refine congrArg Ideal.tanh ?_
  rw [ValueIdx.addf_apply, mm_tile0, shapeCast_self, ValueIdx.broadcastTo_1b_ab_apply]
  rfl

theorem lhs_sup1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_sup1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_sup1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_sup1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- First-layer output times second weight into a zero accumulator, at (r, c): the sum over the 128 shared coordinates. -/
theorem mm_sup1 (a : FVec Ideal S10000x128 .bf16) (b : FVec Ideal S128x64 .bf16) (r : Fin 10000) (c : Fin 64) :
    matmul dot_S10000x128_S128x64_S10000x64_1_0_0_1_n_n none a b (constant S10000x64 .f32 0x00000000#32) (ix2 r c)
      = ∑ l : Fin 128, a (ix2 r l) * b (ix2 l c) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun l _ => ?_
  have hl := ValueIdx.contrEquiv1_symm_val dot_S10000x128_S128x64_S10000x64_1_0_0_1_n_n 128 rfl rfl l
  have el : dot_S10000x128_S128x64_S10000x64_1_0_0_1_n_n.lhsIdx (ix2 r c) ((ValueIdx.contrEquiv1 dot_S10000x128_S128x64_S10000x64_1_0_0_1_n_n 128 rfl rfl).symm l) = ix2 r l := funext fun x => Fin.ext (by
    match x with
    | ⟨0, _⟩ => exact lhs_sup1_0 _ _
    | ⟨1, _⟩ => exact (lhs_sup1_1 _ _).trans hl)
  have er : dot_S10000x128_S128x64_S10000x64_1_0_0_1_n_n.rhsIdx (ix2 r c) ((ValueIdx.contrEquiv1 dot_S10000x128_S128x64_S10000x64_1_0_0_1_n_n 128 rfl rfl).symm l) = ix2 l c := funext fun x => Fin.ext (by
    match x with
    | ⟨0, _⟩ => exact (rhs_sup1_0 _ _).trans hl
    | ⟨1, _⟩ => exact rhs_sup1_1 _ _)
  rw [el, er]

/-- The second support at (k, q). -/
theorem support1_apply (x2 : Vec Ideal S10000x128 .f32) (x3 : Vec Ideal S128x64 .f32) (k : Fin 10000) (q : Fin 64) :
    support1 (F := Ideal) x2 x3 (ix2 k q) = Cert.Spec.mm (fun a b => x2 (ix2 a b)) (fun a b => x3 (ix2 a b)) k q := by
  unfold support1 k1_pay2
  rw [shapeCast_self, ValueIdx.truncf_apply, mm_sup1, shapeCast_self]
  rfl

theorem lhs_sec1_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_sec1_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_sec1_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_sec1_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- An adjacency row tile times the second support into a zero accumulator, at (r, c): the sum over the 10000 nodes. -/
theorem mm_sec1 (a : FVec Ideal S400x10000 .bf16) (b : FVec Ideal S10000x64 .bf16) (r : Fin 400) (c : Fin 64) :
    matmul dot_S400x10000_S10000x64_S400x64_1_0_0_1_n_n none a b (constant S400x64 .f32 0x00000000#32) (ix2 r c)
      = ∑ l : Fin 10000, a (ix2 r l) * b (ix2 l c) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun l _ => ?_
  have hl := ValueIdx.contrEquiv1_symm_val dot_S400x10000_S10000x64_S400x64_1_0_0_1_n_n 10000 rfl rfl l
  have el : dot_S400x10000_S10000x64_S400x64_1_0_0_1_n_n.lhsIdx (ix2 r c) ((ValueIdx.contrEquiv1 dot_S400x10000_S10000x64_S400x64_1_0_0_1_n_n 10000 rfl rfl).symm l) = ix2 r l := funext fun x => Fin.ext (by
    match x with
    | ⟨0, _⟩ => exact lhs_sec1_0 _ _
    | ⟨1, _⟩ => exact (lhs_sec1_1 _ _).trans hl)
  have er : dot_S400x10000_S10000x64_S400x64_1_0_0_1_n_n.rhsIdx (ix2 r c) ((ValueIdx.contrEquiv1 dot_S400x10000_S10000x64_S400x64_1_0_0_1_n_n 10000 rfl rfl).symm l) = ix2 l c := funext fun x => Fin.ext (by
    match x with
    | ⟨0, _⟩ => exact (rhs_sec1_0 _ _).trans hl
    | ⟨1, _⟩ => exact rhs_sec1_1 _ _)
  rw [el, er]

/-- A row tile of the second layer at (p, q). -/
theorem second1_apply (x1 : Vec Ideal S400x10000 .f32) (s : Vec Ideal S10000x64 .bf16) (x4 : Vec Ideal S1x64 .f32) (p : Fin 400) (q : Fin 64) :
    k1_pay4 (F := Ideal) x1 s x4 (ix2 p q) = Ideal.tanh ((∑ k : Fin 10000, x1 (ix2 p k) * s (ix2 k q)) + x4 (ix2 (0 : Fin 1) q)) := by
  unfold k1_pay4
  refine congrArg Ideal.tanh ?_
  rw [ValueIdx.addf_apply, mm_sec1, shapeCast_self, ValueIdx.broadcastTo_1b_ab_apply]
  rfl

/-- The joined-features tile at (p, j): the first-layer rows in the low 128 columns, the second-layer tile in the high 64. -/
theorem znTile_apply (i : grid1.Coords) (x1 : Vec Ideal S400x10000 .f32) (x2 : Vec Ideal S10000x128 .f32) (s : Vec Ideal S10000x64 .bf16) (x4 : Vec Ideal S1x64 .f32)
    (p : Fin 400) (j : Fin 192) :
    znTile (F := Ideal) i x1 x2 s x4 (ix2 p j)
      = Fin.append (fun l : Fin 128 => rows1 (F := Ideal) i x2 (ix2 p l)) (fun l : Fin 64 => k1_pay4 (F := Ideal) x1 s x4 (ix2 p l)) j := by
  unfold znTile
  by_cases hj : j.val < 128
  · -- a low column lies off the second-layer piece, and is column l of the first-layer piece
    obtain ⟨l, rfl⟩ : ∃ l : Fin 128, j = Fin.castAdd 64 l := ⟨⟨j.val, hj⟩, Fin.ext rfl⟩
    rw [Fin.append_left]
    rw [View.canon_cons_of_not_mem _ _ (fun h => by
      have h1 := ((Rect.mem_set_unit (s := S400x192) (off := ![0, 128]) (size := S400x64.size) (inb := inb_S400x192_S400x64_0_128)).mp h 1).1
      have : (128 : Nat) ≤ l.val := h1
      omega)]
    have e : (ix2 p (Fin.castAdd 64 l) : S400x192.Idx)
        = (Rect.unit (s := S400x192) ![0, 0] S400x128.size inb_S400x192_S400x128_0_0).emb (ix2 p l) :=
      funext fun a => Fin.ext (by
        match a with
        | ⟨0, _⟩ => show p.val = 0 + 1 * p.val; omega
        | ⟨1, _⟩ => show l.val = 0 + 1 * l.val; omega)
    rw [e, View.canon_cons_emb]
    unfold k1_pay3
    rw [shapeCast_self]
  · -- a high column 128 + l is column l of the second-layer piece, the last one written
    obtain ⟨l, rfl⟩ : ∃ l : Fin 64, j = Fin.natAdd 128 l :=
      ⟨⟨j.val - 128, by have := j.isLt; omega⟩, Fin.ext (by show j.val = 128 + (j.val - 128); omega)⟩
    rw [Fin.append_right]
    have e : (ix2 p (Fin.natAdd 128 l) : S400x192.Idx)
        = (Rect.unit (s := S400x192) ![0, 128] S400x64.size inb_S400x192_S400x64_0_128).emb (ix2 p l) :=
      funext fun a => Fin.ext (by
        match a with
        | ⟨0, _⟩ => show p.val = 0 + 1 * p.val; omega
        | ⟨1, _⟩ => show 128 + l.val = 128 + 1 * l.val; omega)
    rw [e, View.canon_cons_emb]

end Cert.KernelIdeal.Val
end
-- ==== Proof.KI.Blocks0.lean ====
import proofs.«178126_g73521250173546_cont_sun_c4_545_6_alg».proof.Proof.KI.Region0
import proofs.«178126_g73521250173546_cont_sun_c4_545_6_alg».proof.Proof.KI.Cover
import proofs.«178126_g73521250173546_cont_sun_c4_545_6_alg».proof.Proof.KI.Pay
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # From the row tiles to the whole arrays

Each call writes its output arrays block by block, one block of 400 rows per grid point; row r of an output array is
row r mod 400 of the block the point r / 400 wrote, and that block depends on the point's 400 rows of the adjacency
(and of the first layer's output), on the support kept in scratch and on the whole weight operands. -/

variable (V : (c : Dev nD) → (b : Ref sig .tc) → Buf (Elt Ideal) ((c : Thread nD τ).loc b))

/-! ## The input windows' blocks read off their arrays

The adjacency window's block at point t is rows 400 t .. 400 t + 399 of the adjacency, all 10000 columns; the features,
the weight and the bias row are windows of one block, the whole array, at every point. An element of a block sits in
its array, on each axis, at the block index times the block size plus its coordinate inside the block. -/

/-- The first call's index maps over its 25 points: the adjacency's block index is (t, 0), the other inputs' (0, 0). -/
theorem idx_in0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The adjacency block of point t at (p, k) is the adjacency at row 400 t + p, column k. -/
theorem blk0_0 (c : Dev nD) (t : Fin cfg0.N) (p : Fin 400) (k : Fin 10000) (r : Fin 10000) (hr : r.val = 400 * t.val + p.val) :
    iblk0 V c 0 t (ix2 p k) = V c main_arg1 (ix2 r k) := by
  obtain ⟨e0, e1, -⟩ := idx_in0 t
  show V c main_arg1 (((cfg0.win 0).blk t).view.emb (ix2 p k)) = V c main_arg1 (ix2 r k)
  refine congrArg (V c main_arg1) (funext fun a => Fin.ext ?_)
  match a with
  | ⟨0, _⟩ => show win0_0.index t (0 : Fin 2) * 400 + 1 * p.val = r.val; omega
  | ⟨1, _⟩ => show win0_0.index t (1 : Fin 2) * 10000 + 1 * k.val = k.val; omega

/-- The features' block at any point is the features. -/
theorem blk0_1 (c : Dev nD) (t : Fin cfg0.N) (a : Fin 10000) (b : Fin 128) :
    iblk0 V c 1 t (ix2 a b) = V c main_arg0 (ix2 a b) := by
  obtain ⟨-, -, e0, e1, -⟩ := idx_in0 t
  show V c main_arg0 (((cfg0.win 1).blk t).view.emb (ix2 a b)) = V c main_arg0 (ix2 a b)
  refine congrArg (V c main_arg0) (funext fun x => Fin.ext ?_)
  match x with
  | ⟨0, _⟩ => show win0_1.index t (0 : Fin 2) * 10000 + 1 * a.val = a.val; omega
  | ⟨1, _⟩ => show win0_1.index t (1 : Fin 2) * 128 + 1 * b.val = b.val; omega

/-- The weight's block at any point is the weight. -/
theorem blk0_2 (c : Dev nD) (t : Fin cfg0.N) (a : Fin 128) (b : Fin 128) :
    iblk0 V c 2 t (ix2 a b) = V c main_arg2 (ix2 a b) := by
  obtain ⟨-, -, -, -, e0, e1, -⟩ := idx_in0 t
  show V c main_arg2 (((cfg0.win 2).blk t).view.emb (ix2 a b)) = V c main_arg2 (ix2 a b)
  refine congrArg (V c main_arg2) (funext fun x => Fin.ext ?_)
  match x with
  | ⟨0, _⟩ => show win0_2.index t (0 : Fin 2) * 128 + 1 * a.val = a.val; omega
  | ⟨1, _⟩ => show win0_2.index t (1 : Fin 2) * 128 + 1 * b.val = b.val; omega

/-- The bias row's block at any point is the bias row. -/
theorem blk0_3 (c : Dev nD) (t : Fin cfg0.N) (b : Fin 128) :
    iblk0 V c 3 t (ix2 (0 : Fin 1) b) = V c main_v6 (ix2 (0 : Fin 1) b) := by
  obtain ⟨-, -, -, -, -, -, e0, e1⟩ := idx_in0 t
  show V c main_v6 (((cfg0.win 3).blk t).view.emb (ix2 (0 : Fin 1) b)) = V c main_v6 (ix2 (0 : Fin 1) b)
  refine congrArg (V c main_v6) (funext fun x => Fin.ext ?_)
  match x with
  | ⟨0, _⟩ => show win0_3.index t (0 : Fin 2) * 1 + 1 * (0 : Fin 1).val = (0 : Fin 1).val; omega
  | ⟨1, _⟩ => show win0_3.index t (1 : Fin 2) * 128 + 1 * b.val = b.val; omega

/-- The first call's output array is the specification's first layer of the arrays it reads. -/
theorem region0_value (c : Dev nD) (r : Fin 10000) (q : Fin 128) :
    (dat0 V c).arrAt 4 cfg0.N (ix2 r q)
      = Cert.Spec.gconv (fun a b => V c main_arg1 (ix2 a b)) (fun a b => V c main_arg0 (ix2 a b)) (fun a b => V c main_arg2 (ix2 a b)) (fun b => V c main_v6 (ix2 (0 : Fin 1) b)) r q := by
  have hr : r.val = 400 * (pt0 r).val + (inOf r).val := by
    show r.val = 400 * (r.val / 400) + r.val % 400
    omega
  have hs : ∀ k : Fin 10000, sc0 V c (ix2 k q)
      = Cert.Spec.mm (fun a b => V c main_arg0 (ix2 a b)) (fun a b => V c main_arg2 (ix2 a b)) k q := fun k => by
    unfold sc0
    rw [support0_apply]
    simp only [blk0_1, blk0_2]
  rw [arr0_4, tile0_apply, blk0_3]
  simp only [hs, fun k => blk0_0 V c (pt0 r) (inOf r) k r hr]
  rfl

end Cert.KernelIdeal.Val
end
-- ==== Proof.KI.Cls.lean ====
import proofs.«178126_g73521250173546_cont_sun_c4_545_6_alg».proof.Proof.KI.Body1
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # The stages of the classifier head, each read at coordinates

The four matrix products of the head read at an output coordinate as sums over the inner coordinate; the column forms of
the layout operations the row maximum and the row sum go through; the two lane reductions of a 400x10 tile; then the
head's payloads stage by stage, each as the specification's function of the row. -/

namespace Cls

/-! The product 400x128 by 128x256: its operand indices at an output index, axis by axis. -/
theorem lhs_c1a_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem lhs_c1a_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
theorem rhs_c1a_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
theorem rhs_c1a_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl
/-- Into a zero accumulator the product at (p, c) is the sum over the 128 inner coordinates. -/
theorem mm_c1a {φ₁ φ₂ : FTy} (lhs : FVec Ideal S400x128 φ₁) (rhs : FVec Ideal S128x256 φ₂) (p : Fin 400) (c : Fin 256) :
    matmul dot_S400x128_S128x256_S400x256_1_0_0_1_n_n none lhs rhs (constant (F := Ideal) S400x256 .f32 0x00000000#32) (ix2 p c)
      = ∑ k : Fin 128, lhs (ix2 p k) * rhs (ix2 k c) := by
  show FloatOps.matmul dot_S400x128_S128x256_S400x256_1_0_0_1_n_n none lhs rhs (constant (F := Ideal) S400x256 .f32 0x00000000#32) (ix2 p c) = _
  rw [Ideal.matmul_constant_zero_apply, ← Equiv.sum_comp (ValueIdx.contrEquiv1 dot_S400x128_S128x256_S400x256_1_0_0_1_n_n 128 rfl rfl).symm]
  refine Finset.sum_congr rfl fun k _ => ?_
  have hk := ValueIdx.contrEquiv1_symm_val dot_S400x128_S128x256_S400x256_1_0_0_1_n_n 128 rfl rfl k
  have el : dot_S400x128_S128x256_S400x256_1_0_0_1_n_n.lhsIdx (ix2 p c) ((ValueIdx.contrEquiv1 dot_S400x128_S128x256_S400x256_1_0_0_1_n_n 128 rfl rfl).symm k) = ix2 p k := funext fun a => Fin.ext (by
    match a with
    | ⟨0, _⟩ => exact lhs_c1a_0 _ _
    | ⟨1, _⟩ => exact (lhs_c1a_1 _ _).trans hk)
  have er : dot_S400x128_S128x256_S400x256_1_0_0_1_n_n.rhsIdx (ix2 p c) ((ValueIdx.contrEquiv1 dot_S400x128_S128x256_S400x256_1_0_0_1_n_n 128 rfl rfl).symm k) = ix2 k c := funext fun a => Fin.ext (by
    match a with
    | ⟨0, _⟩ => exact (rhs_c1a_0 _ _).trans hk
    | ⟨1, _⟩ => exact rhs_c1a_1 _ _)
  rw [el, er]

/-! The product 400x64 by 64x256: its operand indices at an output index, axis by axis. -/
theorem lhs_c1b_0 (i : S400x256.Idx) (q : dot_S400x64_S64x256_S400x256_1_0_0_1_n_n.contr.Idx) :
    (dot_S400x64_S64x256_S400x256_1_0_0_1_n_n.lhsIdx i q 0).val = (i 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
theorem lhs_c1b_1 (i : S400x256.Idx) (q : dot_S400x64_S64x256_S400x256_1_0_0_1_n_n.contr.Idx) :
    (dot_S400x64_S64x256_S400x256_1_0_0_1_n_n.lhsIdx i q 1).val = (q ⟨0, by decide⟩).val :=
  dot_S400x64_S64x256_S400x256_1_0_0_1_n_n.lhsIdx_val_of_single rfl i q
theorem rhs_c1b_0 (i : S400x256.Idx) (q : dot_S400x64_S64x256_S400x256_1_0_0_1_n_n.contr.Idx) :
    (dot_S400x64_S64x256_S400x256_1_0_0_1_n_n.rhsIdx i q 0).val = (q ⟨0, by decide⟩).val :=
  dot_S400x64_S64x256_S400x256_1_0_0_1_n_n.rhsIdx_val_of_single rfl i q
theorem rhs_c1b_1 (i : S400x256.Idx) (q : dot_S400x64_S64x256_S400x256_1_0_0_1_n_n.contr.Idx) :
    (dot_S400x64_S64x256_S400x256_1_0_0_1_n_n.rhsIdx i q 1).val = (i 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl
/-- Into a zero accumulator the product at (p, c) is the sum over the 64 inner coordinates. -/
theorem mm_c1b {φ₁ φ₂ : FTy} (lhs : FVec Ideal S400x64 φ₁) (rhs : FVec Ideal S64x256 φ₂) (p : Fin 400) (c : Fin 256) :
    matmul dot_S400x64_S64x256_S400x256_1_0_0_1_n_n none lhs rhs (constant (F := Ideal) S400x256 .f32 0x00000000#32) (ix2 p c)
      = ∑ k : Fin 64, lhs (ix2 p k) * rhs (ix2 k c) := by
  show FloatOps.matmul dot_S400x64_S64x256_S400x256_1_0_0_1_n_n none lhs rhs (constant (F := Ideal) S400x256 .f32 0x00000000#32) (ix2 p c) = _
  rw [Ideal.matmul_constant_zero_apply, ← Equiv.sum_comp (ValueIdx.contrEquiv1 dot_S400x64_S64x256_S400x256_1_0_0_1_n_n 64 rfl rfl).symm]
  refine Finset.sum_congr rfl fun k _ => ?_
  have hk := ValueIdx.contrEquiv1_symm_val dot_S400x64_S64x256_S400x256_1_0_0_1_n_n 64 rfl rfl k
  have el : dot_S400x64_S64x256_S400x256_1_0_0_1_n_n.lhsIdx (ix2 p c) ((ValueIdx.contrEquiv1 dot_S400x64_S64x256_S400x256_1_0_0_1_n_n 64 rfl rfl).symm k) = ix2 p k := funext fun a => Fin.ext (by
    match a with
    | ⟨0, _⟩ => exact lhs_c1b_0 _ _
    | ⟨1, _⟩ => exact (lhs_c1b_1 _ _).trans hk)
  have er : dot_S400x64_S64x256_S400x256_1_0_0_1_n_n.rhsIdx (ix2 p c) ((ValueIdx.contrEquiv1 dot_S400x64_S64x256_S400x256_1_0_0_1_n_n 64 rfl rfl).symm k) = ix2 k c := funext fun a => Fin.ext (by
    match a with
    | ⟨0, _⟩ => exact (rhs_c1b_0 _ _).trans hk
    | ⟨1, _⟩ => exact rhs_c1b_1 _ _)
  rw [el, er]

/-! The product 400x256 by 256x128: its operand indices at an output index, axis by axis. -/
theorem lhs_c2_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem lhs_c2_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
theorem rhs_c2_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
theorem rhs_c2_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl
/-- Into a zero accumulator the product at (p, c) is the sum over the 256 inner coordinates. -/
theorem mm_c2 {φ₁ φ₂ : FTy} (lhs : FVec Ideal S400x256 φ₁) (rhs : FVec Ideal S256x128 φ₂) (p : Fin 400) (c : Fin 128) :
    matmul dot_S400x256_S256x128_S400x128_1_0_0_1_n_n none lhs rhs (constant (F := Ideal) S400x128 .f32 0x00000000#32) (ix2 p c)
      = ∑ k : Fin 256, lhs (ix2 p k) * rhs (ix2 k c) := by
  show FloatOps.matmul dot_S400x256_S256x128_S400x128_1_0_0_1_n_n none lhs rhs (constant (F := Ideal) S400x128 .f32 0x00000000#32) (ix2 p c) = _
  rw [Ideal.matmul_constant_zero_apply, ← Equiv.sum_comp (ValueIdx.contrEquiv1 dot_S400x256_S256x128_S400x128_1_0_0_1_n_n 256 rfl rfl).symm]
  refine Finset.sum_congr rfl fun k _ => ?_
  have hk := ValueIdx.contrEquiv1_symm_val dot_S400x256_S256x128_S400x128_1_0_0_1_n_n 256 rfl rfl k
  have el : dot_S400x256_S256x128_S400x128_1_0_0_1_n_n.lhsIdx (ix2 p c) ((ValueIdx.contrEquiv1 dot_S400x256_S256x128_S400x128_1_0_0_1_n_n 256 rfl rfl).symm k) = ix2 p k := funext fun a => Fin.ext (by
    match a with
    | ⟨0, _⟩ => exact lhs_c2_0 _ _
    | ⟨1, _⟩ => exact (lhs_c2_1 _ _).trans hk)
  have er : dot_S400x256_S256x128_S400x128_1_0_0_1_n_n.rhsIdx (ix2 p c) ((ValueIdx.contrEquiv1 dot_S400x256_S256x128_S400x128_1_0_0_1_n_n 256 rfl rfl).symm k) = ix2 k c := funext fun a => Fin.ext (by
    match a with
    | ⟨0, _⟩ => exact (rhs_c2_0 _ _).trans hk
    | ⟨1, _⟩ => exact rhs_c2_1 _ _)
  rw [el, er]

/-! The product 400x128 by 128x10: its operand indices at an output index, axis by axis. -/
theorem lhs_c3_0 (i : S400x10.Idx) (q : dot_S400x128_S128x10_S400x10_1_0_0_1_n_n.contr.Idx) :
    (dot_S400x128_S128x10_S400x10_1_0_0_1_n_n.lhsIdx i q 0).val = (i 0).val := by
  unfold DotDims.lhsIdx
  rw [dif_neg (show ¬(0 : Fin S400x128.rank) ∈ dot_S400x128_S128x10_S400x10_1_0_0_1_n_n.lhsBatch by decide), dif_pos (show (0 : Fin S400x128.rank) ∈ dot_S400x128_S128x10_S400x10_1_0_0_1_n_n.lhsNonContracting by decide)]
  rfl
theorem lhs_c3_1 (i : S400x10.Idx) (q : dot_S400x128_S128x10_S400x10_1_0_0_1_n_n.contr.Idx) :
    (dot_S400x128_S128x10_S400x10_1_0_0_1_n_n.lhsIdx i q 1).val = (q ⟨0, by decide⟩).val :=
  dot_S400x128_S128x10_S400x10_1_0_0_1_n_n.lhsIdx_val_of_single rfl i q
theorem rhs_c3_0 (i : S400x10.Idx) (q : dot_S400x128_S128x10_S400x10_1_0_0_1_n_n.contr.Idx) :
    (dot_S400x128_S128x10_S400x10_1_0_0_1_n_n.rhsIdx i q 0).val = (q ⟨0, by decide⟩).val :=
  dot_S400x128_S128x10_S400x10_1_0_0_1_n_n.rhsIdx_val_of_single rfl i q
theorem rhs_c3_1 (i : S400x10.Idx) (q : dot_S400x128_S128x10_S400x10_1_0_0_1_n_n.contr.Idx) :
    (dot_S400x128_S128x10_S400x10_1_0_0_1_n_n.rhsIdx i q 1).val = (i 1).val := by
  unfold DotDims.rhsIdx
  rw [dif_neg (show ¬(1 : Fin S128x10.rank) ∈ dot_S400x128_S128x10_S400x10_1_0_0_1_n_n.rhsBatch by decide), dif_pos (show (1 : Fin S128x10.rank) ∈ dot_S400x128_S128x10_S400x10_1_0_0_1_n_n.rhsNonContracting by decide)]
  rfl
/-- Into a zero accumulator the product at (p, c) is the sum over the 128 inner coordinates. -/
theorem mm_c3 {φ₁ φ₂ : FTy} (lhs : FVec Ideal S400x128 φ₁) (rhs : FVec Ideal S128x10 φ₂) (p : Fin 400) (c : Fin 10) :
    matmul dot_S400x128_S128x10_S400x10_1_0_0_1_n_n none lhs rhs (constant (F := Ideal) S400x10 .f32 0x00000000#32) (ix2 p c)
      = ∑ k : Fin 128, lhs (ix2 p k) * rhs (ix2 k c) := by
  show FloatOps.matmul dot_S400x128_S128x10_S400x10_1_0_0_1_n_n none lhs rhs (constant (F := Ideal) S400x10 .f32 0x00000000#32) (ix2 p c) = _
  rw [Ideal.matmul_constant_zero_apply, ← Equiv.sum_comp (ValueIdx.contrEquiv1 dot_S400x128_S128x10_S400x10_1_0_0_1_n_n 128 rfl rfl).symm]
  refine Finset.sum_congr rfl fun k _ => ?_
  have hk := ValueIdx.contrEquiv1_symm_val dot_S400x128_S128x10_S400x10_1_0_0_1_n_n 128 rfl rfl k
  have el : dot_S400x128_S128x10_S400x10_1_0_0_1_n_n.lhsIdx (ix2 p c) ((ValueIdx.contrEquiv1 dot_S400x128_S128x10_S400x10_1_0_0_1_n_n 128 rfl rfl).symm k) = ix2 p k := funext fun a => Fin.ext (by
    match a with
    | ⟨0, _⟩ => exact lhs_c3_0 _ _
    | ⟨1, _⟩ => exact (lhs_c3_1 _ _).trans hk)
  have er : dot_S400x128_S128x10_S400x10_1_0_0_1_n_n.rhsIdx (ix2 p c) ((ValueIdx.contrEquiv1 dot_S400x128_S128x10_S400x10_1_0_0_1_n_n 128 rfl rfl).symm k) = ix2 k c := funext fun a => Fin.ext (by
    match a with
    | ⟨0, _⟩ => exact (rhs_c3_0 _ _).trans hk
    | ⟨1, _⟩ => exact rhs_c3_1 _ _)
  rw [el, er]

/-! ## The layout and pointwise operations the head uses, read at coordinates -/

section Reads
variable {α : Type}

/-- An [a] vector cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the operand's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Reads

section Pointwise
variable {s : Shape} {φ : FTy}
/-- A vector square root, exponential, logarithm at an index is the extended reals' function of the element. -/
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
end Pointwise

/-- The index over row p of a 400x10 tile with lane c put back is (p, c). -/
theorem lift_row (p : Fin 400) (c : Fin 10) : reduces_S400x10_S400.lift (ix1 p) c = ix2 p c := by
  funext a; refine Fin.ext ?_
  match a with
  | ⟨0, _⟩ => rfl
  | ⟨1, _⟩ => rfl

/-- A row's lane maximum from minus infinity is the specification's row maximum. -/
theorem rowmax_apply (z : FVec Ideal S400x10 .f32) (hφ : FKind.Formats .f32) (hacc : (0xFF800000#32 : BitVec 32) = 0xFF800000#32) (p : Fin 400) :
    multiReduction (F := Ideal) .maximumf [1] S400 z 0xFF800000#32 reduces_S400x10_S400 hφ hacc (ix1 p)
      = Cert.Spec.rowmax (fun c : Fin 10 => z (ix2 p c)) :=
  (Ideal.multiReduction_maximumf_single z 0xFF800000#32 reduces_S400x10_S400 hφ hacc (ix1 p)).trans
    (congrArg (fun f : Fin 10 → EReal => (Finset.univ : Finset (Fin 10)).fold max (Ideal.ofBits .f32 0xFF800000#32) f)
      (funext fun c => congrArg z (lift_row p c)))

/-- A row's lane sum is the sum over the ten lanes. -/
theorem rowsum_apply (z : FVec Ideal S400x10 .f32) (hφ : FKind.Formats .f32) (hacc : (0x00000000#32 : BitVec 32) = 0x00000000#32) (p : Fin 400) :
    multiReduction (F := Ideal) .add [1] S400 z 0x00000000#32 reduces_S400x10_S400 hφ hacc (ix1 p)
      = ∑ c : Fin 10, z (ix2 p c) :=
  (Ideal.multiReduction_add_single z 0x00000000#32 reduces_S400x10_S400 hφ hacc (ix1 p)).trans
    (Finset.sum_congr rfl fun c _ => congrArg z (lift_row p c))

/-! ## The row-wise log-softmax of the logits' tile -/

/-- The tail of the head's payload: a 400x10 tile of logits to its row-wise log-softmax. -/
def lsmV (v92 : FVec Ideal S400x10 .f32) : FVec Ideal S400x10 .f32 :=
  have v93 : FVec Ideal S400 .f32 := multiReduction .maximumf [1] S400 v92 0xFF800000#32 reduces_S400x10_S400 (.inl rfl) rfl
  have v94 : FVec Ideal S400x1 .f32 := shapeCast S400x1 v93 shapeCasts_S400_S400x1
  have v95 : FVec Ideal S400x10 .f32 := broadcastTo S400x10 v94 broadcasts_S400x1_S400x10
  have v96 : FVec Ideal S400x10 .f32 := subf v92 v95
  have v97 : FVec Ideal S400x10 .f32 := exp v96
  have v98 : FVec Ideal S400x10 .f32 := broadcastTo S400x10 v94 broadcasts_S400x1_S400x10
  have v99 : FVec Ideal S400x10 .f32 := subf v92 v98
  have v100 : FVec Ideal S400 .f32 := multiReduction .add [1] S400 v97 0x00000000#32 reduces_S400x10_S400 (.inl rfl) rfl
  have v101 : FVec Ideal S400x1 .f32 := shapeCast S400x1 v100 shapeCasts_S400_S400x1
  have v102 : FVec Ideal S400x1 .f32 := log v101
  have v103 : FVec Ideal S400x10 .f32 := broadcastTo S400x10 v102 broadcasts_S400x1_S400x10
  have v104 : FVec Ideal S400x10 .f32 := subf v99 v103
  v104

/-- At (p, q) it is the specification's log-softmax of row p, at q. -/
theorem lsmV_apply (z : FVec Ideal S400x10 .f32) (p : Fin 400) (q : Fin 10) :
    lsmV z (ix2 p q) = Cert.Spec.logsm (fun c : Fin 10 => z (ix2 p c)) q := by
  unfold lsmV Cert.Spec.logsm
  simp only [ValueIdx.subf_apply, broadcastTo_a1_ab_apply, log_apply, shapeCast_a_a1_apply]
  rw [rowsum_apply]
  simp only [exp_apply, ValueIdx.subf_apply, broadcastTo_a1_ab_apply, shapeCast_a_a1_apply]
  rw [rowmax_apply z]

/-! ## The head's stages on a row -/

/-- The first linear layer on the joined features of row p: the first-layer columns against the first weight block, the
    second-layer columns against the second, plus the bias. -/
theorem pay5_apply (v5 : Vec Ideal S400x128 .f32) (v7 : Vec Ideal S400x10000 .f32) (v8 : Vec Ideal S10000x64 .bf16) (v11 : Vec Ideal S1x64 .f32)
    (v18 : Vec Ideal S128x256 .f32) (v23 : Vec Ideal S64x256 .f32) (v29 : Vec Ideal S1x256 .f32) (p : Fin 400) (c : Fin 256) :
    k1_pay5 (F := Ideal) v5 v7 v8 v11 v18 v23 v29 (ix2 p c)
      = Cert.Spec.lin2 (fun l : Fin 128 => v5 (ix2 p l)) (fun l : Fin 64 => k1_pay4 (F := Ideal) v7 v8 v11 (ix2 p l))
          (fun c => Fin.append (fun l : Fin 128 => v18 (ix2 l c)) (fun l : Fin 64 => v23 (ix2 l c)))
          (fun c => v29 (ix2 (0 : Fin 1) c)) c := by
  unfold k1_pay5 k1_pay3 Cert.Spec.lin2
  simp only [shapeCast_self, ValueIdx.addf_apply, mm_c1a, mm_c1b, ValueIdx.broadcastTo_1b_ab_apply, ValueIdx.truncf_apply,
    Fin.append_left, Fin.append_right]

/-- Batch normalisation and rectifier of the first layer's output, then the second linear layer, on row p. -/
theorem pay6_apply (v32 : FVec Ideal S400x256 .f32) (v33 v35 v37 v39 : Vec Ideal S1x256 .f32) (v54 : Vec Ideal S256x128 .f32)
    (v59 : Vec Ideal S1x128 .f32) (p : Fin 400) (j : Fin 128) :
    k1_pay6 (F := Ideal) v32 v33 v35 v37 v39 v54 v59 (ix2 p j)
      = Cert.Spec.lin (fun i : Fin 256 => Cert.Spec.relu (Cert.Spec.bn (v32 (ix2 p i)) (v37 (ix2 (0 : Fin 1) i)) (v39 (ix2 (0 : Fin 1) i))
            (v33 (ix2 (0 : Fin 1) i)) (v35 (ix2 (0 : Fin 1) i))))
          (fun j l => v54 (ix2 l j)) (fun j => v59 (ix2 (0 : Fin 1) j)) j := by
  unfold k1_pay6 Cert.Spec.lin Cert.Spec.relu Cert.Spec.bn Cert.Spec.eps Cert.Spec.zero
  simp only [shapeCast_self, ValueIdx.addf_apply, mm_c2, ValueIdx.broadcastTo_1b_ab_apply, ValueIdx.truncf_apply, ValueIdx.maximumf_apply,
    ValueIdx.mulf_apply, ValueIdx.divf_apply, ValueIdx.subf_apply, sqrt_apply, ValueIdx.broadcast_apply]
  rfl

/-- The logits' tile: the second normalisation and rectifier, then the third linear layer. -/
def logitsV (v62 : FVec Ideal S400x128 .f32) (v64 : FVec Ideal S1x128 .f32) (v66 : FVec Ideal S1x128 .f32) (v68 : FVec Ideal S1x128 .f32)
    (v69 : Vec Ideal S1x128 .f32) (v84 : Vec Ideal S128x10 .f32) (v89 : Vec Ideal S1x10 .f32) : FVec Ideal S400x10 .f32 :=
  have v70 : FVec Ideal S1x128 .f32 := shapeCast S1x128 v69 shapeCasts_S1x128_S1x128
  have v71 : FVec Ideal S400x128 .f32 := broadcastTo S400x128 v68 broadcasts_S1x128_S400x128
  have v72 : FVec Ideal S400x128 .f32 := subf v62 v71
  have cst_41 : Ideal .f32 := Scalar.ofBits .f32 0x3727C5AC#32
  have v73 : FVec Ideal S1x128 .f32 := broadcast S1x128 cst_41
  have v74 : FVec Ideal S1x128 .f32 := addf v70 v73
  have v75 : FVec Ideal S1x128 .f32 := sqrt v74
  have v76 : FVec Ideal S400x128 .f32 := broadcastTo S400x128 v75 broadcasts_S1x128_S400x128
  have v77 : FVec Ideal S400x128 .f32 := divf v72 v76
  have v78 : FVec Ideal S400x128 .f32 := broadcastTo S400x128 v64 broadcasts_S1x128_S400x128
  have v79 : FVec Ideal S400x128 .f32 := mulf v77 v78
  have v80 : FVec Ideal S400x128 .f32 := broadcastTo S400x128 v66 broadcasts_S1x128_S400x128
  have v81 : FVec Ideal S400x128 .f32 := addf v79 v80
  have cst_42 : Ideal .f32 := Scalar.ofBits .f32 0x00000000#32
  have v82 : FVec Ideal S400x128 .f32 := broadcast S400x128 cst_42
  have v83 : FVec Ideal S400x128 .f32 := maximumf v81 v82
  have v85 : FVec Ideal S128x10 .f32 := shapeCast S128x10 v84 shapeCasts_S128x10_S128x10
  have v86 : FVec Ideal S400x128 .bf16 := truncf .bf16 v83 bitsLt_bf16_f32
  have v87 : FVec Ideal S128x10 .bf16 := truncf .bf16 v85 bitsLt_bf16_f32
  have cst_45 : FVec Ideal S400x10 .f32 := constant S400x10 .f32 0x00000000#32
  have v88 : FVec Ideal S400x10 .f32 := matmul dot_S400x128_S128x10_S400x10_1_0_0_1_n_n none v86 v87 cst_45
  have v90 : FVec Ideal S1x10 .f32 := shapeCast S1x10 v89 shapeCasts_S1x10_S1x10
  have v91 : FVec Ideal S400x10 .f32 := broadcastTo S400x10 v90 broadcasts_S1x10_S400x10
  have v92 : FVec Ideal S400x10 .f32 := addf v88 v91
  v92

/-- The head's last payload is the log-softmax stage applied to the logits' tile. -/
theorem k1_pay10_eq (v62 : FVec Ideal S400x128 .f32) (v64 : FVec Ideal S1x128 .f32) (v66 : FVec Ideal S1x128 .f32) (v68 : FVec Ideal S1x128 .f32)
    (v69 : Vec Ideal S1x128 .f32) (v84 : Vec Ideal S128x10 .f32) (v89 : Vec Ideal S1x10 .f32) :
    k1_pay10 (F := Ideal) v62 v64 v66 v68 v69 v84 v89 = lsmV (logitsV v62 v64 v66 v68 v69 v84 v89) := rfl

/-- The logits of row p: normalisation and rectifier of the second layer's output, then the third linear layer. -/
theorem logitsV_apply (v62 : FVec Ideal S400x128 .f32) (v64 : FVec Ideal S1x128 .f32) (v66 : FVec Ideal S1x128 .f32) (v68 : FVec Ideal S1x128 .f32)
    (v69 : Vec Ideal S1x128 .f32) (v84 : Vec Ideal S128x10 .f32) (v89 : Vec Ideal S1x10 .f32) (p : Fin 400) (c : Fin 10) :
    logitsV v62 v64 v66 v68 v69 v84 v89 (ix2 p c)
      = Cert.Spec.lin (fun j : Fin 128 => Cert.Spec.relu (Cert.Spec.bn (v62 (ix2 p j)) (v68 (ix2 (0 : Fin 1) j)) (v69 (ix2 (0 : Fin 1) j))
            (v64 (ix2 (0 : Fin 1) j)) (v66 (ix2 (0 : Fin 1) j))))
          (fun c l => v84 (ix2 l c)) (fun c => v89 (ix2 (0 : Fin 1) c)) c := by
  unfold logitsV Cert.Spec.lin Cert.Spec.relu Cert.Spec.bn Cert.Spec.eps Cert.Spec.zero
  simp only [shapeCast_self, ValueIdx.addf_apply, mm_c3, ValueIdx.broadcastTo_1b_ab_apply, ValueIdx.truncf_apply, ValueIdx.maximumf_apply,
    ValueIdx.mulf_apply, ValueIdx.divf_apply, ValueIdx.subf_apply, sqrt_apply, ValueIdx.broadcast_apply]
  rfl

end Cls

/-! # The classifier head's tile is the specification's head on each of its rows -/

theorem clsTile_apply (i : grid1.Coords) (x1 : Vec Ideal S400x10000 .f32) (x2 : Vec Ideal S10000x128 .f32) (s : Vec Ideal S10000x64 .bf16) (x4 : Vec Ideal S1x64 .f32) (x5 : Vec Ideal S128x256 .f32) (x6 : Vec Ideal S64x256 .f32) (x7 x8 x9 x10 x11 : Vec Ideal S1x256 .f32) (x12 : Vec Ideal S256x128 .f32) (x13 x14 x15 x16 x17 : Vec Ideal S1x128 .f32) (x18 : Vec Ideal S128x10 .f32) (x19 : Vec Ideal S1x10 .f32) (p : Fin 400) (q : Fin 10) :
    clsTile (F := Ideal) i x1 x2 s x4 x5 x6 x7 x8 x9 x10 x11 x12 x13 x14 x15 x16 x17 x18 x19 (ix2 p q)
      = Cert.Spec.clsRow
          (fun c => Fin.append (fun l : Fin 128 => x5 (ix2 l c)) (fun l : Fin 64 => x6 (ix2 l c)))
          (fun c => x7 (ix2 (0 : Fin 1) c)) (fun c => x8 (ix2 (0 : Fin 1) c)) (fun c => x9 (ix2 (0 : Fin 1) c))
          (fun c => x10 (ix2 (0 : Fin 1) c)) (fun c => x11 (ix2 (0 : Fin 1) c))
          (fun j l => x12 (ix2 l j)) (fun j => x13 (ix2 (0 : Fin 1) j)) (fun j => x14 (ix2 (0 : Fin 1) j)) (fun j => x15 (ix2 (0 : Fin 1) j))
          (fun j => x16 (ix2 (0 : Fin 1) j)) (fun j => x17 (ix2 (0 : Fin 1) j))
          (fun c l => x18 (ix2 l c)) (fun c => x19 (ix2 (0 : Fin 1) c))
          (fun l : Fin 128 => rows1 (F := Ideal) i x2 (ix2 p l)) (fun l : Fin 64 => k1_pay4 (F := Ideal) x1 s x4 (ix2 p l)) q := by
  unfold clsTile Cert.Spec.clsRow
  rw [Cls.k1_pay10_eq, Cls.lsmV_apply]
  simp only [Cls.logitsV_apply, Cls.pay6_apply, Cls.pay5_apply, k1_pay7, k1_pay8, k1_pay9, shapeCast_self]

end Cert.KernelIdeal.Val
end
-- ==== Proof.KI.Rec.lean ====
import proofs.«178126_g73521250173546_cont_sun_c4_545_6_alg».proof.Proof.KI.Body1
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # The reconstruction head, stage by stage

At the ideal instance a float is an extended real and a narrowing of the format is the identity, so each product into a
zero accumulator is a plain sum over the inner axis, and the head is three linear layers with a rectifier after the
first two. The first layer's sum over the 192 joined inputs arrives as two products, one over the first-layer columns
and one over the second-layer columns, which is how the specification's joined layer is written. -/

/-! ### The product 400x128 times 128x256 read at an entry -/

theorem lhs_f1_0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem lhs_f1_1 (i : S400x256.Idx) (q : dot_S400x128_S128x256_S400x256_1_0_0_1_n_n.contr.Idx) :
    (dot_S400x128_S128x256_S400x256_1_0_0_1_n_n.lhsIdx i q 1).val = (q ⟨0, by decide⟩).val :=
  dot_S400x128_S128x256_S400x256_1_0_0_1_n_n.lhsIdx_val_of_single rfl i q
theorem rhs_f1_0 (i : S400x256.Idx) (q : dot_S400x128_S128x256_S400x256_1_0_0_1_n_n.contr.Idx) :
    (dot_S400x128_S128x256_S400x256_1_0_0_1_n_n.rhsIdx i q 0).val = (q ⟨0, by decide⟩).val :=
  dot_S400x128_S128x256_S400x256_1_0_0_1_n_n.rhsIdx_val_of_single rfl i q
theorem rhs_f1_1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- Into a zero accumulator the product's entry (p, c) is the sum over the 128 inner positions. -/
theorem mm_f1 {φ₁ φ₂ : FTy} (lhs : FVec Ideal S400x128 φ₁) (rhs : FVec Ideal S128x256 φ₂) (p : Fin 400) (c : Fin 256) :
    matmul dot_S400x128_S128x256_S400x256_1_0_0_1_n_n none lhs rhs (constant S400x256 .f32 0x00000000#32) (ix2 p c)
      = ∑ k : Fin 128, lhs (ix2 p k) * rhs (ix2 k c) := by
  show FloatOps.matmul dot_S400x128_S128x256_S400x256_1_0_0_1_n_n none lhs rhs (constant S400x256 .f32 0x00000000#32) (ix2 p c) = _
  rw [Ideal.matmul_constant_zero_apply, ← Equiv.sum_comp (ValueIdx.contrEquiv1 dot_S400x128_S128x256_S400x256_1_0_0_1_n_n 128 rfl rfl).symm]
  refine Finset.sum_congr rfl fun k _ => ?_
  have hk := ValueIdx.contrEquiv1_symm_val dot_S400x128_S128x256_S400x256_1_0_0_1_n_n 128 rfl rfl k
  have el : dot_S400x128_S128x256_S400x256_1_0_0_1_n_n.lhsIdx (ix2 p c) ((ValueIdx.contrEquiv1 dot_S400x128_S128x256_S400x256_1_0_0_1_n_n 128 rfl rfl).symm k) = ix2 p k := funext fun a => Fin.ext (by
    match a with
    | ⟨0, _⟩ => exact lhs_f1_0 _ _
    | ⟨1, _⟩ => exact (lhs_f1_1 _ _).trans hk)
  have er : dot_S400x128_S128x256_S400x256_1_0_0_1_n_n.rhsIdx (ix2 p c) ((ValueIdx.contrEquiv1 dot_S400x128_S128x256_S400x256_1_0_0_1_n_n 128 rfl rfl).symm k) = ix2 k c := funext fun a => Fin.ext (by
    match a with
    | ⟨0, _⟩ => exact (rhs_f1_0 _ _).trans hk
    | ⟨1, _⟩ => exact rhs_f1_1 _ _)
  rw [el, er]

/-! ### The product 400x64 times 64x256 read at an entry -/

theorem lhs_f2_0 (i : S400x256.Idx) (q : dot_S400x64_S64x256_S400x256_1_0_0_1_n_n.contr.Idx) :
    (dot_S400x64_S64x256_S400x256_1_0_0_1_n_n.lhsIdx i q 0).val = (i 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
theorem lhs_f2_1 (i : S400x256.Idx) (q : dot_S400x64_S64x256_S400x256_1_0_0_1_n_n.contr.Idx) :
    (dot_S400x64_S64x256_S400x256_1_0_0_1_n_n.lhsIdx i q 1).val = (q ⟨0, by decide⟩).val :=
  dot_S400x64_S64x256_S400x256_1_0_0_1_n_n.lhsIdx_val_of_single rfl i q
theorem rhs_f2_0 (i : S400x256.Idx) (q : dot_S400x64_S64x256_S400x256_1_0_0_1_n_n.contr.Idx) :
    (dot_S400x64_S64x256_S400x256_1_0_0_1_n_n.rhsIdx i q 0).val = (q ⟨0, by decide⟩).val :=
  dot_S400x64_S64x256_S400x256_1_0_0_1_n_n.rhsIdx_val_of_single rfl i q
theorem rhs_f2_1 (i : S400x256.Idx) (q : dot_S400x64_S64x256_S400x256_1_0_0_1_n_n.contr.Idx) :
    (dot_S400x64_S64x256_S400x256_1_0_0_1_n_n.rhsIdx i q 1).val = (i 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl

/-- Into a zero accumulator the product's entry (p, c) is the sum over the 64 inner positions. -/
theorem mm_f2 {φ₁ φ₂ : FTy} (lhs : FVec Ideal S400x64 φ₁) (rhs : FVec Ideal S64x256 φ₂) (p : Fin 400) (c : Fin 256) :
    matmul dot_S400x64_S64x256_S400x256_1_0_0_1_n_n none lhs rhs (constant S400x256 .f32 0x00000000#32) (ix2 p c)
      = ∑ k : Fin 64, lhs (ix2 p k) * rhs (ix2 k c) := by
  show FloatOps.matmul dot_S400x64_S64x256_S400x256_1_0_0_1_n_n none lhs rhs (constant S400x256 .f32 0x00000000#32) (ix2 p c) = _
  rw [Ideal.matmul_constant_zero_apply, ← Equiv.sum_comp (ValueIdx.contrEquiv1 dot_S400x64_S64x256_S400x256_1_0_0_1_n_n 64 rfl rfl).symm]
  refine Finset.sum_congr rfl fun k _ => ?_
  have hk := ValueIdx.contrEquiv1_symm_val dot_S400x64_S64x256_S400x256_1_0_0_1_n_n 64 rfl rfl k
  have el : dot_S400x64_S64x256_S400x256_1_0_0_1_n_n.lhsIdx (ix2 p c) ((ValueIdx.contrEquiv1 dot_S400x64_S64x256_S400x256_1_0_0_1_n_n 64 rfl rfl).symm k) = ix2 p k := funext fun a => Fin.ext (by
    match a with
    | ⟨0, _⟩ => exact lhs_f2_0 _ _
    | ⟨1, _⟩ => exact (lhs_f2_1 _ _).trans hk)
  have er : dot_S400x64_S64x256_S400x256_1_0_0_1_n_n.rhsIdx (ix2 p c) ((ValueIdx.contrEquiv1 dot_S400x64_S64x256_S400x256_1_0_0_1_n_n 64 rfl rfl).symm k) = ix2 k c := funext fun a => Fin.ext (by
    match a with
    | ⟨0, _⟩ => exact (rhs_f2_0 _ _).trans hk
    | ⟨1, _⟩ => exact rhs_f2_1 _ _)
  rw [el, er]

/-! ### The product 400x256 times 256x128 read at an entry -/

theorem lhs_g_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem lhs_g_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
theorem rhs_g_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
theorem rhs_g_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- Into a zero accumulator the product's entry (p, c) is the sum over the 256 inner positions. -/
theorem mm_g {φ₁ φ₂ : FTy} (lhs : FVec Ideal S400x256 φ₁) (rhs : FVec Ideal S256x128 φ₂) (p : Fin 400) (c : Fin 128) :
    matmul dot_S400x256_S256x128_S400x128_1_0_0_1_n_n none lhs rhs (constant S400x128 .f32 0x00000000#32) (ix2 p c)
      = ∑ k : Fin 256, lhs (ix2 p k) * rhs (ix2 k c) := by
  show FloatOps.matmul dot_S400x256_S256x128_S400x128_1_0_0_1_n_n none lhs rhs (constant S400x128 .f32 0x00000000#32) (ix2 p c) = _
  rw [Ideal.matmul_constant_zero_apply, ← Equiv.sum_comp (ValueIdx.contrEquiv1 dot_S400x256_S256x128_S400x128_1_0_0_1_n_n 256 rfl rfl).symm]
  refine Finset.sum_congr rfl fun k _ => ?_
  have hk := ValueIdx.contrEquiv1_symm_val dot_S400x256_S256x128_S400x128_1_0_0_1_n_n 256 rfl rfl k
  have el : dot_S400x256_S256x128_S400x128_1_0_0_1_n_n.lhsIdx (ix2 p c) ((ValueIdx.contrEquiv1 dot_S400x256_S256x128_S400x128_1_0_0_1_n_n 256 rfl rfl).symm k) = ix2 p k := funext fun a => Fin.ext (by
    match a with
    | ⟨0, _⟩ => exact lhs_g_0 _ _
    | ⟨1, _⟩ => exact (lhs_g_1 _ _).trans hk)
  have er : dot_S400x256_S256x128_S400x128_1_0_0_1_n_n.rhsIdx (ix2 p c) ((ValueIdx.contrEquiv1 dot_S400x256_S256x128_S400x128_1_0_0_1_n_n 256 rfl rfl).symm k) = ix2 k c := funext fun a => Fin.ext (by
    match a with
    | ⟨0, _⟩ => exact (rhs_g_0 _ _).trans hk
    | ⟨1, _⟩ => exact rhs_g_1 _ _)
  rw [el, er]

/-! ### The product 400x128 times 128x128 read at an entry -/

theorem lhs_h_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_h_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_h_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_h_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into a zero accumulator the product's entry (p, c) is the sum over the 128 inner positions. -/
theorem mm_h {φ₁ φ₂ : FTy} (lhs : FVec Ideal S400x128 φ₁) (rhs : FVec Ideal S128x128 φ₂) (p : Fin 400) (c : Fin 128) :
    matmul dot_S400x128_S128x128_S400x128_1_0_0_1_n_n none lhs rhs (constant S400x128 .f32 0x00000000#32) (ix2 p c)
      = ∑ k : Fin 128, lhs (ix2 p k) * rhs (ix2 k c) := by
  show FloatOps.matmul dot_S400x128_S128x128_S400x128_1_0_0_1_n_n none lhs rhs (constant S400x128 .f32 0x00000000#32) (ix2 p c) = _
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p c) ((ValueIdx.contrEquiv1 dot_S400x128_S128x128_S400x128_1_0_0_1_n_n 128 rfl rfl).symm k) = ix2 p k := funext fun a => Fin.ext (by
    match a with
    | ⟨0, _⟩ => exact lhs_h_0 _ _
    | ⟨1, _⟩ => exact (lhs_h_1 _ _).trans hk)
  have er : dot_S400x128_S128x128_S400x128_1_0_0_1_n_n.rhsIdx (ix2 p c) ((ValueIdx.contrEquiv1 dot_S400x128_S128x128_S400x128_1_0_0_1_n_n 128 rfl rfl).symm k) = ix2 k c := funext fun a => Fin.ext (by
    match a with
    | ⟨0, _⟩ => exact (rhs_h_0 _ _).trans hk
    | ⟨1, _⟩ => exact rhs_h_1 _ _)
  rw [el, er]

/-! ### The head's three layers, each as a function of the tile it reads -/

/-- The first layer after its rectifier: the two partial products, the bias, the maximum with the zero word. -/
def layer1 (v15 : FVec Ideal S400x64 .f32) (v110 : FVec Ideal S400x256 .f32) (v112 : FVec Ideal S64x256 .f32) (v117 : Vec Ideal S1x256 .f32) : FVec Ideal S400x256 .f32 :=
  maximumf
    (addf
      (addf v110 (matmul dot_S400x64_S64x256_S400x256_1_0_0_1_n_n none (truncf .bf16 v15 bitsLt_bf16_f32) (truncf .bf16 v112 bitsLt_bf16_f32) (constant S400x256 .f32 0x00000000#32)))
      (broadcastTo S400x256 (shapeCast S1x256 v117 shapeCasts_S1x256_S1x256) broadcasts_S1x256_S400x256))
    (broadcast S400x256 (Scalar.ofBits .f32 0x00000000#32 : Ideal .f32))

/-- The second layer after its rectifier. -/
def layer2 (h : FVec Ideal S400x256 .f32) (v123 : Vec Ideal S256x128 .f32) (v128 : Vec Ideal S1x128 .f32) : FVec Ideal S400x128 .f32 :=
  maximumf
    (addf
      (matmul dot_S400x256_S256x128_S400x128_1_0_0_1_n_n none (truncf .bf16 h bitsLt_bf16_f32) (truncf .bf16 (shapeCast S256x128 v123 shapeCasts_S256x128_S256x128 : FVec Ideal S256x128 .f32) bitsLt_bf16_f32) (constant S400x128 .f32 0x00000000#32))
      (broadcastTo S400x128 (shapeCast S1x128 v128 shapeCasts_S1x128_S1x128) broadcasts_S1x128_S400x128))
    (broadcast S400x128 (Scalar.ofBits .f32 0x00000000#32 : Ideal .f32))

/-- The third layer: a product and a bias, no rectifier. -/
def layer3 (h : FVec Ideal S400x128 .f32) (v134 : Vec Ideal S128x128 .f32) (v139 : Vec Ideal S1x128 .f32) : FVec Ideal S400x128 .f32 :=
  addf
    (matmul dot_S400x128_S128x128_S400x128_1_0_0_1_n_n none (truncf .bf16 h bitsLt_bf16_f32) (truncf .bf16 (shapeCast S128x128 v134 shapeCasts_S128x128_S128x128 : FVec Ideal S128x128 .f32) bitsLt_bf16_f32) (constant S400x128 .f32 0x00000000#32))
    (broadcastTo S400x128 (shapeCast S1x128 v139 shapeCasts_S1x128_S1x128) broadcasts_S1x128_S400x128)

/-- The stored tile is the three layers one after another. -/
theorem k1_pay1_eq (v15 : FVec Ideal S400x64 .f32) (v110 : FVec Ideal S400x256 .f32) (v112 : FVec Ideal S64x256 .f32) (v117 : Vec Ideal S1x256 .f32) (v123 : Vec Ideal S256x128 .f32) (v128 : Vec Ideal S1x128 .f32) (v134 : Vec Ideal S128x128 .f32) (v139 : Vec Ideal S1x128 .f32) :
    k1_pay1 v15 v110 v112 v117 v123 v128 v134 v139 = layer3 (layer2 (layer1 v15 v110 v112 v117) v123 v128) v134 v139 := rfl

/-- The first-layer rows pass through a cast to their own shape. -/
theorem k1_pay3_eq (v : Vec Ideal S400x128 .f32) : k1_pay3 (F := Ideal) v = v :=
  shapeCast_self v shapeCasts_S400x128_S400x128

/-- The last 64 input rows of the first weight pass through a cast to their own shape. -/
theorem k1_pay12_eq (v : Vec Ideal S64x256 .f32) : k1_pay12 (F := Ideal) v = v :=
  shapeCast_self v shapeCasts_S64x256_S64x256

/-- The product of the first-layer rows with the first 128 input rows of the first weight. -/
theorem k1_pay11_apply (a : FVec Ideal S400x128 .f32) (x20 : Vec Ideal S128x256 .f32) (p : Fin 400) (c : Fin 256) :
    k1_pay11 a x20 (ix2 p c) = ∑ l : Fin 128, a (ix2 p l) * x20 (ix2 l c) := by
  unfold k1_pay11
  simp only [shapeCast_self]
  rw [mm_f1]
  rfl

/-- The first layer on row p: the specification's joined linear layer, then the rectifier. -/
theorem layer1_apply (a : FVec Ideal S400x128 .f32) (a' : FVec Ideal S400x64 .f32) (x20 : Vec Ideal S128x256 .f32) (x21 : Vec Ideal S64x256 .f32) (x22 : Vec Ideal S1x256 .f32) (p : Fin 400) (c : Fin 256) :
    layer1 a' (k1_pay11 a x20) (k1_pay12 x21) x22 (ix2 p c)
      = Cert.Spec.relu (Cert.Spec.lin2 (fun l : Fin 128 => a (ix2 p l)) (fun l : Fin 64 => a' (ix2 p l))
          (fun c => Fin.append (fun l : Fin 128 => x20 (ix2 l c)) (fun l : Fin 64 => x21 (ix2 l c)))
          (fun c => x22 (ix2 (0 : Fin 1) c)) c) := by
  unfold layer1
  rw [ValueIdx.maximumf_apply, ValueIdx.addf_apply, ValueIdx.addf_apply, ValueIdx.broadcast_apply, k1_pay11_apply, mm_f2,
    shapeCast_self, ValueIdx.broadcastTo_1b_ab_apply, k1_pay12_eq]
  unfold Cert.Spec.relu Cert.Spec.lin2
  simp only [Fin.append_left, Fin.append_right]
  rfl

/-- The second layer on row p. -/
theorem layer2_apply (h : FVec Ideal S400x256 .f32) (x23 : Vec Ideal S256x128 .f32) (x24 : Vec Ideal S1x128 .f32) (p : Fin 400) (j : Fin 128) :
    layer2 h x23 x24 (ix2 p j)
      = Cert.Spec.relu (Cert.Spec.lin (fun i : Fin 256 => h (ix2 p i)) (fun j l => x23 (ix2 l j)) (fun j => x24 (ix2 (0 : Fin 1) j)) j) := by
  unfold layer2
  rw [ValueIdx.maximumf_apply, ValueIdx.addf_apply, ValueIdx.broadcast_apply, mm_g, shapeCast_self, shapeCast_self, ValueIdx.broadcastTo_1b_ab_apply]
  rfl

/-- The third layer on row p. -/
theorem layer3_apply (h : FVec Ideal S400x128 .f32) (x25 : Vec Ideal S128x128 .f32) (x26 : Vec Ideal S1x128 .f32) (p : Fin 400) (q : Fin 128) :
    layer3 h x25 x26 (ix2 p q)
      = Cert.Spec.lin (fun j : Fin 128 => h (ix2 p j)) (fun c l => x25 (ix2 l c)) (fun c => x26 (ix2 (0 : Fin 1) c)) q := by
  unfold layer3
  rw [ValueIdx.addf_apply, mm_h, shapeCast_self, shapeCast_self, ValueIdx.broadcastTo_1b_ab_apply]
  rfl

/-! # The reconstruction head's tile is the specification's head on each of its rows -/

theorem recTile_apply (i : grid1.Coords) (x1 : Vec Ideal S400x10000 .f32) (x2 : Vec Ideal S10000x128 .f32) (s : Vec Ideal S10000x64 .bf16) (x4 : Vec Ideal S1x64 .f32) (x20 : Vec Ideal S128x256 .f32) (x21 : Vec Ideal S64x256 .f32) (x22 : Vec Ideal S1x256 .f32) (x23 : Vec Ideal S256x128 .f32) (x24 : Vec Ideal S1x128 .f32) (x25 : Vec Ideal S128x128 .f32) (x26 : Vec Ideal S1x128 .f32) (p : Fin 400) (q : Fin 128) :
    recTile (F := Ideal) i x1 x2 s x4 x20 x21 x22 x23 x24 x25 x26 (ix2 p q)
      = Cert.Spec.recRow
          (fun c => Fin.append (fun l : Fin 128 => x20 (ix2 l c)) (fun l : Fin 64 => x21 (ix2 l c)))
          (fun c => x22 (ix2 (0 : Fin 1) c))
          (fun j l => x23 (ix2 l j)) (fun j => x24 (ix2 (0 : Fin 1) j))
          (fun c l => x25 (ix2 l c)) (fun c => x26 (ix2 (0 : Fin 1) c))
          (fun l : Fin 128 => rows1 (F := Ideal) i x2 (ix2 p l)) (fun l : Fin 64 => k1_pay4 (F := Ideal) x1 s x4 (ix2 p l)) q := by
  unfold recTile Cert.Spec.recRow
  rw [k1_pay1_eq, layer3_apply]
  simp only [layer2_apply, layer1_apply, k1_pay3_eq]

end Cert.KernelIdeal.Val
end
-- ==== Proof.KI.Blocks1.lean ====
import proofs.«178126_g73521250173546_cont_sun_c4_545_6_alg».proof.Proof.KI.Region1
import proofs.«178126_g73521250173546_cont_sun_c4_545_6_alg».proof.Proof.KI.Cover
import proofs.«178126_g73521250173546_cont_sun_c4_545_6_alg».proof.Proof.KI.Pay
import proofs.«178126_g73521250173546_cont_sun_c4_545_6_alg».proof.Proof.KI.Cls
import proofs.«178126_g73521250173546_cont_sun_c4_545_6_alg».proof.Proof.KI.Rec
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # From the row tiles to the whole arrays

Each call writes its output arrays block by block, one block of 400 rows per grid point; row r of an output array is
row r mod 400 of the block the point r / 400 wrote, and that block depends on the point's 400 rows of the adjacency
(and of the first layer's output), on the support kept in scratch and on the whole weight operands. -/

variable (V : (c : Dev nD) → (b : Ref sig .tc) → Buf (Elt Ideal) ((c : Thread nD τ).loc b))

/-! ## Where a block sits in its array

The adjacency's block at point t is rows 400 t .. 400 t + 399, all columns; every other operand's block is the whole
array at every point. Decided once over the grid's 25 points. -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
/-- The first row the point's load of the first layer's output starts at. -/
theorem off1_1 : ∀ t : Fin cfg1.N, (k1_off1 (grid1.coords t)) (0 : Fin 2) = 400 * t.val ∧ (k1_off1 (grid1.coords t)) (1 : Fin 2) = 0 :=
  (by decide +kernel : ∀ t : Fin grid1.N, _)

/-- The adjacency block at point t, read at (p, k), is the adjacency at row 400 t + p. -/
theorem blk1_0 (c : Dev nD) (t : Fin cfg1.N) (p : Fin 400) (k : Fin 10000) (r : Fin 10000) (hr : r.val = 400 * t.val + p.val) :
    (iblk1 V c 0 t : Vec Ideal S400x10000 .f32) (ix2 p k) = V c main_arg1 (ix2 r k) := by
  obtain ⟨e0, e1⟩ := idx1_0 t
  show V c main_arg1 (((cfg1.win 0).blk t).view.emb (ix2 p k)) = _
  refine congrArg (V c main_arg1) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- The first layer's output, staged whole: its block at any point read at an index is the array there. -/
theorem blk1_1 (c : Dev nD) (t : Fin cfg1.N) (a : Fin 10000) (b : Fin 128) :
    (iblk1 V c 1 t : Vec Ideal S10000x128 .f32) (ix2 a b) = V c main_v7 (ix2 a b) := by
  obtain ⟨e0, e1⟩ := idx1_1 t
  show V c main_v7 (((cfg1.win 1).blk t).view.emb (ix2 a b)) = _
  refine congrArg (V c main_v7) (funext fun x => Fin.ext ?_)
  match x with
  | ⟨0, _⟩ => show win1_1.index t (0 : Fin 2) * 10000 + 1 * a.val = a.val; omega
  | ⟨1, _⟩ => show win1_1.index t (1 : Fin 2) * 128 + 1 * b.val = b.val; omega

/-- The second weight, staged whole. -/
theorem blk1_2 (c : Dev nD) (t : Fin cfg1.N) (a : Fin 128) (b : Fin 64) :
    (iblk1 V c 2 t : Vec Ideal S128x64 .f32) (ix2 a b) = V c main_arg4 (ix2 a b) := by
  obtain ⟨e0, e1⟩ := idx1_2 t
  show V c main_arg4 (((cfg1.win 2).blk t).view.emb (ix2 a b)) = _
  refine congrArg (V c main_arg4) (funext fun x => Fin.ext ?_)
  match x with
  | ⟨0, _⟩ => show win1_2.index t (0 : Fin 2) * 128 + 1 * a.val = a.val; omega
  | ⟨1, _⟩ => show win1_2.index t (1 : Fin 2) * 64 + 1 * b.val = b.val; omega

/-- The second bias row, staged whole. -/
theorem blk1_3 (c : Dev nD) (t : Fin cfg1.N) (a : Fin 1) (b : Fin 64) :
    (iblk1 V c 3 t : Vec Ideal S1x64 .f32) (ix2 a b) = V c main_v8 (ix2 a b) := by
  obtain ⟨e0, e1⟩ := idx1_3 t
  show V c main_v8 (((cfg1.win 3).blk t).view.emb (ix2 a b)) = _
  refine congrArg (V c main_v8) (funext fun x => Fin.ext ?_)
  match x with
  | ⟨0, _⟩ => show win1_3.index t (0 : Fin 2) * 1 + 1 * a.val = a.val; omega
  | ⟨1, _⟩ => show win1_3.index t (1 : Fin 2) * 64 + 1 * b.val = b.val; omega

/-! ## The point's rows, the support and the second layer, over the arrays the call reads -/

/-- The point's 400 rows of the first layer's output: row p of them is row 400 t + p of the array. -/
theorem rows1_blk (c : Dev nD) (t : Fin cfg1.N) (p : Fin 400) (l : Fin 128) (r : Fin 10000) (hr : r.val = 400 * t.val + p.val) :
    rows1 (F := Ideal) (grid1.coords t) (iblk1 V c 1 t) (ix2 p l) = V c main_v7 (ix2 r l) := by
  obtain ⟨o0, o1⟩ := off1_1 t
  have e : (Rect.unit (s := S10000x128) (k1_off1 (grid1.coords t)) S400x128.size (k1_off1_inb (grid1.coords t))).idx (ix2 p l) = ix2 r l :=
    funext fun a => Fin.ext (by
      match a with
      | ⟨0, _⟩ => show (k1_off1 (grid1.coords t)) (0 : Fin 2) + 1 * p.val = r.val; omega
      | ⟨1, _⟩ => show (k1_off1 (grid1.coords t)) (1 : Fin 2) + 1 * l.val = l.val; omega)
  show (iblk1 V c 1 t : Vec Ideal S10000x128 .f32) ((Rect.unit (s := S10000x128) (k1_off1 (grid1.coords t)) S400x128.size (k1_off1_inb (grid1.coords t))).idx (ix2 p l)) = _
  rw [e, blk1_1]

/-- The support kept in scratch: the first layer's output times the second weight. -/
theorem sc1_apply (c : Dev nD) (k : Fin 10000) (q : Fin 64) :
    sc1 V c (ix2 k q) = Cert.Spec.mm (fun a b => V c main_v7 (ix2 a b)) (fun a b => V c main_arg4 (ix2 a b)) k q := by
  unfold sc1
  rw [support1_apply]
  simp only [blk1_1, blk1_2]

/-- The point's row tile of the second layer: row p of it is row 400 t + p of the specification's second layer. -/
theorem second1_blk (c : Dev nD) (t : Fin cfg1.N) (p : Fin 400) (l : Fin 64) (r : Fin 10000) (hr : r.val = 400 * t.val + p.val) :
    k1_pay4 (F := Ideal) (iblk1 V c 0 t) (sc1 V c) (iblk1 V c 3 t) (ix2 p l)
      = Cert.Spec.gconv (fun a b => V c main_arg1 (ix2 a b)) (fun a b => V c main_v7 (ix2 a b)) (fun a b => V c main_arg4 (ix2 a b)) (fun b => V c main_v8 (ix2 (0 : Fin 1) b)) r l := by
  rw [second1_apply, blk1_3]
  simp only [blk1_0 V c t p _ r hr, sc1_apply]
  rfl

/-- A row is its block's first row plus its place in the block. -/
theorem row_split (r : Fin 10000) : r.val = 400 * (pt1 r).val + (inOf r).val := by
  show r.val = 400 * (r.val / 400) + r.val % 400
  omega

/-! ## The heads' operands, each staged whole: its block at any point read at an index is the array there -/

theorem blk1_4 (c : Dev nD) (t : Fin cfg1.N) (a : Fin 128) (b : Fin 256) :
    (iblk1 V c 4 t : Vec Ideal S128x256 .f32) (ix2 a b) = V c main_v9 (ix2 a b) := by
  obtain ⟨e0, e1⟩ := (by decide +kernel : ∀ t : Fin grid1.N, win1_4.index t (0 : Fin 2) = 0 ∧ win1_4.index t (1 : Fin 2) = 0) t
  show V c main_v9 (((cfg1.win 4).blk t).view.emb (ix2 a b)) = _
  refine congrArg (V c main_v9) (funext fun x => Fin.ext ?_)
  match x with
  | ⟨0, _⟩ => show win1_4.index t (0 : Fin 2) * 128 + 1 * a.val = a.val; omega
  | ⟨1, _⟩ => show win1_4.index t (1 : Fin 2) * 256 + 1 * b.val = b.val; omega
theorem blk1_5 (c : Dev nD) (t : Fin cfg1.N) (a : Fin 64) (b : Fin 256) :
    (iblk1 V c 5 t : Vec Ideal S64x256 .f32) (ix2 a b) = V c main_v10 (ix2 a b) := by
  obtain ⟨e0, e1⟩ := (by decide +kernel : ∀ t : Fin grid1.N, win1_5.index t (0 : Fin 2) = 0 ∧ win1_5.index t (1 : Fin 2) = 0) t
  show V c main_v10 (((cfg1.win 5).blk t).view.emb (ix2 a b)) = _
  refine congrArg (V c main_v10) (funext fun x => Fin.ext ?_)
  match x with
  | ⟨0, _⟩ => show win1_5.index t (0 : Fin 2) * 64 + 1 * a.val = a.val; omega
  | ⟨1, _⟩ => show win1_5.index t (1 : Fin 2) * 256 + 1 * b.val = b.val; omega
theorem blk1_6 (c : Dev nD) (t : Fin cfg1.N) (a : Fin 1) (b : Fin 256) :
    (iblk1 V c 6 t : Vec Ideal S1x256 .f32) (ix2 a b) = V c main_v11 (ix2 a b) := by
  obtain ⟨e0, e1⟩ := (by decide +kernel : ∀ t : Fin grid1.N, win1_6.index t (0 : Fin 2) = 0 ∧ win1_6.index t (1 : Fin 2) = 0) t
  show V c main_v11 (((cfg1.win 6).blk t).view.emb (ix2 a b)) = _
  refine congrArg (V c main_v11) (funext fun x => Fin.ext ?_)
  match x with
  | ⟨0, _⟩ => show win1_6.index t (0 : Fin 2) * 1 + 1 * a.val = a.val; omega
  | ⟨1, _⟩ => show win1_6.index t (1 : Fin 2) * 256 + 1 * b.val = b.val; omega
theorem blk1_7 (c : Dev nD) (t : Fin cfg1.N) (a : Fin 1) (b : Fin 256) :
    (iblk1 V c 7 t : Vec Ideal S1x256 .f32) (ix2 a b) = V c main_v12 (ix2 a b) := by
  obtain ⟨e0, e1⟩ := (by decide +kernel : ∀ t : Fin grid1.N, win1_7.index t (0 : Fin 2) = 0 ∧ win1_7.index t (1 : Fin 2) = 0) t
  show V c main_v12 (((cfg1.win 7).blk t).view.emb (ix2 a b)) = _
  refine congrArg (V c main_v12) (funext fun x => Fin.ext ?_)
  match x with
  | ⟨0, _⟩ => show win1_7.index t (0 : Fin 2) * 1 + 1 * a.val = a.val; omega
  | ⟨1, _⟩ => show win1_7.index t (1 : Fin 2) * 256 + 1 * b.val = b.val; omega
theorem blk1_8 (c : Dev nD) (t : Fin cfg1.N) (a : Fin 1) (b : Fin 256) :
    (iblk1 V c 8 t : Vec Ideal S1x256 .f32) (ix2 a b) = V c main_v13 (ix2 a b) := by
  obtain ⟨e0, e1⟩ := (by decide +kernel : ∀ t : Fin grid1.N, win1_8.index t (0 : Fin 2) = 0 ∧ win1_8.index t (1 : Fin 2) = 0) t
  show V c main_v13 (((cfg1.win 8).blk t).view.emb (ix2 a b)) = _
  refine congrArg (V c main_v13) (funext fun x => Fin.ext ?_)
  match x with
  | ⟨0, _⟩ => show win1_8.index t (0 : Fin 2) * 1 + 1 * a.val = a.val; omega
  | ⟨1, _⟩ => show win1_8.index t (1 : Fin 2) * 256 + 1 * b.val = b.val; omega
theorem blk1_9 (c : Dev nD) (t : Fin cfg1.N) (a : Fin 1) (b : Fin 256) :
    (iblk1 V c 9 t : Vec Ideal S1x256 .f32) (ix2 a b) = V c main_v14 (ix2 a b) := by
  obtain ⟨e0, e1⟩ := (by decide +kernel : ∀ t : Fin grid1.N, win1_9.index t (0 : Fin 2) = 0 ∧ win1_9.index t (1 : Fin 2) = 0) t
  show V c main_v14 (((cfg1.win 9).blk t).view.emb (ix2 a b)) = _
  refine congrArg (V c main_v14) (funext fun x => Fin.ext ?_)
  match x with
  | ⟨0, _⟩ => show win1_9.index t (0 : Fin 2) * 1 + 1 * a.val = a.val; omega
  | ⟨1, _⟩ => show win1_9.index t (1 : Fin 2) * 256 + 1 * b.val = b.val; omega
theorem blk1_10 (c : Dev nD) (t : Fin cfg1.N) (a : Fin 1) (b : Fin 256) :
    (iblk1 V c 10 t : Vec Ideal S1x256 .f32) (ix2 a b) = V c main_v15 (ix2 a b) := by
  obtain ⟨e0, e1⟩ := (by decide +kernel : ∀ t : Fin grid1.N, win1_10.index t (0 : Fin 2) = 0 ∧ win1_10.index t (1 : Fin 2) = 0) t
  show V c main_v15 (((cfg1.win 10).blk t).view.emb (ix2 a b)) = _
  refine congrArg (V c main_v15) (funext fun x => Fin.ext ?_)
  match x with
  | ⟨0, _⟩ => show win1_10.index t (0 : Fin 2) * 1 + 1 * a.val = a.val; omega
  | ⟨1, _⟩ => show win1_10.index t (1 : Fin 2) * 256 + 1 * b.val = b.val; omega
theorem blk1_11 (c : Dev nD) (t : Fin cfg1.N) (a : Fin 256) (b : Fin 128) :
    (iblk1 V c 11 t : Vec Ideal S256x128 .f32) (ix2 a b) = V c main_v1 (ix2 a b) := by
  obtain ⟨e0, e1⟩ := (by decide +kernel : ∀ t : Fin grid1.N, win1_11.index t (0 : Fin 2) = 0 ∧ win1_11.index t (1 : Fin 2) = 0) t
  show V c main_v1 (((cfg1.win 11).blk t).view.emb (ix2 a b)) = _
  refine congrArg (V c main_v1) (funext fun x => Fin.ext ?_)
  match x with
  | ⟨0, _⟩ => show win1_11.index t (0 : Fin 2) * 256 + 1 * a.val = a.val; omega
  | ⟨1, _⟩ => show win1_11.index t (1 : Fin 2) * 128 + 1 * b.val = b.val; omega
theorem blk1_12 (c : Dev nD) (t : Fin cfg1.N) (a : Fin 1) (b : Fin 128) :
    (iblk1 V c 12 t : Vec Ideal S1x128 .f32) (ix2 a b) = V c main_v16 (ix2 a b) := by
  obtain ⟨e0, e1⟩ := (by decide +kernel : ∀ t : Fin grid1.N, win1_12.index t (0 : Fin 2) = 0 ∧ win1_12.index t (1 : Fin 2) = 0) t
  show V c main_v16 (((cfg1.win 12).blk t).view.emb (ix2 a b)) = _
  refine congrArg (V c main_v16) (funext fun x => Fin.ext ?_)
  match x with
  | ⟨0, _⟩ => show win1_12.index t (0 : Fin 2) * 1 + 1 * a.val = a.val; omega
  | ⟨1, _⟩ => show win1_12.index t (1 : Fin 2) * 128 + 1 * b.val = b.val; omega
theorem blk1_13 (c : Dev nD) (t : Fin cfg1.N) (a : Fin 1) (b : Fin 128) :
    (iblk1 V c 13 t : Vec Ideal S1x128 .f32) (ix2 a b) = V c main_v17 (ix2 a b) := by
  obtain ⟨e0, e1⟩ := (by decide +kernel : ∀ t : Fin grid1.N, win1_13.index t (0 : Fin 2) = 0 ∧ win1_13.index t (1 : Fin 2) = 0) t
  show V c main_v17 (((cfg1.win 13).blk t).view.emb (ix2 a b)) = _
  refine congrArg (V c main_v17) (funext fun x => Fin.ext ?_)
  match x with
  | ⟨0, _⟩ => show win1_13.index t (0 : Fin 2) * 1 + 1 * a.val = a.val; omega
  | ⟨1, _⟩ => show win1_13.index t (1 : Fin 2) * 128 + 1 * b.val = b.val; omega
theorem blk1_14 (c : Dev nD) (t : Fin cfg1.N) (a : Fin 1) (b : Fin 128) :
    (iblk1 V c 14 t : Vec Ideal S1x128 .f32) (ix2 a b) = V c main_v18 (ix2 a b) := by
  obtain ⟨e0, e1⟩ := (by decide +kernel : ∀ t : Fin grid1.N, win1_14.index t (0 : Fin 2) = 0 ∧ win1_14.index t (1 : Fin 2) = 0) t
  show V c main_v18 (((cfg1.win 14).blk t).view.emb (ix2 a b)) = _
  refine congrArg (V c main_v18) (funext fun x => Fin.ext ?_)
  match x with
  | ⟨0, _⟩ => show win1_14.index t (0 : Fin 2) * 1 + 1 * a.val = a.val; omega
  | ⟨1, _⟩ => show win1_14.index t (1 : Fin 2) * 128 + 1 * b.val = b.val; omega
theorem blk1_15 (c : Dev nD) (t : Fin cfg1.N) (a : Fin 1) (b : Fin 128) :
    (iblk1 V c 15 t : Vec Ideal S1x128 .f32) (ix2 a b) = V c main_v19 (ix2 a b) := by
  obtain ⟨e0, e1⟩ := (by decide +kernel : ∀ t : Fin grid1.N, win1_15.index t (0 : Fin 2) = 0 ∧ win1_15.index t (1 : Fin 2) = 0) t
  show V c main_v19 (((cfg1.win 15).blk t).view.emb (ix2 a b)) = _
  refine congrArg (V c main_v19) (funext fun x => Fin.ext ?_)
  match x with
  | ⟨0, _⟩ => show win1_15.index t (0 : Fin 2) * 1 + 1 * a.val = a.val; omega
  | ⟨1, _⟩ => show win1_15.index t (1 : Fin 2) * 128 + 1 * b.val = b.val; omega
theorem blk1_16 (c : Dev nD) (t : Fin cfg1.N) (a : Fin 1) (b : Fin 128) :
    (iblk1 V c 16 t : Vec Ideal S1x128 .f32) (ix2 a b) = V c main_v20 (ix2 a b) := by
  obtain ⟨e0, e1⟩ := (by decide +kernel : ∀ t : Fin grid1.N, win1_16.index t (0 : Fin 2) = 0 ∧ win1_16.index t (1 : Fin 2) = 0) t
  show V c main_v20 (((cfg1.win 16).blk t).view.emb (ix2 a b)) = _
  refine congrArg (V c main_v20) (funext fun x => Fin.ext ?_)
  match x with
  | ⟨0, _⟩ => show win1_16.index t (0 : Fin 2) * 1 + 1 * a.val = a.val; omega
  | ⟨1, _⟩ => show win1_16.index t (1 : Fin 2) * 128 + 1 * b.val = b.val; omega
theorem blk1_17 (c : Dev nD) (t : Fin cfg1.N) (a : Fin 128) (b : Fin 10) :
    (iblk1 V c 17 t : Vec Ideal S128x10 .f32) (ix2 a b) = V c main_v2 (ix2 a b) := by
  obtain ⟨e0, e1⟩ := (by decide +kernel : ∀ t : Fin grid1.N, win1_17.index t (0 : Fin 2) = 0 ∧ win1_17.index t (1 : Fin 2) = 0) t
  show V c main_v2 (((cfg1.win 17).blk t).view.emb (ix2 a b)) = _
  refine congrArg (V c main_v2) (funext fun x => Fin.ext ?_)
  match x with
  | ⟨0, _⟩ => show win1_17.index t (0 : Fin 2) * 128 + 1 * a.val = a.val; omega
  | ⟨1, _⟩ => show win1_17.index t (1 : Fin 2) * 10 + 1 * b.val = b.val; omega
theorem blk1_18 (c : Dev nD) (t : Fin cfg1.N) (a : Fin 1) (b : Fin 10) :
    (iblk1 V c 18 t : Vec Ideal S1x10 .f32) (ix2 a b) = V c main_v21 (ix2 a b) := by
  obtain ⟨e0, e1⟩ := (by decide +kernel : ∀ t : Fin grid1.N, win1_18.index t (0 : Fin 2) = 0 ∧ win1_18.index t (1 : Fin 2) = 0) t
  show V c main_v21 (((cfg1.win 18).blk t).view.emb (ix2 a b)) = _
  refine congrArg (V c main_v21) (funext fun x => Fin.ext ?_)
  match x with
  | ⟨0, _⟩ => show win1_18.index t (0 : Fin 2) * 1 + 1 * a.val = a.val; omega
  | ⟨1, _⟩ => show win1_18.index t (1 : Fin 2) * 10 + 1 * b.val = b.val; omega
theorem blk1_19 (c : Dev nD) (t : Fin cfg1.N) (a : Fin 128) (b : Fin 256) :
    (iblk1 V c 19 t : Vec Ideal S128x256 .f32) (ix2 a b) = V c main_v22 (ix2 a b) := by
  obtain ⟨e0, e1⟩ := (by decide +kernel : ∀ t : Fin grid1.N, win1_19.index t (0 : Fin 2) = 0 ∧ win1_19.index t (1 : Fin 2) = 0) t
  show V c main_v22 (((cfg1.win 19).blk t).view.emb (ix2 a b)) = _
  refine congrArg (V c main_v22) (funext fun x => Fin.ext ?_)
  match x with
  | ⟨0, _⟩ => show win1_19.index t (0 : Fin 2) * 128 + 1 * a.val = a.val; omega
  | ⟨1, _⟩ => show win1_19.index t (1 : Fin 2) * 256 + 1 * b.val = b.val; omega
theorem blk1_20 (c : Dev nD) (t : Fin cfg1.N) (a : Fin 64) (b : Fin 256) :
    (iblk1 V c 20 t : Vec Ideal S64x256 .f32) (ix2 a b) = V c main_v23 (ix2 a b) := by
  obtain ⟨e0, e1⟩ := (by decide +kernel : ∀ t : Fin grid1.N, win1_20.index t (0 : Fin 2) = 0 ∧ win1_20.index t (1 : Fin 2) = 0) t
  show V c main_v23 (((cfg1.win 20).blk t).view.emb (ix2 a b)) = _
  refine congrArg (V c main_v23) (funext fun x => Fin.ext ?_)
  match x with
  | ⟨0, _⟩ => show win1_20.index t (0 : Fin 2) * 64 + 1 * a.val = a.val; omega
  | ⟨1, _⟩ => show win1_20.index t (1 : Fin 2) * 256 + 1 * b.val = b.val; omega
theorem blk1_21 (c : Dev nD) (t : Fin cfg1.N) (a : Fin 1) (b : Fin 256) :
    (iblk1 V c 21 t : Vec Ideal S1x256 .f32) (ix2 a b) = V c main_v24 (ix2 a b) := by
  obtain ⟨e0, e1⟩ := (by decide +kernel : ∀ t : Fin grid1.N, win1_21.index t (0 : Fin 2) = 0 ∧ win1_21.index t (1 : Fin 2) = 0) t
  show V c main_v24 (((cfg1.win 21).blk t).view.emb (ix2 a b)) = _
  refine congrArg (V c main_v24) (funext fun x => Fin.ext ?_)
  match x with
  | ⟨0, _⟩ => show win1_21.index t (0 : Fin 2) * 1 + 1 * a.val = a.val; omega
  | ⟨1, _⟩ => show win1_21.index t (1 : Fin 2) * 256 + 1 * b.val = b.val; omega
theorem blk1_22 (c : Dev nD) (t : Fin cfg1.N) (a : Fin 256) (b : Fin 128) :
    (iblk1 V c 22 t : Vec Ideal S256x128 .f32) (ix2 a b) = V c main_v4 (ix2 a b) := by
  obtain ⟨e0, e1⟩ := (by decide +kernel : ∀ t : Fin grid1.N, win1_22.index t (0 : Fin 2) = 0 ∧ win1_22.index t (1 : Fin 2) = 0) t
  show V c main_v4 (((cfg1.win 22).blk t).view.emb (ix2 a b)) = _
  refine congrArg (V c main_v4) (funext fun x => Fin.ext ?_)
  match x with
  | ⟨0, _⟩ => show win1_22.index t (0 : Fin 2) * 256 + 1 * a.val = a.val; omega
  | ⟨1, _⟩ => show win1_22.index t (1 : Fin 2) * 128 + 1 * b.val = b.val; omega
theorem blk1_23 (c : Dev nD) (t : Fin cfg1.N) (a : Fin 1) (b : Fin 128) :
    (iblk1 V c 23 t : Vec Ideal S1x128 .f32) (ix2 a b) = V c main_v25 (ix2 a b) := by
  obtain ⟨e0, e1⟩ := (by decide +kernel : ∀ t : Fin grid1.N, win1_23.index t (0 : Fin 2) = 0 ∧ win1_23.index t (1 : Fin 2) = 0) t
  show V c main_v25 (((cfg1.win 23).blk t).view.emb (ix2 a b)) = _
  refine congrArg (V c main_v25) (funext fun x => Fin.ext ?_)
  match x with
  | ⟨0, _⟩ => show win1_23.index t (0 : Fin 2) * 1 + 1 * a.val = a.val; omega
  | ⟨1, _⟩ => show win1_23.index t (1 : Fin 2) * 128 + 1 * b.val = b.val; omega
theorem blk1_24 (c : Dev nD) (t : Fin cfg1.N) (a : Fin 128) (b : Fin 128) :
    (iblk1 V c 24 t : Vec Ideal S128x128 .f32) (ix2 a b) = V c main_v5 (ix2 a b) := by
  obtain ⟨e0, e1⟩ := (by decide +kernel : ∀ t : Fin grid1.N, win1_24.index t (0 : Fin 2) = 0 ∧ win1_24.index t (1 : Fin 2) = 0) t
  show V c main_v5 (((cfg1.win 24).blk t).view.emb (ix2 a b)) = _
  refine congrArg (V c main_v5) (funext fun x => Fin.ext ?_)
  match x with
  | ⟨0, _⟩ => show win1_24.index t (0 : Fin 2) * 128 + 1 * a.val = a.val; omega
  | ⟨1, _⟩ => show win1_24.index t (1 : Fin 2) * 128 + 1 * b.val = b.val; omega
theorem blk1_25 (c : Dev nD) (t : Fin cfg1.N) (a : Fin 1) (b : Fin 128) :
    (iblk1 V c 25 t : Vec Ideal S1x128 .f32) (ix2 a b) = V c main_v26 (ix2 a b) := by
  obtain ⟨e0, e1⟩ := (by decide +kernel : ∀ t : Fin grid1.N, win1_25.index t (0 : Fin 2) = 0 ∧ win1_25.index t (1 : Fin 2) = 0) t
  show V c main_v26 (((cfg1.win 25).blk t).view.emb (ix2 a b)) = _
  refine congrArg (V c main_v26) (funext fun x => Fin.ext ?_)
  match x with
  | ⟨0, _⟩ => show win1_25.index t (0 : Fin 2) * 1 + 1 * a.val = a.val; omega
  | ⟨1, _⟩ => show win1_25.index t (1 : Fin 2) * 128 + 1 * b.val = b.val; omega

/-- The second call's joined-features array: the first layer's output it reads, then the second layer of it. -/
theorem region1_zn (c : Dev nD) (r : Fin 10000) (j : Fin 192) :
    (dat1 V c).arrAt 28 cfg1.N (ix2 r j) = Fin.append (fun l : Fin 128 => V c main_v7 (ix2 r l)) (fun l : Fin 64 => Cert.Spec.gconv (fun a b => V c main_arg1 (ix2 a b)) (fun a b => V c main_v7 (ix2 a b)) (fun a b => V c main_arg4 (ix2 a b)) (fun b => V c main_v8 (ix2 (0 : Fin 1) b)) r l) j := by
  rw [arr1_28, znTile_apply]
  simp only [rows1_blk V c (pt1 r) (inOf r) _ r (row_split r), second1_blk V c (pt1 r) (inOf r) _ r (row_split r)]

/-- The second call's classifier array: the specification's head on each row's features. -/
theorem region1_cls (c : Dev nD) (r : Fin 10000) (q : Fin 10) :
    (dat1 V c).arrAt 26 cfg1.N (ix2 r q)
      = Cert.Spec.clsRow
          (fun o => Fin.append (fun l : Fin 128 => V c main_v9 (ix2 l o)) (fun l : Fin 64 => V c main_v10 (ix2 l o)))
          (fun b => V c main_v11 (ix2 (0 : Fin 1) b)) (fun b => V c main_v12 (ix2 (0 : Fin 1) b)) (fun b => V c main_v13 (ix2 (0 : Fin 1) b)) (fun b => V c main_v14 (ix2 (0 : Fin 1) b)) (fun b => V c main_v15 (ix2 (0 : Fin 1) b))
          (fun a b => V c main_v1 (ix2 b a)) (fun b => V c main_v16 (ix2 (0 : Fin 1) b)) (fun b => V c main_v17 (ix2 (0 : Fin 1) b)) (fun b => V c main_v18 (ix2 (0 : Fin 1) b)) (fun b => V c main_v19 (ix2 (0 : Fin 1) b)) (fun b => V c main_v20 (ix2 (0 : Fin 1) b))
          (fun a b => V c main_v2 (ix2 b a)) (fun b => V c main_v21 (ix2 (0 : Fin 1) b))
          (fun l : Fin 128 => V c main_v7 (ix2 r l)) (fun l : Fin 64 => Cert.Spec.gconv (fun a b => V c main_arg1 (ix2 a b)) (fun a b => V c main_v7 (ix2 a b)) (fun a b => V c main_arg4 (ix2 a b)) (fun b => V c main_v8 (ix2 (0 : Fin 1) b)) r l) q := by
  rw [arr1_26, clsTile_apply]
  simp only [rows1_blk V c (pt1 r) (inOf r) _ r (row_split r), second1_blk V c (pt1 r) (inOf r) _ r (row_split r),
    blk1_4, blk1_5, blk1_6, blk1_7, blk1_8, blk1_9, blk1_10, blk1_11, blk1_12, blk1_13, blk1_14, blk1_15, blk1_16, blk1_17, blk1_18]

/-- The second call's reconstruction array: the specification's head on each row's features. -/
theorem region1_rec (c : Dev nD) (r : Fin 10000) (q : Fin 128) :
    (dat1 V c).arrAt 27 cfg1.N (ix2 r q)
      = Cert.Spec.recRow
          (fun o => Fin.append (fun l : Fin 128 => V c main_v22 (ix2 l o)) (fun l : Fin 64 => V c main_v23 (ix2 l o)))
          (fun b => V c main_v24 (ix2 (0 : Fin 1) b)) (fun a b => V c main_v4 (ix2 b a)) (fun b => V c main_v25 (ix2 (0 : Fin 1) b)) (fun a b => V c main_v5 (ix2 b a)) (fun b => V c main_v26 (ix2 (0 : Fin 1) b))
          (fun l : Fin 128 => V c main_v7 (ix2 r l)) (fun l : Fin 64 => Cert.Spec.gconv (fun a b => V c main_arg1 (ix2 a b)) (fun a b => V c main_v7 (ix2 a b)) (fun a b => V c main_arg4 (ix2 a b)) (fun b => V c main_v8 (ix2 (0 : Fin 1) b)) r l) q := by
  rw [arr1_27, recTile_apply]
  simp only [rows1_blk V c (pt1 r) (inOf r) _ r (row_split r), second1_blk V c (pt1 r) (inOf r) _ r (row_split r),
    blk1_19, blk1_20, blk1_21, blk1_22, blk1_23, blk1_24, blk1_25]

end Cert.KernelIdeal.Val
end
-- ==== Proof.KI.Host.lean ====
import proofs.«178126_g73521250173546_cont_sun_c4_545_6_alg».proof.Proof.KI.Run
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # What the calls' operand arrays hold, in terms of the launch memory

The host lines before the calls transpose the six linear weights, cut the two 192-row transposed weights into their
first 128 and last 64 rows, and lay each bias and normalisation vector out as a one-row matrix; a call changes only
its own output arrays. -/

variable (m : (ℓ : Loc nD τ sig) → Buf (Elt Ideal) ℓ)

/-! ## The first call's operands -/

/-- Rows of a vector laid out as a one-row matrix: entry (0, b) of the row is entry b of the vector. -/
theorem row128 {α : Type} (x : S128.Idx → α) (b : Fin 128) :
    broadcastInDim S1x128 ![1] bcast_S128_S1x128_1 x (ix2 (0 : Fin 1) b) = x (ix1 b) :=
  broadcastInDim_apply _ bcast_S128_S1x128_1 x _ (ix1 b) (fun a => match a with
    | ⟨0, _⟩ => by show b.val = if (128 : Nat) = 1 then 0 else b.val; rw [if_neg (by decide)])

theorem row64 {α : Type} (x : S64.Idx → α) (b : Fin 64) :
    broadcastInDim S1x64 ![1] bcast_S64_S1x64_1 x (ix2 (0 : Fin 1) b) = x (ix1 b) :=
  broadcastInDim_apply _ bcast_S64_S1x64_1 x _ (ix1 b) (fun a => match a with
    | ⟨0, _⟩ => by show b.val = if (64 : Nat) = 1 then 0 else b.val; rw [if_neg (by decide)])
theorem row256 {α : Type} (x : S256.Idx → α) (b : Fin 256) :
    broadcastInDim S1x256 ![1] bcast_S256_S1x256_1 x (ix2 (0 : Fin 1) b) = x (ix1 b) :=
  broadcastInDim_apply _ bcast_S256_S1x256_1 x _ (ix1 b) (fun a => match a with
    | ⟨0, _⟩ => by show b.val = if (256 : Nat) = 1 then 0 else b.val; rw [if_neg (by decide)])
theorem row10 {α : Type} (x : S10.Idx → α) (b : Fin 10) :
    broadcastInDim S1x10 ![1] bcast_S10_S1x10_1 x (ix2 (0 : Fin 1) b) = x (ix1 b) :=
  broadcastInDim_apply _ bcast_S10_S1x10_1 x _ (ix1 b) (fun a => match a with
    | ⟨0, _⟩ => by show b.val = if (10 : Nat) = 1 then 0 else b.val; rw [if_neg (by decide)])

/-- Entry (b, a) of a transposed matrix is entry (a, b) of the matrix. -/
theorem tr_128x256 {α : Type} (x : S128x256.Idx → α) (a : Fin 128) (b : Fin 256) :
    transpose S256x128 [1, 0] x transposes_S128x256_S256x128_1_0 (ix2 b a) = x (ix2 a b) :=
  transpose_apply [1, 0] x transposes_S128x256_S256x128_1_0 _ (ix2 a b) (fun d => match d with
    | ⟨0, _⟩ => rfl
    | ⟨1, _⟩ => rfl)
theorem tr_10x128 {α : Type} (x : S10x128.Idx → α) (a : Fin 10) (b : Fin 128) :
    transpose S128x10 [1, 0] x transposes_S10x128_S128x10_1_0 (ix2 b a) = x (ix2 a b) :=
  transpose_apply [1, 0] x transposes_S10x128_S128x10_1_0 _ (ix2 a b) (fun d => match d with
    | ⟨0, _⟩ => rfl
    | ⟨1, _⟩ => rfl)
theorem tr_128x128 {α : Type} (x : S128x128.Idx → α) (a : Fin 128) (b : Fin 128) :
    transpose S128x128 [1, 0] x transposes_S128x128_S128x128_1_0 (ix2 b a) = x (ix2 a b) :=
  transpose_apply [1, 0] x transposes_S128x128_S128x128_1_0 _ (ix2 a b) (fun d => match d with
    | ⟨0, _⟩ => rfl
    | ⟨1, _⟩ => rfl)
theorem tr_256x192 {α : Type} (x : S256x192.Idx → α) (a : Fin 256) (b : Fin 192) :
    transpose S192x256 [1, 0] x transposes_S256x192_S192x256_1_0 (ix2 b a) = x (ix2 a b) :=
  transpose_apply [1, 0] x transposes_S256x192_S192x256_1_0 _ (ix2 a b) (fun d => match d with
    | ⟨0, _⟩ => rfl
    | ⟨1, _⟩ => rfl)

/-- The first 128 rows of a 192-row matrix: row l of the cut is row l of the matrix. -/
theorem sl_lo {α : Type} (x : S192x256.Idx → α) (l : Fin 128) (o : Fin 256) :
    extractStridedSlice S128x256 ![0, 0] x slices_S192x256_S128x256_0_0 (ix2 l o) = x (ix2 (Fin.castAdd 64 l) o) :=
  extractStridedSlice_apply _ x slices_S192x256_S128x256_0_0 _ (ix2 (Fin.castAdd 64 l) o) (fun a => match a with
    | ⟨0, _⟩ => by show (l : Nat) = 0 + (l : Nat); omega
    | ⟨1, _⟩ => by show (o : Nat) = 0 + (o : Nat); omega)
/-- The last 64 rows of a 192-row matrix: row l of the cut is row 128 + l of the matrix. -/
theorem sl_hi {α : Type} (x : S192x256.Idx → α) (l : Fin 64) (o : Fin 256) :
    extractStridedSlice S64x256 ![128, 0] x slices_S192x256_S64x256_128_0 (ix2 l o) = x (ix2 (Fin.natAdd 128 l) o) :=
  extractStridedSlice_apply _ x slices_S192x256_S64x256_128_0 _ (ix2 (Fin.natAdd 128 l) o) (fun a => match a with
    | ⟨0, _⟩ => by show 128 + (l : Nat) = 128 + (l : Nat); rfl
    | ⟨1, _⟩ => by show (o : Nat) = 0 + (o : Nat); omega)

/-- A buffer the second host stretch does not write is, at the second call's entry, as the first call left it. -/
theorem V3_keep (c : Dev nD) (b : Ref sig .tc) (h : b ∉ hostOps1_W) : Fr.V3 m c b = Fr.W2 m c (Proc.devRef .tc b) :=
  StableHlo.after_of_writes_sub hostOps1 _ hostOps1_writes h

/-- The six transposed weights at the first call's entry. -/
theorem W1_v0 (c : Dev nD) : (Fr.W1 m c (Proc.devRef .tc main_v0) : S192x256.Idx → _)
    = transpose S192x256 [1, 0] (m ((c : Thread nD τ).loc main_arg6)) transposes_S256x192_S192x256_1_0 := by
  dsimp only [Fr.W1, hostOps0]; after_results <;> rfl
theorem W1_v1 (c : Dev nD) : (Fr.W1 m c (Proc.devRef .tc main_v1) : S256x128.Idx → _)
    = transpose S256x128 [1, 0] (m ((c : Thread nD τ).loc main_arg12)) transposes_S128x256_S256x128_1_0 := by
  dsimp only [Fr.W1, hostOps0]; after_results <;> rfl
theorem W1_v2 (c : Dev nD) : (Fr.W1 m c (Proc.devRef .tc main_v2) : S128x10.Idx → _)
    = transpose S128x10 [1, 0] (m ((c : Thread nD τ).loc main_arg18)) transposes_S10x128_S128x10_1_0 := by
  dsimp only [Fr.W1, hostOps0]; after_results <;> rfl
theorem W1_v3 (c : Dev nD) : (Fr.W1 m c (Proc.devRef .tc main_v3) : S192x256.Idx → _)
    = transpose S192x256 [1, 0] (m ((c : Thread nD τ).loc main_arg20)) transposes_S256x192_S192x256_1_0 := by
  dsimp only [Fr.W1, hostOps0]; after_results <;> rfl
theorem W1_v4 (c : Dev nD) : (Fr.W1 m c (Proc.devRef .tc main_v4) : S256x128.Idx → _)
    = transpose S256x128 [1, 0] (m ((c : Thread nD τ).loc main_arg22)) transposes_S128x256_S256x128_1_0 := by
  dsimp only [Fr.W1, hostOps0]; after_results <;> rfl
theorem W1_v5 (c : Dev nD) : (Fr.W1 m c (Proc.devRef .tc main_v5) : S128x128.Idx → _)
    = transpose S128x128 [1, 0] (m ((c : Thread nD τ).loc main_arg24)) transposes_S128x128_S128x128_1_0 := by
  dsimp only [Fr.W1, hostOps0]; after_results <;> rfl

/-- A buffer that neither the first host stretch writes nor the first call owns is, at the first call's exit, as launched. -/
theorem W2_launch (c : Dev nD) (b : Ref sig .tc) (h1 : ∀ w, Pipeline.arrRef spec0 w ≠ b) (h0 : b ∉ hostOps0_W) :
    Fr.W2 m c (Proc.devRef .tc b) = m ((c : Thread nD τ).loc b) :=
  (Fr.W2_of_ne m c b h1).trans (StableHlo.after_of_writes_sub hostOps0 _ hostOps0_writes h0)

theorem r0_adj (c : Dev nD) : Fr.V1 m c main_arg1 = m ((c : Thread nD τ).loc main_arg1) :=
  StableHlo.after_of_writes_sub hostOps0 _ hostOps0_writes (by decide : main_arg1 ∉ hostOps0_W)
theorem r0_x (c : Dev nD) : Fr.V1 m c main_arg0 = m ((c : Thread nD τ).loc main_arg0) :=
  StableHlo.after_of_writes_sub hostOps0 _ hostOps0_writes (by decide : main_arg0 ∉ hostOps0_W)
theorem r0_w (c : Dev nD) : Fr.V1 m c main_arg2 = m ((c : Thread nD τ).loc main_arg2) :=
  StableHlo.after_of_writes_sub hostOps0 _ hostOps0_writes (by decide : main_arg2 ∉ hostOps0_W)
theorem r0_b (c : Dev nD) (b : Fin 128) : Fr.V1 m c main_v6 (ix2 (0 : Fin 1) b) = m ((c : Thread nD τ).loc main_arg3) (ix1 b) := by
  have e : (Fr.V1 m c main_v6 : S1x128.Idx → _) = broadcastInDim S1x128 ![1] bcast_S128_S1x128_1 (m ((c : Thread nD τ).loc main_arg3)) := by
    dsimp only [Fr.V1, Fr.W1, hostOps0]; after_results
  rw [e]; exact row128 _ b

/-! ## The second call's operands -/

theorem r1_adj (c : Dev nD) : Fr.V3 m c main_arg1 = m ((c : Thread nD τ).loc main_arg1) :=
  calc Fr.V3 m c main_arg1
    _ = Fr.W2 m c (Proc.devRef .tc main_arg1) := StableHlo.after_of_writes_sub hostOps1 _ hostOps1_writes (by decide : main_arg1 ∉ hostOps1_W)
    _ = Fr.W1 m c (Proc.devRef .tc main_arg1) := (Fr.W2_arr m c 0).trans (((dat0 (Fr.V1 m) c).arrAt_in 0 rfl _).trans (A_eq0 (Fr.V1 m) c 0))
    _ = m ((c : Thread nD τ).loc main_arg1) := r0_adj m c
/-- The first layer's output reaches the second call as the first call left it. -/
theorem r1_x1 (c : Dev nD) : Fr.V3 m c main_v7 = (dat0 (Fr.V1 m) c).arrAt 4 cfg0.N :=
  (StableHlo.after_of_writes_sub hostOps1 _ hostOps1_writes (by decide : main_v7 ∉ hostOps1_W)).trans (Fr.W2_arr m c 4)
theorem r1_w (c : Dev nD) : Fr.V3 m c main_arg4 = m ((c : Thread nD τ).loc main_arg4) :=
  (StableHlo.after_of_writes_sub hostOps1 _ hostOps1_writes (by decide : main_arg4 ∉ hostOps1_W)).trans
    (W2_launch m c main_arg4 (by decide) (by decide))
theorem v8_row (c : Dev nD) (b : Fin 64) : Fr.V3 m c main_v8 (ix2 (0 : Fin 1) b) = m ((c : Thread nD τ).loc main_arg5) (ix1 b) := by
  have e : (Fr.V3 m c main_v8 : S1x64.Idx → _) = broadcastInDim S1x64 ![1] bcast_S64_S1x64_1 (Fr.W2 m c (Proc.devRef .tc main_arg5)) := by
    dsimp only [Fr.V3, Fr.W3, hostOps1]; after_results
  rw [e, W2_launch m c main_arg5 (by decide) (by decide)]; exact row64 _ b
theorem v11_row (c : Dev nD) (b : Fin 256) : Fr.V3 m c main_v11 (ix2 (0 : Fin 1) b) = m ((c : Thread nD τ).loc main_arg7) (ix1 b) := by
  have e : (Fr.V3 m c main_v11 : S1x256.Idx → _) = broadcastInDim S1x256 ![1] bcast_S256_S1x256_1 (Fr.W2 m c (Proc.devRef .tc main_arg7)) := by
    dsimp only [Fr.V3, Fr.W3, hostOps1]; after_results
  rw [e, W2_launch m c main_arg7 (by decide) (by decide)]; exact row256 _ b
theorem v12_row (c : Dev nD) (b : Fin 256) : Fr.V3 m c main_v12 (ix2 (0 : Fin 1) b) = m ((c : Thread nD τ).loc main_arg8) (ix1 b) := by
  have e : (Fr.V3 m c main_v12 : S1x256.Idx → _) = broadcastInDim S1x256 ![1] bcast_S256_S1x256_1 (Fr.W2 m c (Proc.devRef .tc main_arg8)) := by
    dsimp only [Fr.V3, Fr.W3, hostOps1]; after_results
  rw [e, W2_launch m c main_arg8 (by decide) (by decide)]; exact row256 _ b
theorem v13_row (c : Dev nD) (b : Fin 256) : Fr.V3 m c main_v13 (ix2 (0 : Fin 1) b) = m ((c : Thread nD τ).loc main_arg9) (ix1 b) := by
  have e : (Fr.V3 m c main_v13 : S1x256.Idx → _) = broadcastInDim S1x256 ![1] bcast_S256_S1x256_1 (Fr.W2 m c (Proc.devRef .tc main_arg9)) := by
    dsimp only [Fr.V3, Fr.W3, hostOps1]; after_results
  rw [e, W2_launch m c main_arg9 (by decide) (by decide)]; exact row256 _ b
theorem v14_row (c : Dev nD) (b : Fin 256) : Fr.V3 m c main_v14 (ix2 (0 : Fin 1) b) = m ((c : Thread nD τ).loc main_arg10) (ix1 b) := by
  have e : (Fr.V3 m c main_v14 : S1x256.Idx → _) = broadcastInDim S1x256 ![1] bcast_S256_S1x256_1 (Fr.W2 m c (Proc.devRef .tc main_arg10)) := by
    dsimp only [Fr.V3, Fr.W3, hostOps1]; after_results
  rw [e, W2_launch m c main_arg10 (by decide) (by decide)]; exact row256 _ b
theorem v15_row (c : Dev nD) (b : Fin 256) : Fr.V3 m c main_v15 (ix2 (0 : Fin 1) b) = m ((c : Thread nD τ).loc main_arg11) (ix1 b) := by
  have e : (Fr.V3 m c main_v15 : S1x256.Idx → _) = broadcastInDim S1x256 ![1] bcast_S256_S1x256_1 (Fr.W2 m c (Proc.devRef .tc main_arg11)) := by
    dsimp only [Fr.V3, Fr.W3, hostOps1]; after_results
  rw [e, W2_launch m c main_arg11 (by decide) (by decide)]; exact row256 _ b
theorem v16_row (c : Dev nD) (b : Fin 128) : Fr.V3 m c main_v16 (ix2 (0 : Fin 1) b) = m ((c : Thread nD τ).loc main_arg13) (ix1 b) := by
  have e : (Fr.V3 m c main_v16 : S1x128.Idx → _) = broadcastInDim S1x128 ![1] bcast_S128_S1x128_1 (Fr.W2 m c (Proc.devRef .tc main_arg13)) := by
    dsimp only [Fr.V3, Fr.W3, hostOps1]; after_results
  rw [e, W2_launch m c main_arg13 (by decide) (by decide)]; exact row128 _ b
theorem v17_row (c : Dev nD) (b : Fin 128) : Fr.V3 m c main_v17 (ix2 (0 : Fin 1) b) = m ((c : Thread nD τ).loc main_arg14) (ix1 b) := by
  have e : (Fr.V3 m c main_v17 : S1x128.Idx → _) = broadcastInDim S1x128 ![1] bcast_S128_S1x128_1 (Fr.W2 m c (Proc.devRef .tc main_arg14)) := by
    dsimp only [Fr.V3, Fr.W3, hostOps1]; after_results
  rw [e, W2_launch m c main_arg14 (by decide) (by decide)]; exact row128 _ b
theorem v18_row (c : Dev nD) (b : Fin 128) : Fr.V3 m c main_v18 (ix2 (0 : Fin 1) b) = m ((c : Thread nD τ).loc main_arg15) (ix1 b) := by
  have e : (Fr.V3 m c main_v18 : S1x128.Idx → _) = broadcastInDim S1x128 ![1] bcast_S128_S1x128_1 (Fr.W2 m c (Proc.devRef .tc main_arg15)) := by
    dsimp only [Fr.V3, Fr.W3, hostOps1]; after_results
  rw [e, W2_launch m c main_arg15 (by decide) (by decide)]; exact row128 _ b
theorem v19_row (c : Dev nD) (b : Fin 128) : Fr.V3 m c main_v19 (ix2 (0 : Fin 1) b) = m ((c : Thread nD τ).loc main_arg16) (ix1 b) := by
  have e : (Fr.V3 m c main_v19 : S1x128.Idx → _) = broadcastInDim S1x128 ![1] bcast_S128_S1x128_1 (Fr.W2 m c (Proc.devRef .tc main_arg16)) := by
    dsimp only [Fr.V3, Fr.W3, hostOps1]; after_results
  rw [e, W2_launch m c main_arg16 (by decide) (by decide)]; exact row128 _ b
theorem v20_row (c : Dev nD) (b : Fin 128) : Fr.V3 m c main_v20 (ix2 (0 : Fin 1) b) = m ((c : Thread nD τ).loc main_arg17) (ix1 b) := by
  have e : (Fr.V3 m c main_v20 : S1x128.Idx → _) = broadcastInDim S1x128 ![1] bcast_S128_S1x128_1 (Fr.W2 m c (Proc.devRef .tc main_arg17)) := by
    dsimp only [Fr.V3, Fr.W3, hostOps1]; after_results
  rw [e, W2_launch m c main_arg17 (by decide) (by decide)]; exact row128 _ b
theorem v21_row (c : Dev nD) (b : Fin 10) : Fr.V3 m c main_v21 (ix2 (0 : Fin 1) b) = m ((c : Thread nD τ).loc main_arg19) (ix1 b) := by
  have e : (Fr.V3 m c main_v21 : S1x10.Idx → _) = broadcastInDim S1x10 ![1] bcast_S10_S1x10_1 (Fr.W2 m c (Proc.devRef .tc main_arg19)) := by
    dsimp only [Fr.V3, Fr.W3, hostOps1]; after_results
  rw [e, W2_launch m c main_arg19 (by decide) (by decide)]; exact row10 _ b
theorem v24_row (c : Dev nD) (b : Fin 256) : Fr.V3 m c main_v24 (ix2 (0 : Fin 1) b) = m ((c : Thread nD τ).loc main_arg21) (ix1 b) := by
  have e : (Fr.V3 m c main_v24 : S1x256.Idx → _) = broadcastInDim S1x256 ![1] bcast_S256_S1x256_1 (Fr.W2 m c (Proc.devRef .tc main_arg21)) := by
    dsimp only [Fr.V3, Fr.W3, hostOps1]; after_results
  rw [e, W2_launch m c main_arg21 (by decide) (by decide)]; exact row256 _ b
theorem v25_row (c : Dev nD) (b : Fin 128) : Fr.V3 m c main_v25 (ix2 (0 : Fin 1) b) = m ((c : Thread nD τ).loc main_arg23) (ix1 b) := by
  have e : (Fr.V3 m c main_v25 : S1x128.Idx → _) = broadcastInDim S1x128 ![1] bcast_S128_S1x128_1 (Fr.W2 m c (Proc.devRef .tc main_arg23)) := by
    dsimp only [Fr.V3, Fr.W3, hostOps1]; after_results
  rw [e, W2_launch m c main_arg23 (by decide) (by decide)]; exact row128 _ b
theorem v26_row (c : Dev nD) (b : Fin 128) : Fr.V3 m c main_v26 (ix2 (0 : Fin 1) b) = m ((c : Thread nD τ).loc main_arg25) (ix1 b) := by
  have e : (Fr.V3 m c main_v26 : S1x128.Idx → _) = broadcastInDim S1x128 ![1] bcast_S128_S1x128_1 (Fr.W2 m c (Proc.devRef .tc main_arg25)) := by
    dsimp only [Fr.V3, Fr.W3, hostOps1]; after_results
  rw [e, W2_launch m c main_arg25 (by decide) (by decide)]; exact row128 _ b

/-- main_v1 is the transpose of argument 12. -/
theorem v1_tr (c : Dev nD) (a : Fin 128) (b : Fin 256) : Fr.V3 m c main_v1 (ix2 b a) = m ((c : Thread nD τ).loc main_arg12) (ix2 a b) := by
  rw [V3_keep m c main_v1 (by decide), Fr.W2_of_ne m c main_v1 (by decide), W1_v1 m c]; exact tr_128x256 _ a b
/-- main_v2 is the transpose of argument 18. -/
theorem v2_tr (c : Dev nD) (a : Fin 10) (b : Fin 128) : Fr.V3 m c main_v2 (ix2 b a) = m ((c : Thread nD τ).loc main_arg18) (ix2 a b) := by
  rw [V3_keep m c main_v2 (by decide), Fr.W2_of_ne m c main_v2 (by decide), W1_v2 m c]; exact tr_10x128 _ a b
/-- main_v4 is the transpose of argument 22. -/
theorem v4_tr (c : Dev nD) (a : Fin 128) (b : Fin 256) : Fr.V3 m c main_v4 (ix2 b a) = m ((c : Thread nD τ).loc main_arg22) (ix2 a b) := by
  rw [V3_keep m c main_v4 (by decide), Fr.W2_of_ne m c main_v4 (by decide), W1_v4 m c]; exact tr_128x256 _ a b
/-- main_v5 is the transpose of argument 24. -/
theorem v5_tr (c : Dev nD) (a : Fin 128) (b : Fin 128) : Fr.V3 m c main_v5 (ix2 b a) = m ((c : Thread nD τ).loc main_arg24) (ix2 a b) := by
  rw [V3_keep m c main_v5 (by decide), Fr.W2_of_ne m c main_v5 (by decide), W1_v5 m c]; exact tr_128x128 _ a b

/-- main_v9 and main_v10 are the first 128 and the last 64 rows of the transpose of argument 6. -/
theorem v9_lo (c : Dev nD) (o : Fin 256) (l : Fin 128) : Fr.V3 m c main_v9 (ix2 l o) = m ((c : Thread nD τ).loc main_arg6) (ix2 o (Fin.castAdd 64 l)) := by
  have e : (Fr.V3 m c main_v9 : S128x256.Idx → _) = extractStridedSlice S128x256 ![0, 0] (Fr.W2 m c (Proc.devRef .tc main_v0)) slices_S192x256_S128x256_0_0 := by
    dsimp only [Fr.V3, Fr.W3, hostOps1]; after_results
  rw [e, Fr.W2_of_ne m c main_v0 (by decide), W1_v0 m c, sl_lo]; exact tr_256x192 _ o _
theorem v10_hi (c : Dev nD) (o : Fin 256) (l : Fin 64) : Fr.V3 m c main_v10 (ix2 l o) = m ((c : Thread nD τ).loc main_arg6) (ix2 o (Fin.natAdd 128 l)) := by
  have e : (Fr.V3 m c main_v10 : S64x256.Idx → _) = extractStridedSlice S64x256 ![128, 0] (Fr.W2 m c (Proc.devRef .tc main_v0)) slices_S192x256_S64x256_128_0 := by
    dsimp only [Fr.V3, Fr.W3, hostOps1]; after_results
  rw [e, Fr.W2_of_ne m c main_v0 (by decide), W1_v0 m c, sl_hi]; exact tr_256x192 _ o _
/-- main_v22 and main_v23 are the first 128 and the last 64 rows of the transpose of argument 20. -/
theorem v22_lo (c : Dev nD) (o : Fin 256) (l : Fin 128) : Fr.V3 m c main_v22 (ix2 l o) = m ((c : Thread nD τ).loc main_arg20) (ix2 o (Fin.castAdd 64 l)) := by
  have e : (Fr.V3 m c main_v22 : S128x256.Idx → _) = extractStridedSlice S128x256 ![0, 0] (Fr.W2 m c (Proc.devRef .tc main_v3)) slices_S192x256_S128x256_0_0 := by
    dsimp only [Fr.V3, Fr.W3, hostOps1]; after_results
  rw [e, Fr.W2_of_ne m c main_v3 (by decide), W1_v3 m c, sl_lo]; exact tr_256x192 _ o _
theorem v23_hi (c : Dev nD) (o : Fin 256) (l : Fin 64) : Fr.V3 m c main_v23 (ix2 l o) = m ((c : Thread nD τ).loc main_arg20) (ix2 o (Fin.natAdd 128 l)) := by
  have e : (Fr.V3 m c main_v23 : S64x256.Idx → _) = extractStridedSlice S64x256 ![128, 0] (Fr.W2 m c (Proc.devRef .tc main_v3)) slices_S192x256_S64x256_128_0 := by
    dsimp only [Fr.V3, Fr.W3, hostOps1]; after_results
  rw [e, Fr.W2_of_ne m c main_v3 (by decide), W1_v3 m c, sl_hi]; exact tr_256x192 _ o _

end Cert.KernelIdeal.Val
end
-- ==== Proof.KI.Final.lean ====
import proofs.«178126_g73521250173546_cont_sun_c4_545_6_alg».proof.Proof.KI.Run
import proofs.«178126_g73521250173546_cont_sun_c4_545_6_alg».proof.Proof.KI.Blocks0
import proofs.«178126_g73521250173546_cont_sun_c4_545_6_alg».proof.Proof.KI.Blocks1
import proofs.«178126_g73521250173546_cont_sun_c4_545_6_alg».proof.Proof.KI.Host
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr
open ValueIdx (ix1 ix2)

/-! # The idealized kernel's three results as the specification's functions of the launch arguments

The second call's output arrays are the specification's heads on each row's features; those features are the first
call's output array (the first layer) and the second layer of it; every operand array is a rearrangement of an argument. -/

variable (m : (ℓ : Loc nD τ sig) → Buf (Elt Ideal) ℓ)

/-- The first layer's output as the second call finds it. -/
theorem kernel_x1 (c : Dev nD) (r : Fin 10000) (q : Fin 128) :
    Fr.V3 m c main_v7 (ix2 r q) = Cert.Spec.x1 (fun a b => m ((c : Thread nD τ).loc main_arg0) (ix2 a b)) (fun a b => m ((c : Thread nD τ).loc main_arg1) (ix2 a b)) (fun a b => m ((c : Thread nD τ).loc main_arg2) (ix2 a b)) (fun a => m ((c : Thread nD τ).loc main_arg3) (ix1 a)) r q := by
  rw [r1_x1 m c, region0_value (Fr.V1 m) c r q]
  unfold Cert.Spec.x1
  rw [r0_adj m c, r0_x m c, r0_w m c]
  simp only [r0_b m c]

/-- The second layer computed from the second call's operands. -/
theorem kernel_x2 (c : Dev nD) (r : Fin 10000) (q : Fin 64) :
    Cert.Spec.gconv (fun a b => Fr.V3 m c main_arg1 (ix2 a b)) (fun a b => Fr.V3 m c main_v7 (ix2 a b))
        (fun a b => Fr.V3 m c main_arg4 (ix2 a b)) (fun b => Fr.V3 m c main_v8 (ix2 (0 : Fin 1) b)) r q
      = Cert.Spec.x2 (fun a b => m ((c : Thread nD τ).loc main_arg0) (ix2 a b)) (fun a b => m ((c : Thread nD τ).loc main_arg1) (ix2 a b)) (fun a b => m ((c : Thread nD τ).loc main_arg2) (ix2 a b)) (fun a => m ((c : Thread nD τ).loc main_arg3) (ix1 a)) (fun a b => m ((c : Thread nD τ).loc main_arg4) (ix2 a b)) (fun a => m ((c : Thread nD τ).loc main_arg5) (ix1 a)) r q := by
  unfold Cert.Spec.x2
  rw [r1_adj m c, r1_w m c]
  simp only [v8_row m c, kernel_x1 m c]

/-- The joined features. -/
theorem kernel_zn (c : Dev nD) (r : Fin 10000) (j : Fin 192) :
    Fr.W4 m c (Proc.devRef .tc main_v27_2) (ix2 r j) = Cert.Spec.zn (fun a b => m ((c : Thread nD τ).loc main_arg0) (ix2 a b)) (fun a b => m ((c : Thread nD τ).loc main_arg1) (ix2 a b)) (fun a b => m ((c : Thread nD τ).loc main_arg2) (ix2 a b)) (fun a => m ((c : Thread nD τ).loc main_arg3) (ix1 a)) (fun a b => m ((c : Thread nD τ).loc main_arg4) (ix2 a b)) (fun a => m ((c : Thread nD τ).loc main_arg5) (ix1 a)) r j := by
  rw [show Fr.W4 m c (Proc.devRef .tc main_v27_2) = (dat1 (Fr.V3 m) c).arrAt 28 cfg1.N from Fr.W4_arr m c 28, region1_zn (Fr.V3 m) c r j]
  unfold Cert.Spec.zn
  simp only [kernel_x2 m c]
  simp only [kernel_x1 m c]

/-- A weight cut into its first 128 and last 64 input columns and joined again is the weight. -/
theorem append_cols (W : (⟨2, ![256, 192]⟩ : Shape).Idx → EReal) :
    (fun o : Fin 256 => Fin.append (fun l : Fin 128 => W (ix2 o (Fin.castAdd 64 l))) (fun l : Fin 64 => W (ix2 o (Fin.natAdd 128 l))))
      = fun o k => W (ix2 o k) := by
  funext o k
  refine Fin.addCases (fun l => ?_) (fun l => ?_) k
  · rw [Fin.append_left]
  · rw [Fin.append_right]

/-- The classifier's log-probabilities. -/
theorem kernel_cls (c : Dev nD) (r : Fin 10000) (q : Fin 10) :
    Fr.W4 m c (Proc.devRef .tc main_v27_0) (ix2 r q) = Cert.Spec.cls (fun a b => m ((c : Thread nD τ).loc main_arg0) (ix2 a b)) (fun a b => m ((c : Thread nD τ).loc main_arg1) (ix2 a b)) (fun a b => m ((c : Thread nD τ).loc main_arg2) (ix2 a b)) (fun a => m ((c : Thread nD τ).loc main_arg3) (ix1 a)) (fun a b => m ((c : Thread nD τ).loc main_arg4) (ix2 a b)) (fun a => m ((c : Thread nD τ).loc main_arg5) (ix1 a)) (fun a b => m ((c : Thread nD τ).loc main_arg6) (ix2 a b)) (fun a => m ((c : Thread nD τ).loc main_arg7) (ix1 a)) (fun a => m ((c : Thread nD τ).loc main_arg8) (ix1 a)) (fun a => m ((c : Thread nD τ).loc main_arg9) (ix1 a)) (fun a => m ((c : Thread nD τ).loc main_arg10) (ix1 a)) (fun a => m ((c : Thread nD τ).loc main_arg11) (ix1 a)) (fun a b => m ((c : Thread nD τ).loc main_arg12) (ix2 a b)) (fun a => m ((c : Thread nD τ).loc main_arg13) (ix1 a)) (fun a => m ((c : Thread nD τ).loc main_arg14) (ix1 a)) (fun a => m ((c : Thread nD τ).loc main_arg15) (ix1 a)) (fun a => m ((c : Thread nD τ).loc main_arg16) (ix1 a)) (fun a => m ((c : Thread nD τ).loc main_arg17) (ix1 a)) (fun a b => m ((c : Thread nD τ).loc main_arg18) (ix2 a b)) (fun a => m ((c : Thread nD τ).loc main_arg19) (ix1 a)) r q := by
  rw [show Fr.W4 m c (Proc.devRef .tc main_v27_0) = (dat1 (Fr.V3 m) c).arrAt 26 cfg1.N from Fr.W4_arr m c 26, region1_cls (Fr.V3 m) c r q]
  unfold Cert.Spec.cls
  simp only [kernel_x2 m c]
  simp only [kernel_x1 m c, v9_lo m c, v10_hi m c, v11_row m c, v12_row m c, v13_row m c, v14_row m c, v15_row m c,
    v16_row m c, v17_row m c, v18_row m c, v19_row m c, v20_row m c, v21_row m c, v1_tr m c, v2_tr m c]
  rw [append_cols]

/-- The reconstruction. -/
theorem kernel_rec (c : Dev nD) (r : Fin 10000) (q : Fin 128) :
    Fr.W4 m c (Proc.devRef .tc main_v27_1) (ix2 r q) = Cert.Spec.rec (fun a b => m ((c : Thread nD τ).loc main_arg0) (ix2 a b)) (fun a b => m ((c : Thread nD τ).loc main_arg1) (ix2 a b)) (fun a b => m ((c : Thread nD τ).loc main_arg2) (ix2 a b)) (fun a => m ((c : Thread nD τ).loc main_arg3) (ix1 a)) (fun a b => m ((c : Thread nD τ).loc main_arg4) (ix2 a b)) (fun a => m ((c : Thread nD τ).loc main_arg5) (ix1 a)) (fun a b => m ((c : Thread nD τ).loc main_arg20) (ix2 a b)) (fun a => m ((c : Thread nD τ).loc main_arg21) (ix1 a)) (fun a b => m ((c : Thread nD τ).loc main_arg22) (ix2 a b)) (fun a => m ((c : Thread nD τ).loc main_arg23) (ix1 a)) (fun a b => m ((c : Thread nD τ).loc main_arg24) (ix2 a b)) (fun a => m ((c : Thread nD τ).loc main_arg25) (ix1 a)) r q := by
  rw [show Fr.W4 m c (Proc.devRef .tc main_v27_1) = (dat1 (Fr.V3 m) c).arrAt 27 cfg1.N from Fr.W4_arr m c 27, region1_rec (Fr.V3 m) c r q]
  unfold Cert.Spec.rec
  simp only [kernel_x2 m c]
  simp only [kernel_x1 m c, v22_lo m c, v23_hi m c, v24_row m c, v25_row m c, v26_row m c, v4_tr m c, v5_tr m c]
  rw [append_cols]

end Cert.KernelIdeal.Val
end
-- ==== Proof.RefFeat.lean ====
import proofs.«178126_g73521250173546_cont_sun_c4_545_6_alg».proof.Proof.RefRead
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem
open Cert.ReferenceIdeal Cert.ReferenceIdeal.Gen Cert.ReferenceIdeal.Read
open ValueIdx (ix1 ix2)

/-! # The reference's two graph-convolution layers and the joined features, entry by entry -/

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## Where each product reads its operands: row r of the left, column q of the right, at the summed position -/

theorem lidx_v0_at (k : Fin 10000) (q l : Fin 128) : lidx_main_v0 (ix2 k q) l = ix2 k l :=
  funext fun a => Fin.ext (by match a with | ⟨0, _⟩ => rfl | ⟨1, _⟩ => rfl)
theorem ridx_v0_at (k : Fin 10000) (q l : Fin 128) : ridx_main_v0 (ix2 k q) l = ix2 l q :=
  funext fun a => Fin.ext (by match a with | ⟨0, _⟩ => rfl | ⟨1, _⟩ => rfl)
theorem lidx_v1_at (r : Fin 10000) (q : Fin 128) (k : Fin 10000) : lidx_main_v1 (ix2 r q) k = ix2 r k :=
  funext fun a => Fin.ext (by match a with | ⟨0, _⟩ => rfl | ⟨1, _⟩ => rfl)
theorem ridx_v1_at (r : Fin 10000) (q : Fin 128) (k : Fin 10000) : ridx_main_v1 (ix2 r q) k = ix2 k q :=
  funext fun a => Fin.ext (by match a with | ⟨0, _⟩ => rfl | ⟨1, _⟩ => rfl)
theorem lidx_v6_at (k : Fin 10000) (q : Fin 64) (l : Fin 128) : lidx_main_v6 (ix2 k q) l = ix2 k l :=
  funext fun a => Fin.ext (by match a with | ⟨0, _⟩ => rfl | ⟨1, _⟩ => rfl)
theorem ridx_v6_at (k : Fin 10000) (q : Fin 64) (l : Fin 128) : ridx_main_v6 (ix2 k q) l = ix2 l q :=
  funext fun a => Fin.ext (by match a with | ⟨0, _⟩ => rfl | ⟨1, _⟩ => rfl)
theorem lidx_v7_at (r : Fin 10000) (q : Fin 64) (k : Fin 10000) : lidx_main_v7 (ix2 r q) k = ix2 r k :=
  funext fun a => Fin.ext (by match a with | ⟨0, _⟩ => rfl | ⟨1, _⟩ => rfl)
theorem ridx_v7_at (r : Fin 10000) (q : Fin 64) (k : Fin 10000) : ridx_main_v7 (ix2 r q) k = ix2 k q :=
  funext fun a => Fin.ext (by match a with | ⟨0, _⟩ => rfl | ⟨1, _⟩ => rfl)
/-- A bias spread over the rows is read at the column alone. -/
theorem bias_v3_at (r : Fin 10000) (q : Fin 128) : idx_main_v2 (idx_main_v3 (ix2 r q)) = ix1 q :=
  funext fun a => Fin.ext (by match a with | ⟨0, _⟩ => rfl)
theorem bias_v9_at (r : Fin 10000) (q : Fin 64) : idx_main_v8 (idx_main_v9 (ix2 r q)) = ix1 q :=
  funext fun a => Fin.ext (by match a with | ⟨0, _⟩ => rfl)

/-! ## The first layer -/

/-- The support of the first layer: the features times the first weight. -/
theorem v0_at (k : Fin 10000) (q : Fin 128) :
    val_main_v0 (F := Ideal) x0 x2 (ix2 k q) = Cert.Spec.mm (fun a b => x0 (ix2 a b)) (fun a b => x2 (ix2 a b)) k q := by
  rw [val_main_v0_apply]
  exact Finset.sum_congr rfl fun l _ => by rw [lidx_v0_at, ridx_v0_at]

/-- The adjacency times that support. -/
theorem v1_at (r : Fin 10000) (q : Fin 128) :
    val_main_v1 (F := Ideal) x0 x1 x2 (ix2 r q)
      = Cert.Spec.mm (fun a b => x1 (ix2 a b)) (Cert.Spec.mm (fun a b => x0 (ix2 a b)) (fun a b => x2 (ix2 a b))) r q := by
  rw [val_main_v1_apply]
  exact Finset.sum_congr rfl fun k _ => by rw [lidx_v1_at, ridx_v1_at, v0_at]

/-- The first bias, spread over the rows. -/
theorem v3_at (r : Fin 10000) (q : Fin 128) : val_main_v3 (F := Ideal) x3 (ix2 r q) = x3 (ix1 q) := by
  rw [val_main_v3_apply, val_main_v2_apply, bias_v3_at]

end Stages

/-- The reference's first layer (its tanh of the adjacency times the support plus the bias) is the specification's. -/
theorem ref_x1 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (r : Fin 10000) (q : Fin 128) :
    val_main_v5 (F := Ideal) x0 x1 x2 x3 (ix2 r q) = Cert.Spec.x1 (fun a b => x0 (ix2 a b)) (fun a b => x1 (ix2 a b)) (fun a b => x2 (ix2 a b)) (fun a => x3 (ix1 a)) r q := by
  rw [val_main_v5_apply, val_main_v4_apply, v1_at, v3_at]
  rfl

section Stages2

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## The second layer -/

/-- The support of the second layer: the first layer's output times the second weight. -/
theorem v6_at (k : Fin 10000) (q : Fin 64) :
    val_main_v6 (F := Ideal) x0 x1 x2 x3 x4 (ix2 k q)
      = Cert.Spec.mm (Cert.Spec.x1 (fun a b => x0 (ix2 a b)) (fun a b => x1 (ix2 a b)) (fun a b => x2 (ix2 a b)) (fun a => x3 (ix1 a)))
          (fun a b => x4 (ix2 a b)) k q := by
  rw [val_main_v6_apply]
  exact Finset.sum_congr rfl fun l _ => by rw [lidx_v6_at, ridx_v6_at, ref_x1]

/-- The adjacency times that support. -/
theorem v7_at (r : Fin 10000) (q : Fin 64) :
    val_main_v7 (F := Ideal) x0 x1 x2 x3 x4 (ix2 r q)
      = Cert.Spec.mm (fun a b => x1 (ix2 a b))
          (Cert.Spec.mm (Cert.Spec.x1 (fun a b => x0 (ix2 a b)) (fun a b => x1 (ix2 a b)) (fun a b => x2 (ix2 a b)) (fun a => x3 (ix1 a)))
            (fun a b => x4 (ix2 a b))) r q := by
  rw [val_main_v7_apply]
  exact Finset.sum_congr rfl fun k _ => by rw [lidx_v7_at, ridx_v7_at, v6_at]

/-- The second bias, spread over the rows. -/
theorem v9_at (r : Fin 10000) (q : Fin 64) : val_main_v9 (F := Ideal) x5 (ix2 r q) = x5 (ix1 q) := by
  rw [val_main_v9_apply, val_main_v8_apply, bias_v9_at]

end Stages2

/-- The reference's second layer is the specification's. -/
theorem ref_x2 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 10000) (q : Fin 64) :
    val_main_v11 (F := Ideal) x0 x1 x2 x3 x4 x5 (ix2 r q) = Cert.Spec.x2 (fun a b => x0 (ix2 a b)) (fun a b => x1 (ix2 a b)) (fun a b => x2 (ix2 a b)) (fun a => x3 (ix1 a)) (fun a b => x4 (ix2 a b)) (fun a => x5 (ix1 a)) r q := by
  rw [val_main_v11_apply, val_main_v10_apply, v7_at, v9_at]
  rfl

/-! ## The joined features -/

/-- Joining two rows and reading below the first row's length reads the first row. -/
theorem append_of_lt {α : Type} {m n : Nat} (f : Fin m → α) (g : Fin n → α) (j : Fin (m + n)) (h : j.val < m) :
    Fin.append f g j = f ⟨j.val, h⟩ :=
  (congrArg (Fin.append f g) (Fin.ext rfl : j = Fin.castAdd n ⟨j.val, h⟩)).trans (Fin.append_left f g _)

/-- Reading at or past the first row's length reads the second row, that length less. -/
theorem append_of_ge {α : Type} {m n : Nat} (f : Fin m → α) (g : Fin n → α) (j : Fin (m + n)) (h : m ≤ j.val) :
    Fin.append f g j = g ⟨j.val - m, by have := j.isLt; omega⟩ :=
  (congrArg (Fin.append f g) (Fin.ext (by show j.val = m + (j.val - m); omega) : j = Fin.natAdd m ⟨j.val - m, by have := j.isLt; omega⟩)).trans
    (Fin.append_right f g _)

/-- The reference's concatenation of the two layers along the columns is the specification's joined features. -/
theorem ref_zn (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (r : Fin 10000) (j : Fin 192) :
    val_main_v12 (F := Ideal) x0 x1 x2 x3 x4 x5 (ix2 r j) = Cert.Spec.zn (fun a b => x0 (ix2 a b)) (fun a b => x1 (ix2 a b)) (fun a b => x2 (ix2 a b)) (fun a => x3 (ix1 a)) (fun a b => x4 (ix2 a b)) (fun a => x5 (ix1 a)) r j := by
  unfold Cert.Spec.zn
  by_cases h : j.val < 128
  · refine Eq.trans ?_ (append_of_lt (m := 128) (n := 64) _ _ j h).symm
    rw [← ref_x1 x0 x1 x2 x3 r ⟨j.val, h⟩]
    unfold val_main_v12
    exact concatenate_pair_apply_left (t := S10000x192) (s₁ := S10000x128) (s₂ := S10000x64) 1 _ _ _ (ix2 r j) rfl
      (ix2 r (⟨j.val, h⟩ : Fin 128)) (fun b => by
        match b with
        | ⟨0, _⟩ => rfl
        | ⟨1, _⟩ => rfl)
  · have h' : 128 ≤ j.val := Nat.le_of_not_lt h
    refine Eq.trans ?_ (append_of_ge (m := 128) (n := 64) _ _ j h').symm
    rw [← ref_x2 x0 x1 x2 x3 x4 x5 r ⟨j.val - 128, by have := j.isLt; omega⟩]
    unfold val_main_v12
    exact concatenate_pair_apply_right (t := S10000x192) (s₁ := S10000x128) (s₂ := S10000x64) 1 _ _ _ (ix2 r j) rfl rfl
      (ix2 r (⟨j.val - 128, by have := j.isLt; omega⟩ : Fin 64))
      (fun b hb => by
        match b with
        | ⟨0, _⟩ => rfl
        | ⟨1, _⟩ => exact absurd rfl hb)
      (by show j.val - 128 + 128 = j.val; omega)

end Cert.ReferenceIdeal.RefVal
end
-- ==== Proof.RefRec.lean ====
import proofs.«178126_g73521250173546_cont_sun_c4_545_6_alg».proof.Proof.RefRead
import proofs.«178126_g73521250173546_cont_sun_c4_545_6_alg».proof.Proof.RefFeat
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem
open Cert.ReferenceIdeal Cert.ReferenceIdeal.Gen Cert.ReferenceIdeal.Read
open ValueIdx (ix1 ix2)

/-! # The reference's reconstruction head, entry by entry -/

section Head

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x20 : (⟨S256x192, .f32⟩ : BufTy).Contents (Elt Ideal)) (x21 : (⟨S256, .f32⟩ : BufTy).Contents (Elt Ideal))
  (x22 : (⟨S128x256, .f32⟩ : BufTy).Contents (Elt Ideal)) (x23 : (⟨S128, .f32⟩ : BufTy).Contents (Elt Ideal))
  (x24 : (⟨S128x128, .f32⟩ : BufTy).Contents (Elt Ideal)) (x25 : (⟨S128, .f32⟩ : BufTy).Contents (Elt Ideal))

/-! ## Where each stage reads its operands

A weight is held as (outputs, inputs): the transposed weight at (input k, output c) is the weight at (c, k). A product
reads row r of the left operand and column c of the right at the summed position; a bias spread over the rows is read
at the column alone. -/

theorem idx_v61_at (k : Fin 192) (i : Fin 256) : idx_main_v61 (ix2 k i) = ix2 i k :=
  funext fun a => Fin.ext (by match a with | ⟨0, _⟩ => rfl | ⟨1, _⟩ => rfl)
theorem lidx_v62_at (r : Fin 10000) (i : Fin 256) (k : Fin 192) : lidx_main_v62 (ix2 r i) k = ix2 r k :=
  funext fun a => Fin.ext (by match a with | ⟨0, _⟩ => rfl | ⟨1, _⟩ => rfl)
theorem ridx_v62_at (r : Fin 10000) (i : Fin 256) (k : Fin 192) : ridx_main_v62 (ix2 r i) k = ix2 k i :=
  funext fun a => Fin.ext (by match a with | ⟨0, _⟩ => rfl | ⟨1, _⟩ => rfl)
theorem bias_v64_at (r : Fin 10000) (i : Fin 256) : idx_main_v63 (idx_main_v64 (ix2 r i)) = ix1 i :=
  funext fun a => Fin.ext (by match a with | ⟨0, _⟩ => rfl)
theorem idx_v67_at (k : Fin 256) (j : Fin 128) : idx_main_v67 (ix2 k j) = ix2 j k :=
  funext fun a => Fin.ext (by match a with | ⟨0, _⟩ => rfl | ⟨1, _⟩ => rfl)
theorem lidx_v68_at (r : Fin 10000) (j : Fin 128) (k : Fin 256) : lidx_main_v68 (ix2 r j) k = ix2 r k :=
  funext fun a => Fin.ext (by match a with | ⟨0, _⟩ => rfl | ⟨1, _⟩ => rfl)
theorem ridx_v68_at (r : Fin 10000) (j : Fin 128) (k : Fin 256) : ridx_main_v68 (ix2 r j) k = ix2 k j :=
  funext fun a => Fin.ext (by match a with | ⟨0, _⟩ => rfl | ⟨1, _⟩ => rfl)
theorem bias_v70_at (r : Fin 10000) (j : Fin 128) : idx_main_v69 (idx_main_v70 (ix2 r j)) = ix1 j :=
  funext fun a => Fin.ext (by match a with | ⟨0, _⟩ => rfl)
theorem idx_v73_at (k q : Fin 128) : idx_main_v73 (ix2 k q) = ix2 q k :=
  funext fun a => Fin.ext (by match a with | ⟨0, _⟩ => rfl | ⟨1, _⟩ => rfl)
theorem lidx_v74_at (r : Fin 10000) (q k : Fin 128) : lidx_main_v74 (ix2 r q) k = ix2 r k :=
  funext fun a => Fin.ext (by match a with | ⟨0, _⟩ => rfl | ⟨1, _⟩ => rfl)
theorem ridx_v74_at (r : Fin 10000) (q k : Fin 128) : ridx_main_v74 (ix2 r q) k = ix2 k q :=
  funext fun a => Fin.ext (by match a with | ⟨0, _⟩ => rfl | ⟨1, _⟩ => rfl)
theorem bias_v76_at (r : Fin 10000) (q : Fin 128) : idx_main_v75 (idx_main_v76 (ix2 r q)) = ix1 q :=
  funext fun a => Fin.ext (by match a with | ⟨0, _⟩ => rfl)

/-! ## The first linear layer and its rectifier -/

/-- The joined features times the transposed first weight: a sum over all 192 joined inputs. -/
theorem v62_at (r : Fin 10000) (i : Fin 256) :
    val_main_v62 (F := Ideal) x0 x1 x2 x3 x4 x5 x20 (ix2 r i)
      = ∑ k : Fin 192, Cert.Spec.zn (fun a b => x0 (ix2 a b)) (fun a b => x1 (ix2 a b)) (fun a b => x2 (ix2 a b)) (fun a => x3 (ix1 a)) (fun a b => x4 (ix2 a b)) (fun a => x5 (ix1 a)) r k * x20 (ix2 i k) := by
  rw [val_main_v62_apply]
  exact Finset.sum_congr rfl fun k _ => by rw [lidx_v62_at, ridx_v62_at, ref_zn, val_main_v61_apply, idx_v61_at]

/-- The first bias, spread over the rows. -/
theorem v64_at (r : Fin 10000) (i : Fin 256) : val_main_v64 (F := Ideal) x21 (ix2 r i) = x21 (ix1 i) := by
  rw [val_main_v64_apply, val_main_v63_apply, bias_v64_at]

/-- The first linear layer: the sum over the 192 joined inputs is the specification's split sum. -/
theorem h1_at (r : Fin 10000) (i : Fin 256) :
    val_main_v65 (F := Ideal) x0 x1 x2 x3 x4 x5 x20 x21 (ix2 r i) = Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i := by
  rw [val_main_v65_apply, v62_at, v64_at]
  exact Cert.Spec.lin2_eq_lin (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i

/-- The rectifier's zero, spread over the array. -/
theorem zero3_at (i : S10000x256.Idx) : val_main_call3_v0 (F := Ideal) i = Cert.Spec.zero :=
  (val_main_call3_v0_apply (F := Ideal) i).trans (val_main_call3_cst_apply (F := Ideal) _)

/-- The first hidden layer. -/
theorem r1_at (r : Fin 10000) (i : Fin 256) :
    val_main_v66 (F := Ideal) x0 x1 x2 x3 x4 x5 x20 x21 (ix2 r i) = Cert.Spec.relu (Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i) := by
  rw [val_main_v66_apply, h1_at, zero3_at]
  rfl

/-! ## The second linear layer and its rectifier -/

theorem v68_at (r : Fin 10000) (j : Fin 128) :
    val_main_v68 (F := Ideal) x0 x1 x2 x3 x4 x5 x20 x21 x22 (ix2 r j)
      = ∑ k : Fin 256, Cert.Spec.relu (Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) k) * x22 (ix2 j k) := by
  rw [val_main_v68_apply]
  exact Finset.sum_congr rfl fun k _ => by rw [lidx_v68_at, ridx_v68_at, r1_at, val_main_v67_apply, idx_v67_at]

theorem v70_at (r : Fin 10000) (j : Fin 128) : val_main_v70 (F := Ideal) x23 (ix2 r j) = x23 (ix1 j) := by
  rw [val_main_v70_apply, val_main_v69_apply, bias_v70_at]

theorem h2_at (r : Fin 10000) (j : Fin 128) :
    val_main_v71 (F := Ideal) x0 x1 x2 x3 x4 x5 x20 x21 x22 x23 (ix2 r j) = Cert.Spec.lin (fun i : Fin 256 => Cert.Spec.relu (Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i)) (fun a b => x22 (ix2 a b)) (fun a => x23 (ix1 a)) j := by
  rw [val_main_v71_apply, v68_at, v70_at]
  rfl

theorem zero4_at (i : S10000x128.Idx) : val_main_call4_v0 (F := Ideal) i = Cert.Spec.zero :=
  (val_main_call4_v0_apply (F := Ideal) i).trans (val_main_call4_cst_apply (F := Ideal) _)

/-- The second hidden layer. -/
theorem r2_at (r : Fin 10000) (j : Fin 128) :
    val_main_v72 (F := Ideal) x0 x1 x2 x3 x4 x5 x20 x21 x22 x23 (ix2 r j) = Cert.Spec.relu (Cert.Spec.lin (fun i : Fin 256 => Cert.Spec.relu (Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i)) (fun a b => x22 (ix2 a b)) (fun a => x23 (ix1 a)) j) := by
  rw [val_main_v72_apply, h2_at, zero4_at]
  rfl

/-! ## The third linear layer -/

theorem v74_at (r : Fin 10000) (q : Fin 128) :
    val_main_v74 (F := Ideal) x0 x1 x2 x3 x4 x5 x20 x21 x22 x23 x24 (ix2 r q)
      = ∑ k : Fin 128, Cert.Spec.relu (Cert.Spec.lin (fun i : Fin 256 => Cert.Spec.relu (Cert.Spec.lin2 (Cert.Spec.x1 (fun a b => x0 (ix2 a b)) (fun a b => x1 (ix2 a b)) (fun a b => x2 (ix2 a b)) (fun a => x3 (ix1 a)) r) (Cert.Spec.x2 (fun a b => x0 (ix2 a b)) (fun a b => x1 (ix2 a b)) (fun a b => x2 (ix2 a b)) (fun a => x3 (ix1 a)) (fun a b => x4 (ix2 a b)) (fun a => x5 (ix1 a)) r) (fun a b => x20 (ix2 a b)) (fun a => x21 (ix1 a)) i)) (fun a b => x22 (ix2 a b)) (fun a => x23 (ix1 a)) k) * x24 (ix2 q k) := by
  rw [val_main_v74_apply]
  exact Finset.sum_congr rfl fun k _ => by rw [lidx_v74_at, ridx_v74_at, r2_at, val_main_v73_apply, idx_v73_at]

theorem v76_at (r : Fin 10000) (q : Fin 128) : val_main_v76 (F := Ideal) x25 (ix2 r q) = x25 (ix1 q) := by
  rw [val_main_v76_apply, val_main_v75_apply, bias_v76_at]

end Head

/-- The reference's reconstruction head (three linear layers, rectifiers after the first two, on the joined features) is
    the specification's. -/
theorem ref_rec (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x20 : (⟨S256x192, .f32⟩ : BufTy).Contents (Elt Ideal)) (x21 : (⟨S256, .f32⟩ : BufTy).Contents (Elt Ideal)) (x22 : (⟨S128x256, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (r : Fin 10000) (q : Fin 128) :
    val_main_v77 (F := Ideal) x0 x1 x2 x3 x4 x5 x20 x21 x22 x23 x24 x25 (ix2 r q) = Cert.Spec.rec (fun a b => x0 (ix2 a b)) (fun a b => x1 (ix2 a b)) (fun a b => x2 (ix2 a b)) (fun a => x3 (ix1 a)) (fun a b => x4 (ix2 a b)) (fun a => x5 (ix1 a)) (fun a b => x20 (ix2 a b)) (fun a => x21 (ix1 a)) (fun a b => x22 (ix2 a b)) (fun a => x23 (ix1 a)) (fun a b => x24 (ix2 a b)) (fun a => x25 (ix1 a)) r q := by
  rw [val_main_v77_apply, v74_at, v76_at]
  rfl

end Cert.ReferenceIdeal.RefVal
end
-- ==== Proof.RefCls.lean ====
import proofs.«178126_g73521250173546_cont_sun_c4_545_6_alg».proof.Proof.RefRead
import proofs.«178126_g73521250173546_cont_sun_c4_545_6_alg».proof.Proof.RefFeat
import proofs.«178126_g73521250173546_cont_sun_c4_545_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.TcCoe Idealize.SL.Sem
open Cert.ReferenceIdeal Cert.ReferenceIdeal.Gen Cert.ReferenceIdeal.Read
open ValueIdx (ix1 ix2)

/-! # The reference's classifier head, entry by entry -/

section Head

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S256x192, .f32⟩ : BufTy).Contents (Elt Ideal)) (x7 x8 x9 x10 x11 : (⟨S256, .f32⟩ : BufTy).Contents (Elt Ideal))
  (x12 : (⟨S128x256, .f32⟩ : BufTy).Contents (Elt Ideal)) (x13 x14 x15 x16 x17 : (⟨S128, .f32⟩ : BufTy).Contents (Elt Ideal))
  (x18 : (⟨S10x128, .f32⟩ : BufTy).Contents (Elt Ideal)) (x19 : (⟨S10, .f32⟩ : BufTy).Contents (Elt Ideal))

/-- Row r of the first graph-convolution layer's output, as the specification states it. -/
abbrev cls_feat1 (r : Fin 10000) : Fin 128 → EReal :=
  Cert.Spec.x1 (fun a b => x0 (ix2 a b)) (fun a b => x1 (ix2 a b)) (fun a b => x2 (ix2 a b)) (fun a => x3 (ix1 a)) r

/-- Row r of the second graph-convolution layer's output, as the specification states it. -/
abbrev cls_feat2 (r : Fin 10000) : Fin 64 → EReal :=
  Cert.Spec.x2 (fun a b => x0 (ix2 a b)) (fun a b => x1 (ix2 a b)) (fun a b => x2 (ix2 a b)) (fun a => x3 (ix1 a))
    (fun a b => x4 (ix2 a b)) (fun a => x5 (ix1 a)) r

/-! ## The first linear layer

The weight is held as (outputs, inputs): the reference transposes it and contracts the joined features of row r
against column c of the transpose, which is row c of the weight. The sum over all 192 joined features, split
128 + 64, is the specification's. -/

theorem cls_lin1_at (r : Fin 10000) (c : Fin 256) :
    val_main_v17 (F := Ideal) x0 x1 x2 x3 x4 x5 x6 x7 (ix2 r c)
      = Cert.Spec.lin2 (cls_feat1 x0 x1 x2 x3 r) (cls_feat2 x0 x1 x2 x3 x4 x5 r) (fun a b => x6 (ix2 a b)) (fun a => x7 (ix1 a)) c := by
  have el : ∀ k : Fin 192, lidx_main_v14 (ix2 r c) k = ix2 r k := fun k =>
    funext fun a => Fin.ext (by match a with | ⟨0, _⟩ => rfl | ⟨1, _⟩ => rfl)
  have er : ∀ k : Fin 192, idx_main_v13 (ridx_main_v14 (ix2 r c) k) = ix2 c k := fun k =>
    funext fun a => Fin.ext (by match a with | ⟨0, _⟩ => rfl | ⟨1, _⟩ => rfl)
  have eb : idx_main_v15 (idx_main_v16 (ix2 r c)) = ix1 c :=
    funext fun a => Fin.ext (by match a with | ⟨0, _⟩ => rfl)
  rw [val_main_v17_apply, val_main_v14_apply, val_main_v16_apply, val_main_v15_apply, eb, ← Cert.Spec.lin2_eq_lin]
  simp only [val_main_v13_apply, el, er, ref_zn]
  rfl

/-! ## The first batch normalisation and rectifier

Each of the four per-channel vectors (running mean, running variance, scale, shift) is broadcast along the rows, so
at (r, c) it is read at c. -/

theorem cls_bn1_at (r : Fin 10000) (c : Fin 256) :
    val_main_v32 (F := Ideal) x0 x1 x2 x3 x4 x5 x6 x7 x8 x9 x10 x11 (ix2 r c)
      = Cert.Spec.bn (val_main_v17 (F := Ideal) x0 x1 x2 x3 x4 x5 x6 x7 (ix2 r c)) (x10 (ix1 c)) (x11 (ix1 c)) (x8 (ix1 c)) (x9 (ix1 c)) := by
  have em : idx_main_v18 (idx_main_v19 (ix2 r c)) = ix1 c :=
    funext fun a => Fin.ext (by match a with | ⟨0, _⟩ => rfl)
  have ev : idx_main_v24 (idx_main_v25 (ix2 r c)) = ix1 c :=
    funext fun a => Fin.ext (by match a with | ⟨0, _⟩ => rfl)
  have eg : idx_main_v27 (idx_main_v28 (ix2 r c)) = ix1 c :=
    funext fun a => Fin.ext (by match a with | ⟨0, _⟩ => rfl)
  have es : idx_main_v30 (idx_main_v31 (ix2 r c)) = ix1 c :=
    funext fun a => Fin.ext (by match a with | ⟨0, _⟩ => rfl)
  rw [val_main_v32_apply, val_main_v29_apply, val_main_v26_apply, val_main_v20_apply, val_main_v19_apply, val_main_v18_apply, em,
    val_main_v25_apply, val_main_v24_apply, ev, val_main_v23_apply, val_main_v22_apply, val_main_v21_apply, val_main_cst_apply,
    val_main_v28_apply, val_main_v27_apply, eg, val_main_v31_apply, val_main_v30_apply, es]
  rfl

theorem cls_relu1_at (r : Fin 10000) (c : Fin 256) :
    val_main_v33 (F := Ideal) x0 x1 x2 x3 x4 x5 x6 x7 x8 x9 x10 x11 (ix2 r c) = Cert.Spec.relu (val_main_v32 (F := Ideal) x0 x1 x2 x3 x4 x5 x6 x7 x8 x9 x10 x11 (ix2 r c)) := by
  rw [val_main_v33_apply, val_main_call0_v0_apply, val_main_call0_cst_apply]
  rfl

/-! ## The second linear layer, batch normalisation and rectifier -/

theorem cls_lin2_at (r : Fin 10000) (j : Fin 128) :
    val_main_v38 (F := Ideal) x0 x1 x2 x3 x4 x5 x6 x7 x8 x9 x10 x11 x12 x13 (ix2 r j)
      = Cert.Spec.lin (fun i : Fin 256 => val_main_v33 (F := Ideal) x0 x1 x2 x3 x4 x5 x6 x7 x8 x9 x10 x11 (ix2 r i))
          (fun a b => x12 (ix2 a b)) (fun a => x13 (ix1 a)) j := by
  have el : ∀ k : Fin 256, lidx_main_v35 (ix2 r j) k = ix2 r k := fun k =>
    funext fun a => Fin.ext (by match a with | ⟨0, _⟩ => rfl | ⟨1, _⟩ => rfl)
  have er : ∀ k : Fin 256, idx_main_v34 (ridx_main_v35 (ix2 r j) k) = ix2 j k := fun k =>
    funext fun a => Fin.ext (by match a with | ⟨0, _⟩ => rfl | ⟨1, _⟩ => rfl)
  have eb : idx_main_v36 (idx_main_v37 (ix2 r j)) = ix1 j :=
    funext fun a => Fin.ext (by match a with | ⟨0, _⟩ => rfl)
  rw [val_main_v38_apply, val_main_v35_apply, val_main_v37_apply, val_main_v36_apply, eb]
  simp only [val_main_v34_apply, el, er]
  rfl

theorem cls_bn2_at (r : Fin 10000) (j : Fin 128) :
    val_main_v53 (F := Ideal) x0 x1 x2 x3 x4 x5 x6 x7 x8 x9 x10 x11 x12 x13 x14 x15 x16 x17 (ix2 r j)
      = Cert.Spec.bn (val_main_v38 (F := Ideal) x0 x1 x2 x3 x4 x5 x6 x7 x8 x9 x10 x11 x12 x13 (ix2 r j)) (x16 (ix1 j)) (x17 (ix1 j)) (x14 (ix1 j)) (x15 (ix1 j)) := by
  have em : idx_main_v39 (idx_main_v40 (ix2 r j)) = ix1 j :=
    funext fun a => Fin.ext (by match a with | ⟨0, _⟩ => rfl)
  have ev : idx_main_v45 (idx_main_v46 (ix2 r j)) = ix1 j :=
    funext fun a => Fin.ext (by match a with | ⟨0, _⟩ => rfl)
  have eg : idx_main_v48 (idx_main_v49 (ix2 r j)) = ix1 j :=
    funext fun a => Fin.ext (by match a with | ⟨0, _⟩ => rfl)
  have es : idx_main_v51 (idx_main_v52 (ix2 r j)) = ix1 j :=
    funext fun a => Fin.ext (by match a with | ⟨0, _⟩ => rfl)
  rw [val_main_v53_apply, val_main_v50_apply, val_main_v47_apply, val_main_v41_apply, val_main_v40_apply, val_main_v39_apply, em,
    val_main_v46_apply, val_main_v45_apply, ev, val_main_v44_apply, val_main_v43_apply, val_main_v42_apply, val_main_cst_0_apply,
    val_main_v49_apply, val_main_v48_apply, eg, val_main_v52_apply, val_main_v51_apply, es]
  rfl

theorem cls_relu2_at (r : Fin 10000) (j : Fin 128) :
    val_main_v54 (F := Ideal) x0 x1 x2 x3 x4 x5 x6 x7 x8 x9 x10 x11 x12 x13 x14 x15 x16 x17 (ix2 r j) = Cert.Spec.relu (val_main_v53 (F := Ideal) x0 x1 x2 x3 x4 x5 x6 x7 x8 x9 x10 x11 x12 x13 x14 x15 x16 x17 (ix2 r j)) := by
  rw [val_main_v54_apply, val_main_call1_v0_apply, val_main_call1_cst_apply]
  rfl

/-! ## The third linear layer -/

theorem cls_lin3_at (r : Fin 10000) (q : Fin 10) :
    val_main_v59 (F := Ideal) x0 x1 x2 x3 x4 x5 x6 x7 x8 x9 x10 x11 x12 x13 x14 x15 x16 x17 x18 x19 (ix2 r q)
      = Cert.Spec.lin (fun j : Fin 128 => val_main_v54 (F := Ideal) x0 x1 x2 x3 x4 x5 x6 x7 x8 x9 x10 x11 x12 x13 x14 x15 x16 x17 (ix2 r j))
          (fun a b => x18 (ix2 a b)) (fun a => x19 (ix1 a)) q := by
  have el : ∀ k : Fin 128, lidx_main_v56 (ix2 r q) k = ix2 r k := fun k =>
    funext fun a => Fin.ext (by match a with | ⟨0, _⟩ => rfl | ⟨1, _⟩ => rfl)
  have er : ∀ k : Fin 128, idx_main_v55 (ridx_main_v56 (ix2 r q) k) = ix2 q k := fun k =>
    funext fun a => Fin.ext (by match a with | ⟨0, _⟩ => rfl | ⟨1, _⟩ => rfl)
  have eb : idx_main_v57 (idx_main_v58 (ix2 r q)) = ix1 q :=
    funext fun a => Fin.ext (by match a with | ⟨0, _⟩ => rfl)
  rw [val_main_v59_apply, val_main_v56_apply, val_main_v58_apply, val_main_v57_apply, eb]
  simp only [val_main_v55_apply, el, er]
  rfl

/-! ## The row-wise log-softmax

The reduced index r with column k put back is (r, k); the row maximum is the fold of the maximum from minus
infinity over the ten columns, and the reference's further maximum with minus infinity changes nothing. -/

theorem cls_lift_row (h : S10000x10.Reduces [1] S10000) (r : Fin 10000) (k : Fin (S10000x10.size 1)) :
    h.lift (ix1 r) k = ix2 r (⟨k.val, k.isLt⟩ : Fin 10) := by
  funext c; apply Fin.ext
  fin_cases c <;> rfl

theorem cls_rowmax_at (r : Fin 10000) :
    val_main_call2_v0 (F := Ideal) x0 x1 x2 x3 x4 x5 x6 x7 x8 x9 x10 x11 x12 x13 x14 x15 x16 x17 x18 x19 (ix1 r)
      = Cert.Spec.rowmax (fun q : Fin 10 => val_main_v59 (F := Ideal) x0 x1 x2 x3 x4 x5 x6 x7 x8 x9 x10 x11 x12 x13 x14 x15 x16 x17 x18 x19 (ix2 r q)) := by
  unfold val_main_call2_v0
  generalize val_main_v59 (F := Ideal) x0 x1 x2 x3 x4 x5 x6 x7 x8 x9 x10 x11 x12 x13 x14 x15 x16 x17 x18 x19 = y
  have h : S10000x10.Reduces [1] S10000 := by decide
  refine (Host.reduce_eq_fold_single (s := S10000x10) (α := Ideal .f32) FloatOps.maximumf y _
    reducesTo_S10000x10_S10000_d1 h h_S_ (ix1 r)).trans ?_
  have hf : (y ∘ h.lift (ix1 r)) = fun k : Fin 10 => y (ix2 r k) := funext fun k => congrArg y (cls_lift_row h r k)
  exact congrArg (fun f => Finset.fold max (Ideal.ofBits .f32 0xFF800000#32) f (Finset.univ : Finset (Fin 10))) hf

theorem cls_shift_at (r : Fin 10000) (q : Fin 10) :
    val_main_call2_v5 (F := Ideal) x0 x1 x2 x3 x4 x5 x6 x7 x8 x9 x10 x11 x12 x13 x14 x15 x16 x17 x18 x19 (ix2 r q)
      = val_main_v59 (F := Ideal) x0 x1 x2 x3 x4 x5 x6 x7 x8 x9 x10 x11 x12 x13 x14 x15 x16 x17 x18 x19 (ix2 r q)
          - Cert.Spec.rowmax (fun q' : Fin 10 => val_main_v59 (F := Ideal) x0 x1 x2 x3 x4 x5 x6 x7 x8 x9 x10 x11 x12 x13 x14 x15 x16 x17 x18 x19 (ix2 r q')) := by
  have e : idx_main_call2_v3 (idx_main_call2_v4 (ix2 r q)) = ix1 r :=
    funext fun a => Fin.ext (by match a with | ⟨0, _⟩ => rfl)
  rw [val_main_call2_v5_apply, val_main_call2_v4_apply, val_main_call2_v3_apply, e, val_main_call2_v2_apply,
    val_main_call2_v1_apply, val_main_call2_cst_0_apply, cls_rowmax_at]
  exact congrArg (val_main_v59 (F := Ideal) x0 x1 x2 x3 x4 x5 x6 x7 x8 x9 x10 x11 x12 x13 x14 x15 x16 x17 x18 x19 (ix2 r q) - ·) (Cert.Spec.max_ninf_rowmax _)

theorem cls_lse_at (r : Fin 10000) (q : Fin 10) :
    val_main_call2_v10 (F := Ideal) x0 x1 x2 x3 x4 x5 x6 x7 x8 x9 x10 x11 x12 x13 x14 x15 x16 x17 x18 x19 (ix2 r q)
      = Ideal.log (∑ k : Fin 10, Ideal.exp (val_main_v59 (F := Ideal) x0 x1 x2 x3 x4 x5 x6 x7 x8 x9 x10 x11 x12 x13 x14 x15 x16 x17 x18 x19 (ix2 r k)
          - Cert.Spec.rowmax (fun q' : Fin 10 => val_main_v59 (F := Ideal) x0 x1 x2 x3 x4 x5 x6 x7 x8 x9 x10 x11 x12 x13 x14 x15 x16 x17 x18 x19 (ix2 r q')))) := by
  have e : idx_main_call2_v8 (idx_main_call2_v10 (ix2 r q)) = ix1 r :=
    funext fun a => Fin.ext (by match a with | ⟨0, _⟩ => rfl)
  have ek : ∀ k : Fin 10, idx_main_call2_v7 (ix1 r) k = ix2 r k := fun k =>
    funext fun a => Fin.ext (by match a with | ⟨0, _⟩ => rfl | ⟨1, _⟩ => rfl)
  rw [val_main_call2_v10_apply, val_main_call2_v9_apply, val_main_call2_v8_apply, e, val_main_call2_v7_apply,
    val_main_call2_cst_1_apply, Ideal.ofBits_def, Ideal.ofBits_zero_f32, zero_add]
  simp only [ek, val_main_call2_v6_apply, cls_shift_at]
  rfl

theorem cls_logsm_at (r : Fin 10000) (q : Fin 10) :
    val_main_v60 (F := Ideal) x0 x1 x2 x3 x4 x5 x6 x7 x8 x9 x10 x11 x12 x13 x14 x15 x16 x17 x18 x19 (ix2 r q)
      = Cert.Spec.logsm (fun q' : Fin 10 => val_main_v59 (F := Ideal) x0 x1 x2 x3 x4 x5 x6 x7 x8 x9 x10 x11 x12 x13 x14 x15 x16 x17 x18 x19 (ix2 r q')) q := by
  rw [val_main_v60_apply, cls_shift_at, cls_lse_at]
  rfl

end Head

/-! ## The whole head -/

/-- The reference's classifier output at (r, q) is the specification's. -/
theorem ref_cls (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S256x192, .f32⟩ : BufTy).Contents (Elt Ideal)) (x7 : (⟨S256, .f32⟩ : BufTy).Contents (Elt Ideal)) (x8 : (⟨S256, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S128x256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S10x128, .f32⟩ : BufTy).Contents (Elt Ideal)) (x19 : (⟨S10, .f32⟩ : BufTy).Contents (Elt Ideal)) (r : Fin 10000) (q : Fin 10) :
    val_main_v60 (F := Ideal) x0 x1 x2 x3 x4 x5 x6 x7 x8 x9 x10 x11 x12 x13 x14 x15 x16 x17 x18 x19 (ix2 r q) = Cert.Spec.cls (fun a b => x0 (ix2 a b)) (fun a b => x1 (ix2 a b)) (fun a b => x2 (ix2 a b)) (fun a => x3 (ix1 a)) (fun a b => x4 (ix2 a b)) (fun a => x5 (ix1 a)) (fun a b => x6 (ix2 a b)) (fun a => x7 (ix1 a)) (fun a => x8 (ix1 a)) (fun a => x9 (ix1 a)) (fun a => x10 (ix1 a)) (fun a => x11 (ix1 a)) (fun a b => x12 (ix2 a b)) (fun a => x13 (ix1 a)) (fun a => x14 (ix1 a)) (fun a => x15 (ix1 a)) (fun a => x16 (ix1 a)) (fun a => x17 (ix1 a)) (fun a b => x18 (ix2 a b)) (fun a => x19 (ix1 a)) r q := by
  have h33 : ∀ c : Fin 256, val_main_v33 (F := Ideal) x0 x1 x2 x3 x4 x5 x6 x7 x8 x9 x10 x11 (ix2 r c)
      = Cert.Spec.relu (Cert.Spec.bn (Cert.Spec.lin2 (cls_feat1 x0 x1 x2 x3 r) (cls_feat2 x0 x1 x2 x3 x4 x5 r)
          (fun a b => x6 (ix2 a b)) (fun a => x7 (ix1 a)) c) (x10 (ix1 c)) (x11 (ix1 c)) (x8 (ix1 c)) (x9 (ix1 c))) := fun c => by
    rw [cls_relu1_at, cls_bn1_at, cls_lin1_at]
  have h54 : ∀ j : Fin 128, val_main_v54 (F := Ideal) x0 x1 x2 x3 x4 x5 x6 x7 x8 x9 x10 x11 x12 x13 x14 x15 x16 x17 (ix2 r j)
      = Cert.Spec.relu (Cert.Spec.bn (Cert.Spec.lin (fun i : Fin 256 =>
          Cert.Spec.relu (Cert.Spec.bn (Cert.Spec.lin2 (cls_feat1 x0 x1 x2 x3 r) (cls_feat2 x0 x1 x2 x3 x4 x5 r)
            (fun a b => x6 (ix2 a b)) (fun a => x7 (ix1 a)) i) (x10 (ix1 i)) (x11 (ix1 i)) (x8 (ix1 i)) (x9 (ix1 i))))
          (fun a b => x12 (ix2 a b)) (fun a => x13 (ix1 a)) j) (x16 (ix1 j)) (x17 (ix1 j)) (x14 (ix1 j)) (x15 (ix1 j))) := fun j => by
    rw [cls_relu2_at, cls_bn2_at, cls_lin2_at]
    simp only [h33]
  have h59 : ∀ q' : Fin 10, val_main_v59 (F := Ideal) x0 x1 x2 x3 x4 x5 x6 x7 x8 x9 x10 x11 x12 x13 x14 x15 x16 x17 x18 x19 (ix2 r q')
      = Cert.Spec.lin (fun j : Fin 128 =>
          Cert.Spec.relu (Cert.Spec.bn (Cert.Spec.lin (fun i : Fin 256 =>
            Cert.Spec.relu (Cert.Spec.bn (Cert.Spec.lin2 (cls_feat1 x0 x1 x2 x3 r) (cls_feat2 x0 x1 x2 x3 x4 x5 r)
              (fun a b => x6 (ix2 a b)) (fun a => x7 (ix1 a)) i) (x10 (ix1 i)) (x11 (ix1 i)) (x8 (ix1 i)) (x9 (ix1 i))))
            (fun a b => x12 (ix2 a b)) (fun a => x13 (ix1 a)) j) (x16 (ix1 j)) (x17 (ix1 j)) (x14 (ix1 j)) (x15 (ix1 j))))
          (fun a b => x18 (ix2 a b)) (fun a => x19 (ix1 a)) q' := fun q' => by
    rw [cls_lin3_at]
    simp only [h54]
  rw [cls_logsm_at]
  simp only [h59]
  rfl

end Cert.ReferenceIdeal.RefVal
end
-- ==== Proof.lean ====
/- The two programs compute one network, a two-layer graph convolution over a dense adjacency followed by a classifier
   head and a reconstruction head on the joined features. The kernel computes it in two passes over the adjacency, each
   pass keeping the product of the features with a weight in a scratch buffer written at the first grid point, and runs
   both heads on each tile of 400 rows; the reference computes it with whole-array operations. On the extended reals the
   two are equal entry by entry: the only differences are the tiling, the order of two sums (the 192 joined features
   summed as 128 + 64) and a maximum with minus infinity taken once more by the reference. Both are shown equal to one
   specification (Spec.lean). The frames say that each program terminates without a fault and leaves its arguments as
   launched: for the kernel, each call's body is run at a generic grid point under an invariant that names the scratch
   buffer's contents from the second point on. -/
import proofs.«178126_g73521250173546_cont_sun_c4_545_6_alg».proof.Defs
import proofs.«178126_g73521250173546_cont_sun_c4_545_6_alg».proof.Proof.Gen.Kernel
import proofs.«178126_g73521250173546_cont_sun_c4_545_6_alg».proof.Proof.Gen.KernelIdeal
import proofs.«178126_g73521250173546_cont_sun_c4_545_6_alg».proof.Proof.Gen.ReferenceIdeal
import proofs.«178126_g73521250173546_cont_sun_c4_545_6_alg».proof.Proof.Gen.Pre_finite_inputs
import proofs.«178126_g73521250173546_cont_sun_c4_545_6_alg».proof.Proof.K.Run
import proofs.«178126_g73521250173546_cont_sun_c4_545_6_alg».proof.Proof.KI.Run
import proofs.«178126_g73521250173546_cont_sun_c4_545_6_alg».proof.Proof.KI.Final
import proofs.«178126_g73521250173546_cont_sun_c4_545_6_alg».proof.Proof.RefRun
import proofs.«178126_g73521250173546_cont_sun_c4_545_6_alg».proof.Proof.RefRead
import proofs.«178126_g73521250173546_cont_sun_c4_545_6_alg».proof.Proof.RefFeat
import proofs.«178126_g73521250173546_cont_sun_c4_545_6_alg».proof.Proof.RefRec
import proofs.«178126_g73521250173546_cont_sun_c4_545_6_alg».proof.Proof.RefCls
import Idealize.ShloMosaic.Adequacy
import Idealize.ShloMosaic.Init

set_option maxRecDepth 16384

noncomputable section

namespace Cert.Proof

open Idealize.ShloMosaic Idealize.ShloMosaic.TcCoe Idealize.SL.Sem
open ValueIdx (ix1 ix2 eq_ix2)

/-- The word-level kernel terminates, faults nowhere and leaves its arguments as launched. -/
theorem frame_k : Cert.frame_Kernel := fun m ρ _ => Cert.Kernel.Fr.frame (F := Bits) m ρ
/-- So does the idealized kernel. -/
theorem frame_ki : Cert.frame_KernelIdeal := fun m ρ _ => Cert.KernelIdeal.Fr.frame (F := Ideal) m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)
/-- The idealization rewrote nothing. -/
theorem preserves : Cert.preserves_Kernel_KernelIdeal := trivial

/-- Run from memories that agree on the arguments, the two idealized programs end with equal results: each result array
    is, entry by entry, the specification's function of the arguments. -/
theorem algebraic : Cert.algebraic_KernelIdeal_ReferenceIdeal := by
  intro m ρ m' ρ' _ hagree
  refine ⟨fun c => Cert.KernelIdeal.Fr.W4 m c (Proc.devRef .tc Cert.KernelIdeal.main_v27_0), fun c => Cert.KernelIdeal.Fr.W4 m c (Proc.devRef .tc Cert.KernelIdeal.main_v27_1),
    fun c => Cert.KernelIdeal.Fr.W4 m c (Proc.devRef .tc Cert.KernelIdeal.main_v27_2), ?_, ?_⟩
  · exact (θ_run Cert.KernelIdeal.defs _ _).mono (fun r h c => ⟨(h c _ (Cert.KernelIdeal.Fr.mem_uc Cert.KernelIdeal.main_v27_0 (by decide))),
      (h c _ (Cert.KernelIdeal.Fr.mem_uc Cert.KernelIdeal.main_v27_1 (by decide))),
      (h c _ (Cert.KernelIdeal.Fr.mem_uc Cert.KernelIdeal.main_v27_2 (by decide))),
      ((h c _ (Cert.KernelIdeal.Fr.mem_uc Cert.KernelIdeal.main_arg0 (by decide))).trans (Cert.KernelIdeal.Fr.W4_main_arg0 m c)),
      ((h c _ (Cert.KernelIdeal.Fr.mem_uc Cert.KernelIdeal.main_arg1 (by decide))).trans (Cert.KernelIdeal.Fr.W4_main_arg1 m c)),
      ((h c _ (Cert.KernelIdeal.Fr.mem_uc Cert.KernelIdeal.main_arg2 (by decide))).trans (Cert.KernelIdeal.Fr.W4_main_arg2 m c)),
      ((h c _ (Cert.KernelIdeal.Fr.mem_uc Cert.KernelIdeal.main_arg3 (by decide))).trans (Cert.KernelIdeal.Fr.W4_main_arg3 m c)),
      ((h c _ (Cert.KernelIdeal.Fr.mem_uc Cert.KernelIdeal.main_arg4 (by decide))).trans (Cert.KernelIdeal.Fr.W4_main_arg4 m c)),
      ((h c _ (Cert.KernelIdeal.Fr.mem_uc Cert.KernelIdeal.main_arg5 (by decide))).trans (Cert.KernelIdeal.Fr.W4_main_arg5 m c)),
      ((h c _ (Cert.KernelIdeal.Fr.mem_uc Cert.KernelIdeal.main_arg6 (by decide))).trans (Cert.KernelIdeal.Fr.W4_main_arg6 m c)),
      ((h c _ (Cert.KernelIdeal.Fr.mem_uc Cert.KernelIdeal.main_arg7 (by decide))).trans (Cert.KernelIdeal.Fr.W4_main_arg7 m c)),
      ((h c _ (Cert.KernelIdeal.Fr.mem_uc Cert.KernelIdeal.main_arg8 (by decide))).trans (Cert.KernelIdeal.Fr.W4_main_arg8 m c)),
      ((h c _ (Cert.KernelIdeal.Fr.mem_uc Cert.KernelIdeal.main_arg9 (by decide))).trans (Cert.KernelIdeal.Fr.W4_main_arg9 m c)),
      ((h c _ (Cert.KernelIdeal.Fr.mem_uc Cert.KernelIdeal.main_arg10 (by decide))).trans (Cert.KernelIdeal.Fr.W4_main_arg10 m c)),
      ((h c _ (Cert.KernelIdeal.Fr.mem_uc Cert.KernelIdeal.main_arg11 (by decide))).trans (Cert.KernelIdeal.Fr.W4_main_arg11 m c)),
      ((h c _ (Cert.KernelIdeal.Fr.mem_uc Cert.KernelIdeal.main_arg12 (by decide))).trans (Cert.KernelIdeal.Fr.W4_main_arg12 m c)),
      ((h c _ (Cert.KernelIdeal.Fr.mem_uc Cert.KernelIdeal.main_arg13 (by decide))).trans (Cert.KernelIdeal.Fr.W4_main_arg13 m c)),
      ((h c _ (Cert.KernelIdeal.Fr.mem_uc Cert.KernelIdeal.main_arg14 (by decide))).trans (Cert.KernelIdeal.Fr.W4_main_arg14 m c)),
      ((h c _ (Cert.KernelIdeal.Fr.mem_uc Cert.KernelIdeal.main_arg15 (by decide))).trans (Cert.KernelIdeal.Fr.W4_main_arg15 m c)),
      ((h c _ (Cert.KernelIdeal.Fr.mem_uc Cert.KernelIdeal.main_arg16 (by decide))).trans (Cert.KernelIdeal.Fr.W4_main_arg16 m c)),
      ((h c _ (Cert.KernelIdeal.Fr.mem_uc Cert.KernelIdeal.main_arg17 (by decide))).trans (Cert.KernelIdeal.Fr.W4_main_arg17 m c)),
      ((h c _ (Cert.KernelIdeal.Fr.mem_uc Cert.KernelIdeal.main_arg18 (by decide))).trans (Cert.KernelIdeal.Fr.W4_main_arg18 m c)),
      ((h c _ (Cert.KernelIdeal.Fr.mem_uc Cert.KernelIdeal.main_arg19 (by decide))).trans (Cert.KernelIdeal.Fr.W4_main_arg19 m c)),
      ((h c _ (Cert.KernelIdeal.Fr.mem_uc Cert.KernelIdeal.main_arg20 (by decide))).trans (Cert.KernelIdeal.Fr.W4_main_arg20 m c)),
      ((h c _ (Cert.KernelIdeal.Fr.mem_uc Cert.KernelIdeal.main_arg21 (by decide))).trans (Cert.KernelIdeal.Fr.W4_main_arg21 m c)),
      ((h c _ (Cert.KernelIdeal.Fr.mem_uc Cert.KernelIdeal.main_arg22 (by decide))).trans (Cert.KernelIdeal.Fr.W4_main_arg22 m c)),
      ((h c _ (Cert.KernelIdeal.Fr.mem_uc Cert.KernelIdeal.main_arg23 (by decide))).trans (Cert.KernelIdeal.Fr.W4_main_arg23 m c)),
      ((h c _ (Cert.KernelIdeal.Fr.mem_uc Cert.KernelIdeal.main_arg24 (by decide))).trans (Cert.KernelIdeal.Fr.W4_main_arg24 m c)),
      ((h c _ (Cert.KernelIdeal.Fr.mem_uc Cert.KernelIdeal.main_arg25 (by decide))).trans (Cert.KernelIdeal.Fr.W4_main_arg25 m c))⟩)
      (Cert.KernelIdeal.Fr.run_main (F := Ideal) m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v60_eq]
      funext j
      obtain ⟨a, b, rfl⟩ : ∃ (a : Fin 10000) (b : Fin 10), j = ix2 a b := ⟨j 0, j 1, eq_ix2 j⟩
      beta_reduce
      rw [Cert.ReferenceIdeal.RefVal.ref_cls, Cert.KernelIdeal.Val.kernel_cls]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
    · rw [Cert.ReferenceIdeal.Read.val_main_v77_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))]
      funext j
      obtain ⟨a, b, rfl⟩ : ∃ (a : Fin 10000) (b : Fin 128), j = ix2 a b := ⟨j 0, j 1, eq_ix2 j⟩
      beta_reduce
      rw [Cert.ReferenceIdeal.RefVal.ref_rec, Cert.KernelIdeal.Val.kernel_rec]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
    · rw [Cert.ReferenceIdeal.Read.val_main_v12_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))]
      funext j
      obtain ⟨a, b, rfl⟩ : ∃ (a : Fin 10000) (b : Fin 192), j = ix2 a b := ⟨j 0, j 1, eq_ix2 j⟩
      beta_reduce
      rw [Cert.ReferenceIdeal.RefVal.ref_zn, Cert.KernelIdeal.Val.kernel_zn]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
